-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![16384, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel

variable [Facts]

def fn {F : FTy → Type} [FloatOps F] (main_arg0 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  main_v3
-- ==== Pre_finite_inputs_ReferenceIdeal.lean ====
abbrev S16384x1024 : Shape := ⟨2, ![16384, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel

variable [Facts]

def fn {F : FTy → Type} [FloatOps F] (main_arg0 : FVec F S16384x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  main_v3
-- ==== Kernel.lean ====
abbrev S2048x1024 : Shape := ⟨2, ![2048, 1024]⟩
abbrev S1x1024 : Shape := ⟨2, ![1, 1024]⟩
abbrev S8x1024 : Shape := ⟨2, ![8, 1024]⟩
abbrev S7 : Shape := ⟨1, ![7]⟩
abbrev S_ : Shape := ⟨0, ![]⟩
abbrev S1024 : Shape := ⟨1, ![1024]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .local _ .vmem, ⟨0, _⟩ => ⟨S2048x1024, .f32⟩
  | .local _ .vmem, ⟨1, _⟩ => ⟨S1x1024, .f32⟩
  | .local _ .vmem, ⟨2, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_32 : BitVec 32 := 1#32
  let v39 : BitVec 32 := Scalar.addi v2 c1_i32_32
  let c8_i32_33 : BitVec 32 := 8#32
  let v40 : BitVec 32 := Scalar.remsi v39 c8_i32_33
  let c1_i32_36 : BitVec 32 := 1#32
  let v41 : BitVec 32 := Scalar.muli v40 c1_i32_36
  let v42 : BitVec 32 := Scalar.addi c0_i32_37 v41
  v42.toNat
def k0_dev9 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_42 : BitVec 32 := 2#32
  let v49 : BitVec 32 := Scalar.addi v2 c2_i32_42
  let c8_i32_43 : BitVec 32 := 8#32
  let v50 : BitVec 32 := Scalar.remsi v49 c8_i32_43
  let c1_i32_46 : BitVec 32 := 1#32
  let v51 : BitVec 32 := Scalar.muli v50 c1_i32_46
  let v52 : BitVec 32 := Scalar.addi c0_i32_47 v51
  v52.toNat
def k0_dev10 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_52 : BitVec 32 := 3#32
  let v59 : BitVec 32 := Scalar.addi v2 c3_i32_52
  let c8_i32_53 : BitVec 32 := 8#32
  let v60 : BitVec 32 := Scalar.remsi v59 c8_i32_53
  let c1_i32_56 : BitVec 32 := 1#32
  let v61 : BitVec 32 := Scalar.muli v60 c1_i32_56
  let v62 : BitVec 32 := Scalar.addi c0_i32_57 v61
  v62.toNat
def k0_dev11 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_62 : BitVec 32 := 4#32
  let v69 : BitVec 32 := Scalar.addi v2 c4_i32_62
  let c8_i32_63 : BitVec 32 := 8#32
  let v70 : BitVec 32 := Scalar.remsi v69 c8_i32_63
  let c1_i32_66 : BitVec 32 := 1#32
  let v71 : BitVec 32 := Scalar.muli v70 c1_i32_66
  let v72 : BitVec 32 := Scalar.addi c0_i32_67 v71
  v72.toNat
def k0_dev12 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_72 : BitVec 32 := 5#32
  let v79 : BitVec 32 := Scalar.addi v2 c5_i32_72
  let c8_i32_73 : BitVec 32 := 8#32
  let v80 : BitVec 32 := Scalar.remsi v79 c8_i32_73
  let c1_i32_76 : BitVec 32 := 1#32
  let v81 : BitVec 32 := Scalar.muli v80 c1_i32_76
  let v82 : BitVec 32 := Scalar.addi c0_i32_77 v81
  v82.toNat
def k0_dev13 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_82 : BitVec 32 := 6#32
  let v89 : BitVec 32 := Scalar.addi v2 c6_i32_82
  let c8_i32_83 : BitVec 32 := 8#32
  let v90 : BitVec 32 := Scalar.remsi v89 c8_i32_83
  let c1_i32_86 : BitVec 32 := 1#32
  let v91 : BitVec 32 := Scalar.muli v90 c1_i32_86
  let v92 : BitVec 32 := Scalar.addi c0_i32_87 v91
  v92.toNat
def k0_dev14 (d0 : Dev nD) : Nat :=
  let c0_i32_97 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_92 : BitVec 32 := 7#32
  let v99 : BitVec 32 := Scalar.addi v2 c7_i32_92
  let c8_i32_93 : BitVec 32 := 8#32
  let v100 : BitVec 32 := Scalar.remsi v99 c8_i32_93
  let c1_i32_96 : BitVec 32 := 1#32
  let v101 : BitVec 32 := Scalar.muli v100 c1_i32_96
  let v102 : BitVec 32 := Scalar.addi c0_i32_97 v101
  v102.toNat
abbrev stage0_0 : Fin 1 → Memref sig .tc .vmem S2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  reduces_S2048x1024_S1024 : S2048x1024.Reduces [0] S1024
  shapeCasts_S1024_S1x1024 : S1024.ShapeCasts S1x1024
  inb_S8x1024_S1x1024_0_0 : ∀ a, (![0, 0] : Fin 2 → Nat) a + S1x1024.size a ≤ S8x1024.size a
  h_S1x1024 : 0 < S1x1024.numel
  shapeCasts_S1x1024_S1x1024 : S1x1024.ShapeCasts S1x1024
  hamt_7 : (7#32 : BitVec 32).msb = false
  inb_S7_S1_0 : ∀ a, (![0] : Fin 1 → Nat) a + S1.size a ≤ S7.size a
  squeezes_S1_S_ : S1.Squeezes S_
  inb_S8x1024_S1x1024_1_0 : ∀ a, (![1, 0] : Fin 2 → Nat) a + S1x1024.size a ≤ S8x1024.size a
  inb_S7_S1_1 : ∀ a, (![1] : Fin 1 → Nat) a + S1.size a ≤ S7.size a
  inb_S8x1024_S1x1024_2_0 : ∀ a, (![2, 0] : Fin 2 → Nat) a + S1x1024.size a ≤ S8x1024.size a
  inb_S7_S1_2 : ∀ a, (![2] : Fin 1 → Nat) a + S1.size a ≤ S7.size a
  inb_S8x1024_S1x1024_3_0 : ∀ a, (![3, 0] : Fin 2 → Nat) a + S1x1024.size a ≤ S8x1024.size a
  inb_S7_S1_3 : ∀ a, (![3] : Fin 1 → Nat) a + S1.size a ≤ S7.size a
  inb_S8x1024_S1x1024_4_0 : ∀ a, (![4, 0] : Fin 2 → Nat) a + S1x1024.size a ≤ S8x1024.size a
  inb_S7_S1_4 : ∀ a, (![4] : Fin 1 → Nat) a + S1.size a ≤ S7.size a
  inb_S8x1024_S1x1024_5_0 : ∀ a, (![5, 0] : Fin 2 → Nat) a + S1x1024.size a ≤ S8x1024.size a
  inb_S7_S1_5 : ∀ a, (![5] : Fin 1 → Nat) a + S1.size a ≤ S7.size a
  inb_S8x1024_S1x1024_6_0 : ∀ a, (![6, 0] : Fin 2 → Nat) a + S1x1024.size a ≤ S8x1024.size a
  inb_S7_S1_6 : ∀ a, (![6] : Fin 1 → Nat) a + S1.size a ≤ S7.size a
  inb_S8x1024_S1x1024_7_0 : ∀ a, (![7, 0] : Fin 2 → Nat) a + S1x1024.size a ≤ S8x1024.size a
  inb_S8x1024_S8x1024_0_0 : ∀ a, (![0, 0] : Fin 2 → Nat) a + S8x1024.size a ≤ S8x1024.size a
  h_S8x1024 : 0 < S8x1024.numel
  reduces_S8x1024_S1024 : S8x1024.Reduces [0] S1024
  inb_S1x1024_S1x1024_0_0 : ∀ a, (![0, 0] : Fin 2 → Nat) a + S1x1024.size a ≤ S1x1024.size a
  hcc0_scratch1 : 2 + S7.numel ≤ 16
  hcc0_scratch2 : 9 + S7.numel ≤ 16
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  hstage0_0 : ∀ j, (stage0_0 j).IsWhole
  hstage0_1 : ∀ j, (stage0_1 j).IsWhole

variable [Facts₀]

abbrev cc0_scratch1 : DmaSems sig S7 := SemArray.consecutive 2 S7 hcc0_scratch1
abbrev cc0_scratch2 : DmaSems sig S7 := SemArray.consecutive 9 S7 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S_ : Shape := ⟨0, ![]⟩
abbrev S1024 : Shape := ⟨1, ![1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S_, .f32⟩
  | .hbm, ⟨2, _⟩ => ⟨S1024, .f32⟩
  | .hbm, ⟨3, _⟩ => ⟨S1x1024, .f32⟩
  | .hbm, ⟨4, _⟩ => ⟨S_, .f32⟩
  | .hbm, ⟨5, _⟩ => ⟨S1x1024, .f32⟩
  | .hbm, ⟨6, _⟩ => ⟨S1x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S16384x1024_S1024_d0 : S16384x1024.ReducesTo [0] S1024
  h_S_ : 0 < S_.numel
  bcast_S1024_S1x1024_1 : S1024.BroadcastsInDim S1x1024 (![1] : Fin 1 → Fin S1x1024.rank)
  bcast_S_S1x1024 : S_.BroadcastsInDim S1x1024 (![] : Fin 0 → Fin S1x1024.rank)

variable [Facts₀]

class Facts : Prop extends Facts₀ where

variable [Facts]
-- ==== Proof.Mesh.lean ====
/-
  The ring of eight devices the kernel runs on: device `c` addresses the device `d` places further round
  (`fwd c d`, the printed chains `(c + d) % 8`), and is addressed by the device `d` places back (`bwd c d`).
  The two are inverse to each other at a fixed distance, and the printed device chains are `fwd` at distances 1 to 7.
-/
import proofs.«900565_g7700000000000566_dist_mean_ax0_shard0_i_m2048_n1024_v7x_i8_bf16_1_alg».proof.Proof.Gen.KernelIdeal

noncomputable section

namespace Cert.KernelIdeal.Mesh

open Cert.KernelIdeal Cert.KernelIdeal.Gen
open Idealize.ShloMosaic

/-- The device `d` places further round the ring from `c`. -/
def fwd (c : Dev nD) (d : Fin 8) : Dev nD := ⟨(c.val + d.val) % 8, Nat.mod_lt _ (by decide)⟩
/-- The device `d` places back round the ring from `c`. -/
def bwd (c : Dev nD) (d : Fin 8) : Dev nD := ⟨(c.val + (8 - d.val)) % 8, Nat.mod_lt _ (by decide)⟩

theorem bwd_fwd (c : Dev nD) (d : Fin 8) : bwd (fwd c d) d = c := by revert c d; decide
theorem fwd_bwd (c : Dev nD) (d : Fin 8) : fwd (bwd c d) d = c := by revert c d; decide
theorem fwd_zero (c : Dev nD) : fwd c 0 = c := by revert c; decide
theorem bwd_zero (c : Dev nD) : bwd c 0 = c := by revert c; decide
theorem fwd_ne (c : Dev nD) (d : Fin 8) (hd : d ≠ 0) : fwd c d ≠ c := by revert c d; decide
theorem bwd_ne (c : Dev nD) (d : Fin 8) (hd : d ≠ 0) : bwd c d ≠ c := by revert c d; decide
/-- Going `d` places on is going `8 - d` places back. -/
theorem fwd_eq_bwd (c : Dev nD) (d : Fin 8) : fwd c d = bwd c (0 - d) := by revert c d; decide
theorem bwd_eq_fwd (c : Dev nD) (d : Fin 8) : bwd c d = fwd c (0 - d) := by revert c d; decide
/-- The distance from `c` on to `p`. -/
def dist (c p : Dev nD) : Fin 8 := ⟨(p.val + (8 - c.val)) % 8, Nat.mod_lt _ (by decide)⟩
theorem fwd_dist (c p : Dev nD) : fwd c (dist c p) = p := by revert c p; decide
theorem dist_fwd (c : Dev nD) (d : Fin 8) : dist c (fwd c d) = d := by revert c d; decide
theorem dist_bwd (c : Dev nD) (d : Fin 8) : dist (bwd c d) c = d := by revert c d; decide
theorem bwd_dist (c p : Dev nD) : bwd p (dist c p) = c := by revert c p; decide
theorem dist_ne_zero (c p : Dev nD) (h : p ≠ c) : dist c p ≠ 0 := by revert c p; decide
theorem fwd_inj (d : Fin 8) : Function.Injective (fun c : Dev nD => fwd c d) := by revert d; decide
theorem bwd_inj (d : Fin 8) : Function.Injective (fun c : Dev nD => bwd c d) := by revert d; decide

/-- The ring step of distance `d`, as a permutation of the devices. -/
def ring (d : Fin 8) : Dev nD ≃ Dev nD := ⟨fun c => fwd c d, fun c => bwd c d, fun c => bwd_fwd c d, fun c => fwd_bwd c d⟩

/-- The signals' device chains: the `d`-th names the device `d` places on. -/
theorem dev1_eq (c : Dev nD) : (⟨k0_dev1 c, k0_dev1_lt c⟩ : Dev nD) = fwd c 1 := Fin.ext (k0_dev1_eq c)
theorem dev2_eq (c : Dev nD) : (⟨k0_dev2 c, k0_dev2_lt c⟩ : Dev nD) = fwd c 2 := Fin.ext (k0_dev2_eq c)
theorem dev3_eq (c : Dev nD) : (⟨k0_dev3 c, k0_dev3_lt c⟩ : Dev nD) = fwd c 3 := Fin.ext (k0_dev3_eq c)
theorem dev4_eq (c : Dev nD) : (⟨k0_dev4 c, k0_dev4_lt c⟩ : Dev nD) = fwd c 4 := Fin.ext (k0_dev4_eq c)
theorem dev5_eq (c : Dev nD) : (⟨k0_dev5 c, k0_dev5_lt c⟩ : Dev nD) = fwd c 5 := Fin.ext (k0_dev5_eq c)
theorem dev6_eq (c : Dev nD) : (⟨k0_dev6 c, k0_dev6_lt c⟩ : Dev nD) = fwd c 6 := Fin.ext (k0_dev6_eq c)
theorem dev7_eq (c : Dev nD) : (⟨k0_dev7 c, k0_dev7_lt c⟩ : Dev nD) = fwd c 7 := Fin.ext (k0_dev7_eq c)
/-- The transfers' device chains: the copy into row `d` goes to the device `d` places on. -/
theorem dev8_eq (c : Dev nD) : (⟨k0_dev8 c, k0_dev8_lt c⟩ : Dev nD) = fwd c 1 := Fin.ext (k0_dev8_eq c)
theorem dev9_eq (c : Dev nD) : (⟨k0_dev9 c, k0_dev9_lt c⟩ : Dev nD) = fwd c 2 := Fin.ext (k0_dev9_eq c)
theorem dev10_eq (c : Dev nD) : (⟨k0_dev10 c, k0_dev10_lt c⟩ : Dev nD) = fwd c 3 := Fin.ext (k0_dev10_eq c)
theorem dev11_eq (c : Dev nD) : (⟨k0_dev11 c, k0_dev11_lt c⟩ : Dev nD) = fwd c 4 := Fin.ext (k0_dev11_eq c)
theorem dev12_eq (c : Dev nD) : (⟨k0_dev12 c, k0_dev12_lt c⟩ : Dev nD) = fwd c 5 := Fin.ext (k0_dev12_eq c)
theorem dev13_eq (c : Dev nD) : (⟨k0_dev13 c, k0_dev13_lt c⟩ : Dev nD) = fwd c 6 := Fin.ext (k0_dev13_eq c)
theorem dev14_eq (c : Dev nD) : (⟨k0_dev14 c, k0_dev14_lt c⟩ : Dev nD) = fwd c 7 := Fin.ext (k0_dev14_eq c)

end Cert.KernelIdeal.Mesh

end
-- ==== Proof.Gathered.lean ====
/-
  What the exchange leaves in a device's eight-row scratch, and the kernel's result from it, as pure functions of
  the devices' input blocks: row `d` of device `c`'s scratch holds the column sums of the block of the device `d`
  places back round the ring (row 0 its own), and the result is the column sums of those eight rows scaled by 2⁻¹⁴.
-/
import proofs.«900565_g7700000000000566_dist_mean_ax0_shard0_i_m2048_n1024_v7x_i8_bf16_1_alg».proof.Proof.Mesh
import proofs.«900565_g7700000000000566_dist_mean_ax0_shard0_i_m2048_n1024_v7x_i8_bf16_1_alg».proof.Proof.Gen.KernelIdeal.Skeleton
import Idealize.ShloMosaic.Lib.ValueIdx

noncomputable section

namespace Cert.KernelIdeal.Mesh

open Cert.KernelIdeal Cert.KernelIdeal.Gen
open Idealize.ShloMosaic

variable {F : FTy → Type} [FloatOps F]

/-- Column `l` of a one-row vector. -/
abbrev col (l : Fin 1024) : S1x1024.Idx := ValueIdx.ix2 (0 : Fin 1) l
/-- Row `r`, column `l` of the eight-row scratch. -/
abbrev cell (r : Fin 8) (l : Fin 1024) : S8x1024.Idx := ValueIdx.ix2 r l

/-- The column sums of one device's block, as the row the kernel stores and sends. -/
abbrev rowOf (x : Vec F S2048x1024 .f32) : Vec F S1x1024 .f32 := k0_pay2 x

/-- Device `c`'s scratch after the exchange: row `d` is the row of the device `d` places back. -/
def gathered (xs : Dev nD → Vec F S2048x1024 .f32) (c : Dev nD) : Vec F S8x1024 .f32 :=
  fun i => rowOf (xs (bwd c ⟨(i 0).val, (i 0).isLt⟩)) (col ⟨(i 1).val, (i 1).isLt⟩)

theorem gathered_cell (xs : Dev nD → Vec F S2048x1024 .f32) (c : Dev nD) (r : Fin 8) (l : Fin 1024) :
    gathered xs c (cell r l) = rowOf (xs (bwd c r)) (col l) := rfl

/-- Device `c`'s result: the eight rows summed by columns and scaled. -/
def result (xs : Dev nD → Vec F S2048x1024 .f32) (c : Dev nD) : Vec F S1x1024 .f32 := k0_pay1 (gathered xs c)

end Cert.KernelIdeal.Mesh

end
-- ==== Proof.Proto.lean ====
/-
  The exchange's protocol on the ring of eight devices, under the rounds discipline.
  Every device holds an eight-row scratch. Row 0 is its own partial sum; row `j+1` is the landing row of the copy from the device
  `j+1` places back. Before it copies, a device must know that each target is inside the kernel: each device signals the barrier
  semaphore of the seven others and waits for seven units. A signal to the device `d` places on hands over the signaller's own landing
  row `8 - d` (the row that device's copy will fill) and the fact that the matching receive cell stands at round 0.
  Cells per device: one barrier cell with seven unit duties, duty `j` paid by the device `j+1` places on; seven send cells and seven
  receive cells of one duty each, the send cell's payload a share of row 0 (the source of all seven copies), the receive cell's
  payload its landing row holding the sender's partial sum.
-/
import proofs.«900565_g7700000000000566_dist_mean_ax0_shard0_i_m2048_n1024_v7x_i8_bf16_1_alg».proof.Proof.Gathered
import proofs.«900565_g7700000000000566_dist_mean_ax0_shard0_i_m2048_n1024_v7x_i8_bf16_1_alg».proof.Proof.Gen.KernelIdeal.Skeleton
import proofs.«900565_g7700000000000566_dist_mean_ax0_shard0_i_m2048_n1024_v7x_i8_bf16_1_alg».proof.Proof.Gen.KernelIdeal.Launch
import proofs.«900565_g7700000000000566_dist_mean_ax0_shard0_i_m2048_n1024_v7x_i8_bf16_1_alg».proof.Proof.Gen.KernelIdeal.Points
import proofs.«900565_g7700000000000566_dist_mean_ax0_shard0_i_m2048_n1024_v7x_i8_bf16_1_alg».proof.Proof.Gen.KernelIdeal.Frame
import Idealize.ShloMosaic.Lib.Pipeline.Launch
import Idealize.ShloMosaic.Lib.Pipeline.Kit
import Idealize.ShloMosaic.Lib.Pipeline.Value
import Idealize.ShloMosaic.Lib.Tactic

noncomputable section

namespace Cert.KernelIdeal.Proto

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the exchange's (duties `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs, the rows and the cells -/

abbrev xM : Memref sig .tc .vmem S2048x1024 .f32 := Memref.whole cc0_stg0_0
abbrev oM : Memref sig .tc .vmem S1x1024 .f32 := Memref.whole cc0_stg1_0
abbrev gM : Memref sig .tc .vmem S8x1024 .f32 := Memref.whole cc0_scratch0

theorem row_inb (r : Fin 8) : ∀ a, (![r.val, 0] : Fin 2 → Nat) a + S1x1024.size a ≤ S8x1024.size a := by revert r; decide
/-- Row `r` of the scratch, as a rectangle and as a memref. -/
abbrev rowR (r : Fin 8) : Rect S8x1024 := Rect.unit (s := S8x1024) ![r.val, 0] S1x1024.size (row_inb r)
abbrev rowM (r : Fin 8) : Memref sig .tc .vmem S1x1024 .f32 := gM.slice (rowR r) (fun _ => rfl)

/-- The runtime's barrier semaphore of collective id 0 (unscoped); the seven send and seven receive DMA semaphores (scoped scratch). -/
abbrev barS : Sem sig := (SemArray.scalar (sig.barrier 0 rfl) : Sems sig S_).sem
abbrev sendS (j : Fin 7) : DmaSem sig := ⟨2 + j.val, by have := j.isLt; show 2 + j.val < 16; omega⟩
abbrev recvS (j : Fin 7) : DmaSem sig := ⟨9 + j.val, by have := j.isLt; show 9 + j.val < 16; omega⟩

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- The row a copy at distance `j+1` lands in, and that distance round the ring. -/
abbrev rw' (j : Fin 7) : Fin 8 := j.succ

example : (((cc0_scratch1 : DmaSems sig S7).slice (Rect.unit (s := S7) ![3] S1.size inb_S7_S1_3)).squeeze S_ squeezes_S1_S_).sem = sendS 3 := rfl
example : (((cc0_scratch2 : DmaSems sig S7).slice (Rect.unit (s := S7) ![3] S1.size inb_S7_S1_3)).squeeze S_ squeezes_S1_S_).sem = recvS 3 := rfl
example : (gM.slice (Rect.unit (s := S8x1024) ![3, 0] S1x1024.size inb_S8x1024_S1x1024_3_0) (fun _ => rfl) : Memref sig .tc .vmem S1x1024 .f32) = rowM 3 := rfl

abbrev N : ℕ := (rowM 0 : Memref sig .tc .vmem S1x1024 .f32).view.dmaCredit
theorem N_pos : 0 < N := View.dmaCredit_pos _ (by decide)
theorem amount_row (r : Fin 8) (q : DmaSem sig) : (rowM r : Memref sig .tc .vmem S1x1024 .f32).view.amount (.dma q) = N := rfl

/-- An index of the scratch lies in row `r` exactly when its row coordinate is `r`. -/
theorem mem_row (r : Fin 8) (i : S8x1024.Idx) :
    i ∈ (rowM r : Memref sig .tc .vmem S1x1024 .f32).view.set ↔ (i 0).val = r.val := by
  show i ∈ ((View.whole cc0_scratch0).slice (rowR r)).set ↔ _
  rw [View.set_slice_whole, Rect.mem_set_unit]
  constructor
  · intro h
    have h0 := h (0 : Fin 2)
    have e1 : (![r.val, 0] : Fin 2 → Nat) 0 = r.val := rfl
    have e2 : S1x1024.size (0 : Fin 2) = 1 := rfl
    rw [e1, e2] at h0; omega
  · intro h a
    have h1 : (i 1).val < 1024 := (i 1).isLt
    fin_cases a
    · show r.val ≤ (i 0).val ∧ (i 0).val < r.val + 1; omega
    · show 0 ≤ (i 1).val ∧ (i 1).val < 0 + 1024; omega

theorem rows_disjoint {r r' : Fin 8} (h : r ≠ r') :
    Disjoint (rowM r : Memref sig .tc .vmem S1x1024 .f32).view.set (rowM r' : Memref sig .tc .vmem S1x1024 .f32).view.set := by
  rw [Finset.disjoint_left]
  intro i hi hi'
  have a := (mem_row r i).mp hi
  have b := (mem_row r' i).mp hi'
  exact h (Fin.ext (a.symm.trans b))

theorem rows_cover : (Finset.univ : Finset S8x1024.Idx) = Finset.univ.biUnion fun r : Fin 8 => (rowM r : Memref sig .tc .vmem S1x1024 .f32).view.set := by
  ext i
  simp only [Finset.mem_univ, Finset.mem_biUnion, true_and, true_iff]
  exact ⟨⟨(i 0).val, (i 0).isLt⟩, (mem_row _ i).mpr rfl⟩

/-! ## Contents -/

/-- Device `c`'s input block, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- What device `c`'s scratch holds once the exchange is over: row `d` the partial sums of the device `d` places back. -/
def held (c : Dev nD) : Buf (Elt F) ((c : Thread nD τ).loc cc0_scratch0) := gathered (xstg m ρ) c

/-- The kernel's result on device `c`. -/
def outAt (c : Dev nD) : (cc0_stg1_0 : Ref sig .tc).ty.Contents (Elt F) := result (xstg m ρ) c

/-- Row `r` of device `c`'s scratch at share `q`, holding `f` there. -/
def rowPts (q : PosShare TreeShare) (c : Dev nD) (r : Fin 8) (f : Buf (Elt F) ((c : Thread nD τ).loc cc0_scratch0)) : sProp 𝕄 :=
  (rowM r : Memref sig .tc .vmem S1x1024 .f32).view.loc (c : Thread nD τ) ↦[(rowM r : Memref sig .tc .vmem S1x1024 .f32).view.set]{q} f
def xPts (c : Dev nD) : sProp 𝕄 :=
  (xM : Memref sig .tc .vmem S2048x1024 .f32).view.loc (c : Thread nD τ) ↦[(xM : Memref sig .tc .vmem S2048x1024 .f32).view.set]{fullShare} xstg m ρ c

instance rowPts_storable (q) (c : Dev nD) (r) (f) : BI.Storable (upEmb : UEmb _ 𝕄) (rowPts (F := F) q c r f) := by unfold rowPts; infer_instance

/-- The share of row 0 that the `k`-th and later copies read, and the `j`-th copy's own: halves of halves, the last copy keeping the rest. -/
def restShr : ℕ → PosShare TreeShare
  | 0 => fullShare
  | k + 1 => (restShr k).right
def shr (j : Fin 7) : PosShare TreeShare := if j.val = 6 then restShr 6 else (restShr j.val).left

theorem rowPts_share (k : ℕ) (c : Dev nD) (r : Fin 8) (f) :
    (rowPts (F := F) (restShr k) c r f) ⊣⊢ iprop(rowPts (restShr k).left c r f ∗ rowPts (restShr (k + 1)) c r f) := by
  unfold rowPts; exact pointsTo_share (PosShare.mem_left_op_right (restShr k))

/-! ## The schedule -/

/-- Which of the exchange's DMA semaphores a semaphore is: a receive (`true`) or send (`false`) semaphore, and its index. -/
def xferOf : SemLoc sig → Option (Bool × Fin 7)
  | .dma q => if h : 2 ≤ q.val ∧ q.val < 9 then some (false, ⟨q.val - 2, by omega⟩)
      else if h' : 9 ≤ q.val ∧ q.val < 16 then some (true, ⟨q.val - 9, by omega⟩) else none
  | _ => none

theorem xferOf_send (j : Fin 7) : xferOf (.dma (sendS j)) = some (false, j) := by revert j; decide
theorem xferOf_recv (j : Fin 7) : xferOf (.dma (recvS j)) = some (true, j) := by revert j; decide
theorem xferOf_bar : xferOf (.reg barS) = none := rfl

/-- What the device `j+1` places on from `t` hands `t` with its barrier signal: its landing row `j+1`, and that its receive cell `j` stands at round 0. -/
def barPay (t : Dev nD) (j : Fin 7) : sProp 𝕄 :=
  iprop((∃ f, rowPts fullShare (fwd t j.succ) j.succ f) ∗ reached ER (recvCell (fwd t j.succ) j) 0)
def recvPay (c : Dev nD) (j : Fin 7) : sProp 𝕄 := rowPts fullShare c j.succ (held m ρ c)
def sendPay (c : Dev nD) (j : Fin 7) : sProp 𝕄 := rowPts (shr j) c 0 (held m ρ c)

abbrev IsBar (g : GSem nD τ sig) : Prop := g.1.2 = .tc ∧ g.2 = .reg barS
abbrev IsXfer (g : GSem nD τ sig) : Prop := g.1.2 = .tc ∧ (xferOf g.2).isSome = true

/-- One round, round 0: a barrier cell has seven unit duties; a send or receive cell the one duty `0` of a row's credit. -/
def exRd : Rounds.Schedule (GSem nD τ sig) (Fin 7) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else match xferOf g.2 with
      | some (true, j) => recvPay m ρ g.1.1 j
      | some (false, j) => sendPay m ρ g.1.1 j
      | none => iprop(emp)
  amount_pos g _ _ _ := by
    by_cases h : g.2 = .reg barS
    · rw [if_pos h]; exact Nat.one_pos
    · rw [if_neg h]; exact N_pos

instance exRd_payload_storable (g : GSem nD τ sig) (r : ℕ) (d : Fin 7) :
    BI.Storable (upEmb : UEmb _ 𝕄) ((exRd (F := F) m ρ).payload g r d) := by
  show BI.Storable upEmb (if g.2 = .reg barS then barPay g.1.1 d
    else match xferOf g.2 with
      | some (true, j) => recvPay m ρ g.1.1 j
      | some (false, j) => sendPay m ρ g.1.1 j
      | none => iprop(emp))
  unfold barPay recvPay sendPay
  (repeat' split) <;> infer_instance

section Sched
variable (c : Dev nD)

theorem send_ne_bar (j : Fin 7) : (SemLoc.dma (sendS j) : SemLoc sig) ≠ .reg barS := fun h => by cases h
theorem recv_ne_bar (j : Fin 7) : (SemLoc.dma (recvS j) : SemLoc sig) ≠ .reg barS := fun h => by cases h
theorem not_bar_send (j : Fin 7) : ¬ IsBar (sendCell c j) := fun h => send_ne_bar j h.2
theorem not_bar_recv (j : Fin 7) : ¬ IsBar (recvCell c j) := fun h => recv_ne_bar j h.2

theorem duties_bar : (exRd (F := F) m ρ).duties (barCell c) 0 = Finset.univ := by dsimp only [exRd]; exact if_pos ⟨rfl, rfl, rfl⟩
theorem duties_send (j : Fin 7) : (exRd (F := F) m ρ).duties (sendCell c j) 0 = {0} := by
  dsimp only [exRd]; rw [if_neg (fun h => not_bar_send c j h.2)]; exact if_pos ⟨rfl, rfl, by rw [xferOf_send]; rfl⟩
theorem duties_recv (j : Fin 7) : (exRd (F := F) m ρ).duties (recvCell c j) 0 = {0} := by
  dsimp only [exRd]; rw [if_neg (fun h => not_bar_recv c j h.2)]; exact if_pos ⟨rfl, rfl, by rw [xferOf_recv]; rfl⟩
theorem duties_later (g : GSem nD τ sig) : ∀ r, 1 ≤ r → (exRd (F := F) m ρ).duties g r = ∅ :=
  fun r hr => by dsimp only [exRd]; rw [if_neg fun h => by omega, if_neg fun h => by omega]

theorem amount_bar (d : Fin 7) : (exRd (F := F) m ρ).amount (barCell c) 0 d = 1 := by dsimp only [exRd]; exact if_pos rfl
theorem amount_send (j d : Fin 7) : (exRd (F := F) m ρ).amount (sendCell c j) 0 d = N := by dsimp only [exRd]; exact if_neg (send_ne_bar j)
theorem amount_recv (j d : Fin 7) : (exRd (F := F) m ρ).amount (recvCell c j) 0 d = N := by dsimp only [exRd]; exact if_neg (recv_ne_bar j)

theorem expect_bar : (exRd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send (j : Fin 7) : (exRd (F := F) m ρ).expect (sendCell c j) 0 = N := by
  unfold Schedule.expect Schedule.amountOf; rw [duties_send, Finset.sum_singleton, amount_send]
theorem expect_recv (j : Fin 7) : (exRd (F := F) m ρ).expect (recvCell c j) 0 = N := by
  unfold Schedule.expect Schedule.amountOf; rw [duties_recv, Finset.sum_singleton, amount_recv]

theorem payload_bar (d : Fin 7) : (exRd (F := F) m ρ).payload (barCell c) 0 d = barPay c d := by dsimp only [exRd]; rw [if_pos rfl]
theorem payload_send (j d : Fin 7) : (exRd (F := F) m ρ).payload (sendCell c j) 0 d = sendPay m ρ c j := by
  dsimp only [exRd]; rw [if_neg (send_ne_bar j), xferOf_send]
theorem payload_recv (j d : Fin 7) : (exRd (F := F) m ρ).payload (recvCell c j) 0 d = recvPay m ρ c j := by
  dsimp only [exRd]; rw [if_neg (recv_ne_bar j), xferOf_recv]

/-- The rest of the barrier cell's round, no duty taken: all seven payloads. -/
theorem rest_bar : bigSep ((exRd (F := F) m ρ).duties (barCell c) 0 \ ∅) (fun d => (exRd (F := F) m ρ).payload (barCell c) 0 d)
    = bigSep Finset.univ fun d : Fin 7 => barPay (F := F) c d := by
  rw [Finset.sdiff_empty, duties_bar]; exact bigSep_congr fun d _ => payload_bar m ρ c d
theorem rest_send (j : Fin 7) : bigSep ((exRd (F := F) m ρ).duties (sendCell c j) 0 \ ∅) (fun d => (exRd (F := F) m ρ).payload (sendCell c j) 0 d) = sendPay m ρ c j := by
  rw [Finset.sdiff_empty, duties_send, bigSep_singleton, payload_send]
theorem rest_recv (j : Fin 7) : bigSep ((exRd (F := F) m ρ).duties (recvCell c j) 0 \ ∅) (fun d => (exRd (F := F) m ρ).payload (recvCell c j) 0 d) = recvPay m ρ c j := by
  rw [Finset.sdiff_empty, duties_recv, bigSep_singleton, payload_recv]

end Sched

/-! ## What each core owes at launch; the levels -/

/-- The ring distances pair up: the device `d+1` places on sees this one `(6-d)+1` places on. -/
def rev (d : Fin 7) : Fin 7 := ⟨6 - d.val, by omega⟩
theorem rev_rev (d : Fin 7) : rev (rev d) = d := by revert d; decide
theorem fwd_fwd_rev (c : Dev nD) (d : Fin 7) : fwd (fwd c d.succ) (rev d).succ = c := by revert c d; decide
theorem bwd_succ_eq (c : Dev nD) (d : Fin 7) : bwd c d.succ = fwd c (rev d).succ := by revert c d; decide

/-- The unit device `c` owes the barrier cell of the device `d+1` places on, and the row's credit it owes that device's receive cell `d`. -/
def sigT (c : Dev nD) (d : Fin 7) : CellTallies nD τ sig Unit := tallyAt (barCell (fwd c d.succ)) () 1
def rcvT (c : Dev nD) (d : Fin 7) : CellTallies nD τ sig Unit := tallyAt (recvCell (fwd c d.succ) d) () N

/-- What is owed with `n` copies still to make: the receive credits of the last `n`. -/
def owedR (c : Dev nD) : ℕ → CellTallies nD τ sig Unit
  | 0 => 0
  | n + 1 => owedR c n + rcvT c ⟨6 - n, by omega⟩
/-- What is owed with `n` signals still to make: every receive credit, and the units of the last `n` signals. -/
def owedS (c : Dev nD) : ℕ → CellTallies nD τ sig Unit
  | 0 => owedR c 7
  | n + 1 => owedS c n + sigT c ⟨6 - n, by omega⟩
def O₀ (c : Dev nD) : CellTallies nD τ sig Unit := owedS c 7

theorem owedR_pos {c : Dev nD} {g : GSem nD τ sig} {u : Unit} : ∀ n, 0 < owedR c n g u → ∃ d : Fin 7, g = recvCell (fwd c d.succ) d
  | 0, h => by
    rw [show owedR c 0 = 0 from rfl, Pi.zero_apply, Finsupp.zero_apply] at h
    exact absurd h (Nat.lt_irrefl 0)
  | n + 1, h => by
    rcases Pipeline.add_pos_cases (show 0 < (owedR c n + rcvT c ⟨6 - n, by omega⟩) g u from h) with h | h
    · exact owedR_pos n h
    · exact ⟨_, (Pipeline.tallyAt_pos h).1⟩

theorem owedS_pos {c : Dev nD} {g : GSem nD τ sig} {u : Unit} :
    ∀ n, 0 < owedS c n g u → (∃ d : Fin 7, g = recvCell (fwd c d.succ) d) ∨ ∃ d : Fin 7, g = barCell (fwd c d.succ)
  | 0, h => .inl (owedR_pos 7 h)
  | n + 1, h => by
    rcases Pipeline.add_pos_cases (show 0 < (owedS c n + sigT c ⟨6 - n, by omega⟩) g u from h) with h | h
    · exact owedS_pos n h
    · exact .inr ⟨_, (Pipeline.tallyAt_pos h).1⟩

def L (g : GSem nD τ sig) : Finset Unit := if g.1.2 = .tc then {()} else ∅
def isRecv (s : SemLoc sig) : Bool := match xferOf s with | some (true, _) => true | _ => false
/-- Barrier cells at 1, receive cells at 2, everything else (staging, send) at 0. -/
def lv (g : GSem nD τ sig) (_ : Unit) : ℕ := if g.2 = .reg barS then 1 else if isRecv g.2 = true then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (j : Fin 7) (u : Unit) : lv (recvCell c j) u = 2 := by
  unfold lv; rw [if_neg (recv_ne_bar j), if_pos (by unfold isRecv; rw [xferOf_recv])]
theorem lv_send (c : Dev nD) (j : Fin 7) (u : Unit) : lv (sendCell c j) u = 0 := by
  unfold lv; rw [if_neg (send_ne_bar j), if_neg (by unfold isRecv; rw [xferOf_send]; exact Bool.false_ne_true)]

/-- A wait on a cell at level 0, with any number of signals still to make: everything owed sits above it. -/
theorem mayWait_low (c : Dev nD) (s : SemLoc sig) (hs : lv ((c : Thread nD τ), s) () = 0) (n : ℕ) :
    (levAts L lv : sProp 𝕄) ⊢ MayWait (c : Thread nD τ) s () (owedS c n) :=
  Pipeline.mayWait_of_levAts (by rw [L_tc]; exact Finset.mem_singleton_self _) fun g i hg => by
    rcases owedS_pos n hg with ⟨d, rfl⟩ | ⟨d, rfl⟩
    · exact ⟨by rw [L_tc]; exact Finset.mem_singleton_self _, by rw [hs, lv_recv]; decide⟩
    · exact ⟨by rw [L_tc]; exact Finset.mem_singleton_self _, by rw [hs, lv_bar]; decide⟩

/-- At its barrier wait a device owes the seven receive credits only: receive cells, above its barrier cell. -/
theorem mayWait_bar (c : Dev nD) :
    (levAts L lv : sProp 𝕄) ⊢ MayWait (c : Thread nD τ) (.reg barS) () (owedR c 7) :=
  Pipeline.mayWait_of_levAts (by rw [L_tc]; exact Finset.mem_singleton_self _) fun g i hg => by
    obtain ⟨d, rfl⟩ := owedR_pos 7 hg
    exact ⟨by rw [L_tc]; exact Finset.mem_singleton_self _, by rw [lv_bar, lv_recv]; decide⟩

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The whole scratch of device `c`. -/
def scrPts (c : Dev nD) (f : Buf (Elt F) ((c : Thread nD τ).loc cc0_scratch0)) : sProp 𝕄 :=
  (((c : Thread nD τ).loc cc0_scratch0) ↦{fullShare} f : sProp 𝕄)

/-- Every cell's invariant, under the names the launch allocated them at, and that every cell stands at round 0: what every device knows. -/
def records (Kb : Dev nD → ℕ) (Ks Kr : Dev nD → Fin 7 → ℕ) : sProp 𝕄 :=
  iprop((bigSep Finset.univ fun c : Dev nD => cellInv ER (exRd m ρ) (Kb c) (barCell c))
    ∗ (bigSep Finset.univ fun c : Dev nD => bigSep Finset.univ fun j : Fin 7 => cellInv ER (exRd m ρ) (Ks c j) (sendCell c j))
    ∗ (bigSep Finset.univ fun c : Dev nD => bigSep Finset.univ fun j : Fin 7 => cellInv ER (exRd m ρ) (Kr c j) (recvCell c j))
    ∗ (bigSep Finset.univ fun c : Dev nD => reached ER (barCell c) 0)
    ∗ (bigSep Finset.univ fun c : Dev nD => bigSep Finset.univ fun j : Fin 7 => reached ER (sendCell c j) 0)
    ∗ (bigSep Finset.univ fun c : Dev nD => bigSep Finset.univ fun j : Fin 7 => reached ER (recvCell c j) 0))

instance records_persistent (Kb : Dev nD → ℕ) (Ks Kr : Dev nD → Fin 7 → ℕ) : BI.Persistent (records m ρ Kb Ks Kr) := by
  unfold records; infer_instance

/-- The tokens of the duties device `c` pays: on the barrier cell of the device `d+1` places on, the duty that device knows `c` by;
    on that device's receive cell `d`; on its own send cells. -/
def payToks (c : Dev nD) : sProp 𝕄 :=
  iprop((bigSep Finset.univ fun d : Fin 7 => dutyTok ER (barCell (fwd c d.succ)) 0 (rev d))
    ∗ (bigSep Finset.univ fun d : Fin 7 => dutyTok ER (recvCell (fwd c d.succ) d) 0 (0 : Fin 7))
    ∗ (bigSep Finset.univ fun j : Fin 7 => dutyTok ER (sendCell c j) 0 (0 : Fin 7)))

/-- What stays with device `c` alone: its positions in its fifteen cells and the tokens it pays with. -/
def linear (c : Dev nD) : sProp 𝕄 :=
  iprop(atPos ER (barCell c) 0 ∅ 0 ∗ (bigSep Finset.univ fun j : Fin 7 => atPos ER (sendCell c j) 0 ∅ 0)
    ∗ (bigSep Finset.univ fun j : Fin 7 => atPos ER (recvCell c j) 0 ∅ 0) ∗ payToks c)

def ghost (Kb : Dev nD → ℕ) (Ks Kr : Dev nD → Fin 7 → ℕ) (c : Dev nD) : sProp 𝕄 := iprop(records m ρ Kb Ks Kr ∗ linear c)

/-- What device `c`'s body starts from: the ghost state at some names, its barrier's seven units and its receive cells' credits, the level facts. -/
def start (c : Dev nD) : sProp 𝕄 :=
  iprop((∃ Kb Ks Kr, ghost m ρ Kb Ks Kr c) ∗ cred (tallyAt (barCell c) () 7)
    ∗ (bigSep Finset.univ fun j : Fin 7 => cred (tallyAt (recvCell c j) () N)) ∗ levAts L lv)

def Φ₀ (c : Dev nD) : sProp 𝕄 := iprop(start m ρ c ∗ ∃ f, scrPts c f)
/-- After the point: the scratch back whole, the fourteen own cells at zero, closed. -/
def Φ₁ (c : Dev nD) : sProp 𝕄 :=
  iprop((∃ f, scrPts c f) ∗ (bigSep Finset.univ fun j : Fin 7 => semVal (sendCell c j) 0) ∗ (bigSep Finset.univ fun j : Fin 7 => semVal (recvCell c j) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (Kb : Dev nD → ℕ) (Ks Kr : Dev nD → Fin 7 → ℕ) (c : Dev nD) : sProp 𝕄 :=
  iprop((ghost m ρ Kb Ks Kr c ∗ cred (tallyAt (barCell c) () 7) ∗ (bigSep Finset.univ fun j : Fin 7 => cred (tallyAt (recvCell c j) () N))
      ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

/-- The body as the pipeline calls it at its one point. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) cc0_scratch1 cc0_scratch2

end Cert.KernelIdeal.Proto

end
-- ==== Proof.Steps.lean ====
/-
  The pieces one device's body is stepped with: the scratch as its eight rows, what each row is to hold, row 0's seven shares, and one
  lemma per kind of statement — a signal that hands a landing row over, a copy of row 0 into a peer's row, the waits that bring rows and
  shares back, a cell's closing — each the library's rule at this protocol's cells and payloads.
-/
import proofs.«900565_g7700000000000566_dist_mean_ax0_shard0_i_m2048_n1024_v7x_i8_bf16_1_alg».proof.Proof.Proto

noncomputable section

namespace Cert.KernelIdeal.Proto

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The rows of the scratch -/

/-- The whole scratch is its eight rows. -/
theorem scr_split (c : Dev nD) (f : Buf (Elt F) ((c : Thread nD τ).loc cc0_scratch0)) :
    (scrPts (F := F) c f) = bigSep Finset.univ fun r : Fin 8 => rowPts fullShare c r f := by
  unfold scrPts rowPts
  refine Eq.trans ?_ (pointsTo_biUnion (q := fullShare) (f := f) (Finset.univ : Finset (Fin 8))
    (fun r : Fin 8 => (rowM r : Memref sig .tc .vmem S1x1024 .f32).view.set) (fun r _ r' _ h => rows_disjoint h))
  exact congrArg (fun S => (((c : Thread nD τ).loc cc0_scratch0) ↦[S]{fullShare} f : sProp 𝕄)) rows_cover

/-- Where column `y` of row `r` lies in the scratch. -/
theorem emb_row (r : Fin 8) (y : S1x1024.Idx) :
    ((rowM r : Memref sig .tc .vmem S1x1024 .f32).view.emb y : S8x1024.Idx) = cell r ⟨(y 1).val, (y 1).isLt⟩ := by
  funext a
  refine Fin.ext ?_
  have h0 : (y 0).val = 0 := Nat.lt_one_iff.mp (y 0).isLt
  match a with
  | ⟨0, _⟩ => show r.val + 1 * (y 0).val = r.val; omega
  | ⟨1, _⟩ => show 0 + 1 * (y 1).val = (y 1).val; omega

theorem col_eta (y : S1x1024.Idx) : col ⟨(y 1).val, (y 1).isLt⟩ = y := by
  funext a
  match a with
  | ⟨0, _⟩ => exact Fin.ext (Nat.lt_one_iff.mp (y 0).isLt).symm
  | ⟨1, _⟩ => rfl

/-- What a device's scratch is to hold, read through row `r`: the partial sums of the device `r` places back. -/
theorem held_read (c : Dev nD) (r : Fin 8) :
    (rowM r : Memref sig .tc .vmem S1x1024 .f32).view.read (Elt F) (held m ρ c) = rowOf (xstg m ρ (bwd c r)) := by
  funext y
  show held m ρ c ((rowM r : Memref sig .tc .vmem S1x1024 .f32).view.emb y) = _
  rw [emb_row]; unfold held; rw [gathered_cell, col_eta]

/-- After the store of its partial sums, row 0 holds what the exchange is to leave there. -/
theorem row0_stored (c : Dev nD) (f0 : Buf (Elt F) ((c : Thread nD τ).loc cc0_scratch0)) :
    ((rowM 0 : Memref sig .tc .vmem S1x1024 .f32).view.loc (c : Thread nD τ) ↦[(rowM 0 : Memref sig .tc .vmem S1x1024 .f32).view.set]{fullShare}
        ((gM : Memref sig .tc .vmem S8x1024 .f32).access (rowR 0)).write (Elt F) f0 (k0_pay2 (xstg m ρ c)) Finset.univ : sProp 𝕄)
      = rowPts fullShare c 0 (held m ρ c) := by
  unfold rowPts
  refine pointsTo_congr fun i hi => ?_
  obtain ⟨y, rfl⟩ := View.exists_emb_of_mem_set _ hi
  rw [View.write_emb_of_mem _ _ (Finset.mem_univ y)]
  show k0_pay2 (xstg m ρ c) y = (rowM 0 : Memref sig .tc .vmem S1x1024 .f32).view.read (Elt F) (held m ρ c) y
  rw [held_read, bwd_zero]

/-- A copy of row 0 of device `c` into row `d+1` of the device `d+1` places on leaves there what that device is to hold. -/
theorem row_landed (c : Dev nD) (d : Fin 7) (fd : Buf (Elt F) (((fwd c d.succ : Dev nD) : Thread nD τ).loc cc0_scratch0)) :
    ((rowM d.succ : Memref sig .tc .vmem S1x1024 .f32).view.loc ((fwd c d.succ : Dev nD) : Thread nD τ) ↦[(rowM d.succ : Memref sig .tc .vmem S1x1024 .f32).view.set]{fullShare}
        ((rowM d.succ : Memref sig .tc .vmem S1x1024 .f32).view.write (Elt F) fd ((rowM 0 : Memref sig .tc .vmem S1x1024 .f32).view.read (Elt F) (held m ρ c)) Finset.univ) : sProp 𝕄)
      = rowPts fullShare (fwd c d.succ) d.succ (held m ρ (fwd c d.succ)) := by
  unfold rowPts
  refine pointsTo_congr fun i hi => ?_
  obtain ⟨y, rfl⟩ := View.exists_emb_of_mem_set _ hi
  rw [View.write_emb_of_mem _ _ (Finset.mem_univ y)]
  show (rowM 0 : Memref sig .tc .vmem S1x1024 .f32).view.read (Elt F) (held m ρ c) y = (rowM d.succ : Memref sig .tc .vmem S1x1024 .f32).view.read (Elt F) (held m ρ (fwd c d.succ)) y
  rw [held_read, held_read, bwd_zero, bwd_fwd]

theorem shr_0 : shr 0 = (restShr 0).left := rfl
theorem shr_1 : shr 1 = (restShr 1).left := rfl
theorem shr_2 : shr 2 = (restShr 2).left := rfl
theorem shr_3 : shr 3 = (restShr 3).left := rfl
theorem shr_4 : shr 4 = (restShr 4).left := rfl
theorem shr_5 : shr 5 = (restShr 5).left := rfl
theorem shr_6 : shr 6 = restShr 6 := rfl

/-- Row 0 at the full share is the seven copies' shares of it. -/
theorem row0_shares (c : Dev nD) (f : Buf (Elt F) ((c : Thread nD τ).loc cc0_scratch0)) :
    rowPts (F := F) fullShare c 0 f ⊣⊢ iprop(rowPts (shr 0) c 0 f ∗ rowPts (shr 1) c 0 f ∗ rowPts (shr 2) c 0 f ∗ rowPts (shr 3) c 0 f
      ∗ rowPts (shr 4) c 0 f ∗ rowPts (shr 5) c 0 f ∗ rowPts (shr 6) c 0 f) := by
  have e0 : rowPts (F := F) fullShare c 0 f ⊣⊢ iprop(rowPts (F := F) (restShr 0).left c 0 f ∗ rowPts (F := F) (restShr 1) c 0 f) := rowPts_share (F := F) 0 c 0 f
  have e1 : rowPts (F := F) (restShr 1) c 0 f ⊣⊢ iprop(rowPts (F := F) (restShr 1).left c 0 f ∗ rowPts (F := F) (restShr 2) c 0 f) := rowPts_share (F := F) 1 c 0 f
  have e2 : rowPts (F := F) (restShr 2) c 0 f ⊣⊢ iprop(rowPts (F := F) (restShr 2).left c 0 f ∗ rowPts (F := F) (restShr 3) c 0 f) := rowPts_share (F := F) 2 c 0 f
  have e3 : rowPts (F := F) (restShr 3) c 0 f ⊣⊢ iprop(rowPts (F := F) (restShr 3).left c 0 f ∗ rowPts (F := F) (restShr 4) c 0 f) := rowPts_share (F := F) 3 c 0 f
  have e4 : rowPts (F := F) (restShr 4) c 0 f ⊣⊢ iprop(rowPts (F := F) (restShr 4).left c 0 f ∗ rowPts (F := F) (restShr 5) c 0 f) := rowPts_share (F := F) 4 c 0 f
  have e5 : rowPts (F := F) (restShr 5) c 0 f ⊣⊢ iprop(rowPts (F := F) (restShr 5).left c 0 f ∗ rowPts (F := F) (restShr 6) c 0 f) := rowPts_share (F := F) 5 c 0 f
  rw [shr_0, shr_1, shr_2, shr_3, shr_4, shr_5, shr_6]
  constructor
  · iintro H
    ihave H := e0.1 $$ H; icases H with ⟨H0, H⟩
    ihave H := e1.1 $$ H; icases H with ⟨H1, H⟩
    ihave H := e2.1 $$ H; icases H with ⟨H2, H⟩
    ihave H := e3.1 $$ H; icases H with ⟨H3, H⟩
    ihave H := e4.1 $$ H; icases H with ⟨H4, H⟩
    ihave H := e5.1 $$ H; icases H with ⟨H5, H6⟩
    isplitl [H0]; · iexact H0
    isplitl [H1]; · iexact H1
    isplitl [H2]; · iexact H2
    isplitl [H3]; · iexact H3
    isplitl [H4]; · iexact H4
    isplitl [H5]; · iexact H5
    iexact H6
  · iintro ⟨H0, H1, H2, H3, H4, H5, H6⟩
    ihave H := e5.2 $$ [H5 H6]
    · isplitl [H5]; · iexact H5
      iexact H6
    ihave H := e4.2 $$ [H4 H]
    · isplitl [H4]; · iexact H4
      iexact H
    ihave H := e3.2 $$ [H3 H]
    · isplitl [H3]; · iexact H3
      iexact H
    ihave H := e2.2 $$ [H2 H]
    · isplitl [H2]; · iexact H2
      iexact H
    ihave H := e1.2 $$ [H1 H]
    · isplitl [H1]; · iexact H1
      iexact H
    ihave H := e0.2 $$ [H0 H]
    · isplitl [H0]; · iexact H0
      iexact H
    iexact H

/-! ## What every device knows -/

section Known
variable (Kb : Dev nD → ℕ) (Ks Kr : Dev nD → Fin 7 → ℕ)

theorem inv_bar (t : Dev nD) : records m ρ Kb Ks Kr ⊢ cellInv ER (exRd m ρ) (Kb t) (barCell t) := by
  have e : (bigSep Finset.univ fun c : Dev nD => (cellInv ER (exRd m ρ) (Kb c) (barCell c) : sProp 𝕄)) ⊢ (cellInv ER (exRd m ρ) (Kb t) (barCell t) : sProp 𝕄) := bigSep_elim (Finset.mem_univ t)
  unfold records; iintro ⟨H, -⟩; iapply e; iexact H
theorem inv_send (c : Dev nD) (j : Fin 7) : records m ρ Kb Ks Kr ⊢ cellInv ER (exRd m ρ) (Ks c j) (sendCell c j) := by
  have e1 : (bigSep Finset.univ fun c : Dev nD => bigSep Finset.univ fun j : Fin 7 => (cellInv ER (exRd m ρ) (Ks c j) (sendCell c j) : sProp 𝕄))
      ⊢ bigSep Finset.univ fun j : Fin 7 => (cellInv ER (exRd m ρ) (Ks c j) (sendCell c j) : sProp 𝕄) := bigSep_elim (Finset.mem_univ c)
  have e2 : (bigSep Finset.univ fun j : Fin 7 => (cellInv ER (exRd m ρ) (Ks c j) (sendCell c j) : sProp 𝕄)) ⊢ (cellInv ER (exRd m ρ) (Ks c j) (sendCell c j) : sProp 𝕄) := bigSep_elim (Finset.mem_univ j)
  unfold records; iintro ⟨-, H, -⟩; iapply e2; iapply e1; iexact H
theorem inv_recv (c : Dev nD) (j : Fin 7) : records m ρ Kb Ks Kr ⊢ cellInv ER (exRd m ρ) (Kr c j) (recvCell c j) := by
  have e1 : (bigSep Finset.univ fun c : Dev nD => bigSep Finset.univ fun j : Fin 7 => (cellInv ER (exRd m ρ) (Kr c j) (recvCell c j) : sProp 𝕄))
      ⊢ bigSep Finset.univ fun j : Fin 7 => (cellInv ER (exRd m ρ) (Kr c j) (recvCell c j) : sProp 𝕄) := bigSep_elim (Finset.mem_univ c)
  have e2 : (bigSep Finset.univ fun j : Fin 7 => (cellInv ER (exRd m ρ) (Kr c j) (recvCell c j) : sProp 𝕄)) ⊢ (cellInv ER (exRd m ρ) (Kr c j) (recvCell c j) : sProp 𝕄) := bigSep_elim (Finset.mem_univ j)
  unfold records; iintro ⟨-, -, H, -⟩; iapply e2; iapply e1; iexact H
theorem rch_bar (t : Dev nD) : records m ρ Kb Ks Kr ⊢ reached ER (barCell t) 0 := by
  have e : (bigSep Finset.univ fun c : Dev nD => (reached ER (barCell c) 0 : sProp 𝕄)) ⊢ (reached ER (barCell t) 0 : sProp 𝕄) := bigSep_elim (Finset.mem_univ t)
  unfold records; iintro ⟨-, -, -, H, -⟩; iapply e; iexact H
theorem rch_send (c : Dev nD) (j : Fin 7) : records m ρ Kb Ks Kr ⊢ reached ER (sendCell c j) 0 := by
  have e1 : (bigSep Finset.univ fun c : Dev nD => bigSep Finset.univ fun j : Fin 7 => (reached ER (sendCell c j) 0 : sProp 𝕄))
      ⊢ bigSep Finset.univ fun j : Fin 7 => (reached ER (sendCell c j) 0 : sProp 𝕄) := bigSep_elim (Finset.mem_univ c)
  have e2 : (bigSep Finset.univ fun j : Fin 7 => (reached ER (sendCell c j) 0 : sProp 𝕄)) ⊢ (reached ER (sendCell c j) 0 : sProp 𝕄) := bigSep_elim (Finset.mem_univ j)
  unfold records; iintro ⟨-, -, -, -, H, -⟩; iapply e2; iapply e1; iexact H
theorem rch_recv (c : Dev nD) (j : Fin 7) : records m ρ Kb Ks Kr ⊢ reached ER (recvCell c j) 0 := by
  have e1 : (bigSep Finset.univ fun c : Dev nD => bigSep Finset.univ fun j : Fin 7 => (reached ER (recvCell c j) 0 : sProp 𝕄))
      ⊢ bigSep Finset.univ fun j : Fin 7 => (reached ER (recvCell c j) 0 : sProp 𝕄) := bigSep_elim (Finset.mem_univ c)
  have e2 : (bigSep Finset.univ fun j : Fin 7 => (reached ER (recvCell c j) 0 : sProp 𝕄)) ⊢ (reached ER (recvCell c j) 0 : sProp 𝕄) := bigSep_elim (Finset.mem_univ j)
  unfold records; iintro ⟨-, -, -, -, -, H⟩; iapply e2; iapply e1; iexact H

/-! ## The steps -/

/-- The `d`-th signal, to the device `d+1` places on: it pays that device's barrier duty `6-d` with this device's landing row `7-d`. -/
theorem wp_sig (c t : Dev nD) (d : Fin 7) (ht : t = fwd c d.succ) (k' : ℕ) (hk' : k' = 1) (O : CellTallies nD τ sig Unit) {W : Waits sig Unit}
    (f : Buf (Elt F) ((c : Thread nD τ).loc cc0_scratch0))
    {α : Type} {Q : α → sProp 𝕄} {k : PUnit → Prog (TpuEff nD τ sig (Elt F) Λ₀ .tc) α} :
    iprop(records m ρ Kb Ks Kr ∗ owes (c : Thread nD τ) (O + sigT c d) W ∗ dutyTok ER (barCell t) 0 (rev d) ∗ rowPts fullShare c (rev d).succ f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (t : Thread nD τ) barS k') k) Q) := by
  subst ht; subst hk'
  refine BIBase.Entails.trans ?_ (Rounds.wp_signal 𝒱₀ ER (exRd m ρ) (c : Thread nD τ) none (dst := ((fwd c d.succ : Dev nD) : Thread nD τ)) (κ := Kb (fwd c d.succ))
      (d := rev d) (r := 0) (by rw [duties_bar]; exact Finset.mem_univ _) (amount_bar m ρ (fwd c d.succ) (rev d)) () O rfl)
  iintro ⟨#HR, HO, Ht, Hrow⟩
  isplitr; · iapply (inv_bar m ρ Kb Ks Kr (fwd c d.succ)); iexact HR
  isplitl [HO]; · iexact HO
  isplitl [Ht]; · iexact Ht
  isplitl [Hrow]
  · rw [payload_bar]; unfold barPay; rw [fwd_fwd_rev]
    isplitl [Hrow]; · iexists f; iexact Hrow
    iapply (rch_recv m ρ Kb Ks Kr c (rev d)); iexact HR
  iapply (rch_bar m ρ Kb Ks Kr (fwd c d.succ)); iexact HR

/-- The `d`-th copy: row 0, at its share, into row `d+1` of the device `d+1` places on, whose landing row the barrier wait brought. -/
theorem wp_snd₀ (c t : Dev nD) (d : Fin 7) (ht : t = fwd c d.succ) (O : CellTallies nD τ sig Unit) {W : Waits sig Unit}
    (fn : Buf (Elt F) ((t : Thread nD τ).loc cc0_scratch0))
    {hsc : (rowM d.succ : Memref sig (Dev.tc t : Thread nD τ).2.kind .vmem S1x1024 .f32).view.ref.isScScratch = false}
    {hsrc : (rowM 0 : Memref sig .tc .vmem S1x1024 .f32).view.WordExact} {hdst : (rowM d.succ : Memref sig .tc .vmem S1x1024 .f32).view.WordExact}
    {hsem : DmaTarget.Typed .vmem (.dma (recvS d)) (.remote (Dev.tc t : Thread nD τ) (rowM d.succ : Memref sig .tc .vmem S1x1024 .f32) (.dma (sendS d)) hsc)}
    {α : Type} {Q : α → sProp 𝕄} {k : PUnit → Prog (TpuEff nD τ sig (Elt F) Λ₀ .tc) α} :
    iprop(records m ρ Kb Ks Kr ∗ rowPts (shr d) c 0 (held m ρ c) ∗ rowPts fullShare t d.succ fn
        ∗ owes (c : Thread nD τ) (O + rcvT c d) W ∗ dutyTok ER (sendCell c d) 0 (0 : Fin 7) ∗ dutyTok ER (recvCell t d) 0 (0 : Fin 7))
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 0 : Memref sig .tc .vmem S1x1024 .f32) (.remote (Dev.tc t : Thread nD τ) (rowM d.succ : Memref sig .tc .vmem S1x1024 .f32) (.dma (sendS d)) hsc) (.dma (recvS d)) hsrc hdst hsem) k) Q) := by
  subst ht
  refine BIBase.Entails.trans ?_ (Rounds.wp_send_pointsTo 𝒱₀ ER (exRd m ρ) (c : Thread nD τ) none (κ₁ := Ks c d) (κ₂ := Kr (fwd c d.succ) d)
    (r₁ := 0) (r₂ := 0) (d₁ := (0 : Fin 7)) (d₂ := (0 : Fin 7)) (q := shr d) (fs := held m ρ c) (fd := fn)
    (by rw [duties_send]; exact Finset.mem_singleton_self _) (by rw [duties_recv]; exact Finset.mem_singleton_self _)
    () () N rfl (amount_send m ρ c d 0) (amount_recv m ρ (fwd c d.succ) d 0) O rfl (W := W)
    (by rw [payload_send]; unfold sendPay rowPts; exact BI.Entails.refl _)
    (by rw [payload_recv]; unfold recvPay; rw [row_landed]))
  unfold rowPts
  iintro ⟨#HR, Hsrc, Hdst, HO, HtS, HtR⟩
  isplitr; · iapply (inv_send m ρ Kb Ks Kr c d); iexact HR
  isplitr; · iapply (inv_recv m ρ Kb Ks Kr (fwd c d.succ) d); iexact HR
  isplitl [Hsrc]; · iexact Hsrc
  isplitl [Hdst]; · iexact Hdst
  isplitl [HO]; · iexact HO
  isplitl [HtS]; · iexact HtS
  isplitr; · iapply (rch_send m ρ Kb Ks Kr c d); iexact HR
  isplitl [HtR]; · iexact HtR
  iapply (rch_recv m ρ Kb Ks Kr (fwd c d.succ) d); iexact HR

/-- The same, with the copy's target device, its two views and its two semaphores as they are printed, equal to the protocol's. -/
theorem wp_snd (c : Dev nD) (d : Fin 7) (O : CellTallies nD τ sig Unit) {W : Waits sig Unit}
    (fn : Buf (Elt F) (((fwd c d.succ : Dev nD) : Thread nD τ).loc cc0_scratch0))
    {t : Dev nD} {src dst : Memref sig .tc .vmem S1x1024 .f32} {sS sR : DmaSem sig}
    {hsc : (dst : Memref sig (Dev.tc t : Thread nD τ).2.kind .vmem S1x1024 .f32).view.ref.isScScratch = false}
    {hsrc : src.view.WordExact} {hdst : dst.view.WordExact}
    {hsem : DmaTarget.Typed .vmem (.dma sR) (.remote (Dev.tc t : Thread nD τ) dst (.dma sS) hsc)}
    {α : Type} {Q : α → sProp 𝕄} {k : PUnit → Prog (TpuEff nD τ sig (Elt F) Λ₀ .tc) α} :
    iprop(⌜t = fwd c d.succ ∧ src = rowM 0 ∧ dst = rowM d.succ ∧ sS = sendS d ∧ sR = recvS d⌝
        ∗ records m ρ Kb Ks Kr ∗ rowPts (shr d) c 0 (held m ρ c) ∗ rowPts fullShare (fwd c d.succ) d.succ fn
        ∗ owes (c : Thread nD τ) (O + rcvT c d) W ∗ dutyTok ER (sendCell c d) 0 (0 : Fin 7) ∗ dutyTok ER (recvCell (fwd c d.succ) d) 0 (0 : Fin 7))
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc t : Thread nD τ) dst (.dma sS) hsc) (.dma sR) hsrc hdst hsem) k) Q) := by
  iintro ⟨%h, H⟩
  obtain ⟨rfl, rfl, rfl, rfl, rfl⟩ := h
  iapply (wp_snd₀ m ρ Kb Ks Kr c (fwd c d.succ) d rfl O fn)
  iexact H

/-- The wait on receive cell `j`, owing nothing: the landing row `j+1` comes back holding the sender's partial sums. -/
theorem wp_rcv (c : Dev nD) (j : Fin 7) {W : Waits sig Unit}
    {sm : DmaSem sig} {src dst : Memref sig .tc .vmem S1x1024 .f32} {hsrc : src.view.WordExact} {hdst : dst.view.WordExact}
    {α : Type} {Q : α → sProp 𝕄} {k : PUnit → Prog (TpuEff nD τ sig (Elt F) Λ₀ .tc) α} :
    iprop(⌜sm = recvS j ∧ dst.view.dmaCredit = N⌝ ∗ records m ρ Kb Ks Kr ∗ cred (tallyAt (recvCell c j) () N) ∗ owes (c : Thread nD τ) 0 W ∗ atPos ER (recvCell c j) 0 ∅ 0)
      ⊢ iprop(((owes (c : Thread nD τ) 0 (insert (SemLoc.dma (recvS j), ()) W) ∗ atPos ER (recvCell c j) 1 ∅ 0 ∗ rowPts fullShare c j.succ (held m ρ c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  iintro ⟨%h, #HR, Hc, HO, Hat⟩ Hk
  obtain ⟨rfl, hN⟩ := h
  have hw : ∀ K : PUnit → sProp 𝕄, wpE (defs₀ (F := F)) 𝒱₀ (c : Thread nD τ) none Set.univ (.waitDma2 (recvS j) src dst hsrc hdst) K
      = waitSpec (c : Thread nD τ) Set.univ (.dma (recvS j)) N K := fun K => by
    rw [wpE_waitDma2_eq, hN]
  iapply (Rounds.wp_wait_rest_token 𝒱₀ ER (exRd m ρ) (c : Thread nD τ) none (κ := Kr c j) hw (Set.mem_univ _) () (O := 0) (W := W) (R := 0) (m := 0) (T := ∅)
      (by rw [Nat.zero_add, expect_recv])) $$ [Hc HO Hat]
  · isplitr; · iapply (inv_recv m ρ Kb Ks Kr c j); iexact HR
    isplitl [Hc]; · iexact Hc
    isplitl [HO]; · iexact HO
    isplitr; · rw [MayWait_zero]; iempintro
    iexact Hat
  iintro ⟨HO, Hat, -, Hpay⟩
  ihave Hrow := (Entails.of_eq (rest_recv m ρ c j)) $$ Hpay
  iapply Hk
  isplitl [HO]; · iexact HO
  isplitl [Hat]; · iexact Hat
  unfold recvPay; iexact Hrow

/-- The wait on send cell `j`, owing nothing: the copy's share of row 0 comes back. -/
theorem wp_sndw (c : Dev nD) (j : Fin 7) {W : Waits sig Unit}
    {sm : DmaSem sig} {src dst : Memref sig .tc .vmem S1x1024 .f32} {hsrc : src.view.WordExact} {hdst : dst.view.WordExact}
    {α : Type} {Q : α → sProp 𝕄} {k : PUnit → Prog (TpuEff nD τ sig (Elt F) Λ₀ .tc) α} :
    iprop(⌜sm = sendS j ∧ dst.view.dmaCredit = N⌝ ∗ records m ρ Kb Ks Kr ∗ cred (tallyAt (sendCell c j) () N) ∗ owes (c : Thread nD τ) 0 W ∗ atPos ER (sendCell c j) 0 ∅ 0)
      ⊢ iprop(((owes (c : Thread nD τ) 0 (insert (SemLoc.dma (sendS j), ()) W) ∗ atPos ER (sendCell c j) 1 ∅ 0 ∗ rowPts (shr j) c 0 (held m ρ c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  iintro ⟨%h, #HR, Hc, HO, Hat⟩ Hk
  obtain ⟨rfl, hN⟩ := h
  have hw : ∀ K : PUnit → sProp 𝕄, wpE (defs₀ (F := F)) 𝒱₀ (c : Thread nD τ) none Set.univ (.waitDma2 (sendS j) src dst hsrc hdst) K
      = waitSpec (c : Thread nD τ) Set.univ (.dma (sendS j)) N K := fun K => by
    rw [wpE_waitDma2_eq, hN]
  iapply (Rounds.wp_wait_rest_token 𝒱₀ ER (exRd m ρ) (c : Thread nD τ) none (κ := Ks c j) hw (Set.mem_univ _) () (O := 0) (W := W) (R := 0) (m := 0) (T := ∅)
      (by rw [Nat.zero_add, expect_send])) $$ [Hc HO Hat]
  · isplitr; · iapply (inv_send m ρ Kb Ks Kr c j); iexact HR
    isplitl [Hc]; · iexact Hc
    isplitl [HO]; · iexact HO
    isplitr; · rw [MayWait_zero]; iempintro
    iexact Hat
  iintro ⟨HO, Hat, -, Hpay⟩
  ihave Hrow := (Entails.of_eq (rest_send m ρ c j)) $$ Hpay
  iapply Hk
  isplitl [HO]; · iexact HO
  isplitl [Hat]; · iexact Hat
  unfold sendPay; iexact Hrow

/-- An own cell past its one round closes: its counter, at zero, is the core's again. -/
theorem close_send (c : Dev nD) (j : Fin 7) : iprop(records m ρ Kb Ks Kr ∗ atPos ER (sendCell c j) 1 ∅ 0) ⊢ (|={Set.univ}=> semVal (sendCell c j) 0 : sProp 𝕄) := by
  iintro ⟨#HR, Hat⟩
  iapply (Rounds.cell_close ER (exRd m ρ) (Set.mem_univ (Ks c j)) (fun h => h) (R := 0 + 1) (duties_later m ρ (sendCell c j)))
  isplitr; · iapply (inv_send m ρ Kb Ks Kr c j); iexact HR
  iexact Hat
theorem close_recv (c : Dev nD) (j : Fin 7) : iprop(records m ρ Kb Ks Kr ∗ atPos ER (recvCell c j) 1 ∅ 0) ⊢ (|={Set.univ}=> semVal (recvCell c j) 0 : sProp 𝕄) := by
  iintro ⟨#HR, Hat⟩
  iapply (Rounds.cell_close ER (exRd m ρ) (Set.mem_univ (Kr c j)) (fun h => h) (R := 0 + 1) (duties_later m ρ (recvCell c j)))
  isplitr; · iapply (inv_recv m ρ Kb Ks Kr c j); iexact HR
  iexact Hat

end Known

end Cert.KernelIdeal.Proto

end
-- ==== Proof.LaunchPre.lean ====
/-
  Before the launch theorem: the exchange's cells and tokens as finite sets, funded for all eight devices at once; every cell's
  invariant allocated and its name told to every device; the tokens dealt to the devices that pay with them; the launch credit counted
  — seven units on each barrier cell, a row's credit on each receive cell —; and the launch theorem's side conditions.
-/
import proofs.«900565_g7700000000000566_dist_mean_ax0_shard0_i_m2048_n1024_v7x_i8_bf16_1_alg».proof.Proof.Steps

noncomputable section

namespace Cert.KernelIdeal.Proto

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores; the cells and the tokens as finite sets -/

/-- The kernel's fourteen own (scoped) semaphores: the receive (`true`) and send (`false`) semaphore of each index. -/
abbrev osem : Bool × Fin 7 → SemLoc sig := fun bj => if bj.1 then .dma (recvS bj.2) else .dma (sendS bj.2)

theorem ownSemFacts : Pipeline.OwnSemFacts cfg0.spec osem := by decide

theorem share_eq (c : Dev nD) (w : Fin cfg0.W) : (dats m ρ 0 c).share w = fullShare := by unfold Dat.share; split <;> rfl

theorem dev_of_cell {g g' : GSem nD τ sig} (h : g = g') : g.1.1 = g'.1.1 := congrArg (fun g : GSem nD τ sig => g.1.1) h

theorem bar_inj : Function.Injective (barCell : Dev nD → GSem nD τ sig) := fun a b h => dev_of_cell h
theorem sendS_inj {j j' : Fin 7} (h : (SemLoc.dma (sendS j) : SemLoc sig) = .dma (sendS j')) : j = j' := by
  revert j j'; decide
theorem recvS_inj {j j' : Fin 7} (h : (SemLoc.dma (recvS j) : SemLoc sig) = .dma (recvS j')) : j = j' := by
  revert j j'; decide
theorem sendS_ne_recvS (j j' : Fin 7) : (SemLoc.dma (sendS j) : SemLoc sig) ≠ .dma (recvS j') := by
  revert j j'; decide
theorem send_inj : Function.Injective (fun cj : Dev nD × Fin 7 => sendCell cj.1 cj.2) := by
  rintro ⟨c, j⟩ ⟨c', j'⟩ h
  have h1 : c = c' := dev_of_cell h
  have h2 : j = j' := sendS_inj (congrArg Prod.snd h)
  subst h1; subst h2; rfl
theorem recv_inj : Function.Injective (fun cj : Dev nD × Fin 7 => recvCell cj.1 cj.2) := by
  rintro ⟨c, j⟩ ⟨c', j'⟩ h
  have h1 : c = c' := dev_of_cell h
  have h2 : j = j' := recvS_inj (congrArg Prod.snd h)
  subst h1; subst h2; rfl

def barEmb : Dev nD ↪ GSem nD τ sig := ⟨barCell, bar_inj⟩
def sendEmb : Dev nD × Fin 7 ↪ GSem nD τ sig := ⟨fun cj => sendCell cj.1 cj.2, send_inj⟩
def recvEmb : Dev nD × Fin 7 ↪ GSem nD τ sig := ⟨fun cj => recvCell cj.1 cj.2, recv_inj⟩

/-- All the exchange's cells: eight barrier cells, fifty-six send cells, fifty-six receive cells. -/
def exCells : Finset (GSem nD τ sig) := Finset.univ.map barEmb ∪ (Finset.univ.map sendEmb ∪ Finset.univ.map recvEmb)

theorem cells_disj1 : Disjoint (Finset.univ.map barEmb) (Finset.univ.map sendEmb ∪ Finset.univ.map recvEmb) := by
  rw [Finset.disjoint_left]
  intro g hb hx
  obtain ⟨c, -, rfl⟩ := Finset.mem_map.mp hb
  rcases Finset.mem_union.mp hx with hx | hx
  · obtain ⟨cj, -, e⟩ := Finset.mem_map.mp hx
    exact send_ne_bar cj.2 (congrArg Prod.snd e)
  · obtain ⟨cj, -, e⟩ := Finset.mem_map.mp hx
    exact recv_ne_bar cj.2 (congrArg Prod.snd e)
theorem cells_disj2 : Disjoint (Finset.univ.map sendEmb) (Finset.univ.map recvEmb) := by
  rw [Finset.disjoint_left]
  intro g hs hr
  obtain ⟨cj, -, rfl⟩ := Finset.mem_map.mp hs
  obtain ⟨cj', -, e⟩ := Finset.mem_map.mp hr
  exact sendS_ne_recvS cj.2 cj'.2 (congrArg Prod.snd e).symm

theorem bigSep_cells (Φ : GSem nD τ sig → sProp 𝕄) :
    bigSep exCells Φ = iprop((bigSep Finset.univ fun c : Dev nD => Φ (barCell c))
      ∗ (bigSep Finset.univ fun cj : Dev nD × Fin 7 => Φ (sendCell cj.1 cj.2))
      ∗ (bigSep Finset.univ fun cj : Dev nD × Fin 7 => Φ (recvCell cj.1 cj.2))) := by
  unfold exCells
  rw [bigSep_union cells_disj1, bigSep_union cells_disj2, bigSep_map, bigSep_map, bigSep_map]
  rfl

/-- The duty tokens as minted: a barrier cell's seven, a send cell's one, a receive cell's one. -/
abbrev barTok : Dev nD × Fin 7 → GSem nD τ sig × ℕ × Fin 7 := fun cj => (barCell cj.1, 0, cj.2)
abbrev sendTok : Dev nD × Fin 7 → GSem nD τ sig × ℕ × Fin 7 := fun cj => (sendCell cj.1 cj.2, 0, 0)
abbrev recvTok : Dev nD × Fin 7 → GSem nD τ sig × ℕ × Fin 7 := fun cj => (recvCell cj.1 cj.2, 0, 0)
theorem barTok_inj : Function.Injective barTok := by
  rintro ⟨c, j⟩ ⟨c', j'⟩ h
  have h1 : c = c' := dev_of_cell (congrArg (fun x : GSem nD τ sig × ℕ × Fin 7 => x.1) h)
  have h2 : j = j' := congrArg (fun x : GSem nD τ sig × ℕ × Fin 7 => x.2.2) h
  subst h1; subst h2; rfl
theorem sendTok_inj : Function.Injective sendTok := fun a b h => send_inj (congrArg (fun x : GSem nD τ sig × ℕ × Fin 7 => x.1) h)
theorem recvTok_inj : Function.Injective recvTok := fun a b h => recv_inj (congrArg (fun x : GSem nD τ sig × ℕ × Fin 7 => x.1) h)

def exToks : Finset (GSem nD τ sig × ℕ × Fin 7) :=
  Finset.univ.map ⟨barTok, barTok_inj⟩ ∪ (Finset.univ.map ⟨sendTok, sendTok_inj⟩ ∪ Finset.univ.map ⟨recvTok, recvTok_inj⟩)

theorem toks_disj1 : Disjoint (Finset.univ.map ⟨barTok, barTok_inj⟩) (Finset.univ.map ⟨sendTok, sendTok_inj⟩ ∪ Finset.univ.map ⟨recvTok, recvTok_inj⟩) := by
  rw [Finset.disjoint_left]
  intro x hb hx
  obtain ⟨c, -, rfl⟩ := Finset.mem_map.mp hb
  rcases Finset.mem_union.mp hx with hx | hx
  · obtain ⟨cj, -, e⟩ := Finset.mem_map.mp hx
    exact send_ne_bar cj.2 (congrArg (fun x : GSem nD τ sig × ℕ × Fin 7 => x.1.2) e)
  · obtain ⟨cj, -, e⟩ := Finset.mem_map.mp hx
    exact recv_ne_bar cj.2 (congrArg (fun x : GSem nD τ sig × ℕ × Fin 7 => x.1.2) e)
theorem toks_disj2 : Disjoint (Finset.univ.map ⟨sendTok, sendTok_inj⟩) (Finset.univ.map ⟨recvTok, recvTok_inj⟩) := by
  rw [Finset.disjoint_left]
  intro x hs hr
  obtain ⟨cj, -, rfl⟩ := Finset.mem_map.mp hs
  obtain ⟨cj', -, e⟩ := Finset.mem_map.mp hr
  exact sendS_ne_recvS cj.2 cj'.2 (congrArg (fun x : GSem nD τ sig × ℕ × Fin 7 => x.1.2) e).symm

def u₀ : UU :=
  (initOf (Pipeline.cells cfgs cellOf_inj) (Pipeline.launchToks cfgs cellOf_inj), initOf exCells exToks)

/-- The duty tokens of device `c`'s own cells. -/
def toks (c : Dev nD) : sProp 𝕄 :=
  iprop((bigSep Finset.univ fun j : Fin 7 => dutyTok ER (barCell c) 0 j)
    ∗ (bigSep Finset.univ fun j : Fin 7 => dutyTok ER (sendCell c j) 0 (0 : Fin 7))
    ∗ (bigSep Finset.univ fun j : Fin 7 => dutyTok ER (recvCell c j) 0 (0 : Fin 7)))

/-- A family of assertions over device `c`'s fifteen cells, conjoined. -/
def own15 (Φ : GSem nD τ sig → sProp 𝕄) (c : Dev nD) : sProp 𝕄 :=
  iprop(Φ (barCell c) ∗ (bigSep Finset.univ fun j : Fin 7 => Φ (sendCell c j)) ∗ (bigSep Finset.univ fun j : Fin 7 => Φ (recvCell c j)))

/-- What the launch element deals device `c` (the theorem's `G`). -/
def G (c : Dev nD) : sProp 𝕄 :=
  iprop(own15 (fun g => roundState ER (exRd m ρ) g 0) c ∗ own15 (fun g => atPos ER g 0 ∅ 0) c ∗ own15 (fun g => reached ER g 0) c ∗ toks c)

/-- What the global step makes of it (`G'`). -/
def G' (c : Dev nD) : sProp 𝕄 := iprop(∃ Kb Ks Kr, ghost m ρ Kb Ks Kr c)

/-- A family over all the exchange's cells is the devices' families. -/
theorem cells_by_dev (Φ : GSem nD τ sig → sProp 𝕄) : bigSep exCells Φ = bigSep Finset.univ fun c : Dev nD => own15 Φ c := by
  rw [bigSep_cells, bigSep_univ_prod (fun cj : Dev nD × Fin 7 => Φ (sendCell cj.1 cj.2)),
    bigSep_univ_prod (fun cj : Dev nD × Fin 7 => Φ (recvCell cj.1 cj.2))]
  unfold own15
  rw [bigSep_sep', bigSep_sep']
  try rfl

theorem toks_by_dev : bigSep exToks (fun x => (dutyTok ER x.1 x.2.1 x.2.2 : sProp 𝕄)) = bigSep Finset.univ fun c : Dev nD => toks c := by
  unfold exToks toks
  rw [bigSep_union toks_disj1, bigSep_union toks_disj2, bigSep_map, bigSep_map, bigSep_map,
    bigSep_univ_prod, bigSep_univ_prod, bigSep_univ_prod, bigSep_sep', bigSep_sep']
  try rfl

theorem fund_ex : BI.own (ER (initOf exCells exToks)) ⊢ (|==> bigSep Finset.univ (G m ρ) : sProp 𝕄) := by
  iintro HX
  imod (Rounds.fund ER (exRd m ρ) exCells exToks) $$ HX with ⟨Hst, Hr, Hat, Htok⟩
  imodintro
  ihave Hst' := (Entails.of_eq (cells_by_dev (fun g => roundState ER (exRd m ρ) g 0))) $$ Hst
  ihave Hat' := (Entails.of_eq (cells_by_dev (F := F) (fun g => atPos ER g 0 ∅ 0))) $$ Hat
  ihave Hr' := (Entails.of_eq (cells_by_dev (F := F) (fun g => reached ER g 0))) $$ Hr
  ihave Htok' := (Entails.of_eq (toks_by_dev (F := F))) $$ Htok
  unfold G; simp only [bigSep_sep']
  isplitl [Hst']; · iexact Hst'
  isplitl [Hat']; · iexact Hat'
  isplitl [Hr']; · iexact Hr'
  iexact Htok'

/-- The send and receive semaphores are the kernel's own fourteen; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 7 => semVal (sendCell c j) 0) ∗ (bigSep Finset.univ fun j : Fin 7 => semVal (recvCell c j) 0)) := by
  unfold Pipeline.ownSems0
  rw [bigSep_univ_prod, bigSep_univ_eq_bigSepL [false, true] (by decide) (by decide)]
  rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem alloc_one (g : GSem nD τ sig) :
    iprop(semVal g 0 ∗ roundState ER (exRd m ρ) g 0) ⊢ (|={Set.univ}=> iprop(∃ κ : ℕ, cellInv ER (exRd m ρ) κ g) : sProp 𝕄) :=
  (Rounds.body_intro ER (exRd m ρ) g).trans inv_alloc

theorem alloc_seven (cell : Fin 7 → GSem nD τ sig) :
    iprop((bigSep Finset.univ fun j : Fin 7 => semVal (cell j) 0) ∗ bigSep Finset.univ fun j : Fin 7 => roundState ER (exRd m ρ) (cell j) 0)
      ⊢ (|={Set.univ}=> bigSep Finset.univ fun j : Fin 7 => iprop(∃ κ : ℕ, cellInv ER (exRd m ρ) κ (cell j)) : sProp 𝕄) := by
  rw [← bigSep_sep']
  exact (bigSep_mono fun j _ => alloc_one m ρ (cell j)).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop(own15 (fun g => iprop(∃ κ : ℕ, cellInv ER (exRd m ρ) κ g)) c
          ∗ own15 (fun g => atPos ER g 0 ∅ 0) c ∗ own15 (fun g => reached ER g 0) c ∗ toks c) := by
  rw [ownSems0_eq, unscopedSems0_eq]
  unfold G own15
  iintro ⟨⟨HvS, HvR⟩, HvB, ⟨HsB, HsS, HsR⟩, Hat, Hr, Htok⟩
  imod (alloc_one m ρ (barCell c)) $$ [HvB HsB] with HIb
  · isplitl [HvB] <;> iassumption
  imod (alloc_seven m ρ (fun j => sendCell c j)) $$ [HvS HsS] with HIs
  · isplitl [HvS] <;> iassumption
  imod (alloc_seven m ρ (fun j => recvCell c j)) $$ [HvR HsR] with HIr
  · isplitl [HvR] <;> iassumption
  imodintro
  isplitl [HIb HIs HIr]
  · isplitl [HIb]; · iexact HIb
    isplitl [HIs] <;> iassumption
  isplitl [Hat]; · iexact Hat
  isplitl [Hr]; · iexact Hr
  iexact Htok

/-! ### The tokens dealt round the ring -/

/-- Device `c`'s `d`-th signal goes to the device `d+1` places on, which knows `c` as its duty `6-d`: a bijection of (device, duty). -/
def barDeal : Dev nD × Fin 7 ≃ Dev nD × Fin 7 where
  toFun cd := (fwd cd.1 cd.2.succ, rev cd.2)
  invFun tj := (fwd tj.1 tj.2.succ, rev tj.2)
  left_inv := by intro cd; revert cd; decide
  right_inv := by intro tj; revert tj; decide
/-- Device `c`'s `d`-th copy goes to receive cell `d` of the device `d+1` places on. -/
def recvDeal : Dev nD × Fin 7 ≃ Dev nD × Fin 7 where
  toFun cd := (fwd cd.1 cd.2.succ, cd.2)
  invFun tj := (bwd tj.1 tj.2.succ, tj.2)
  left_inv := by intro cd; revert cd; decide
  right_inv := by intro tj; revert tj; decide

/-- A family over (device, index), summed device by device, may be summed along a bijection of the pairs. -/
theorem bigSep_deal (e : Dev nD × Fin 7 ≃ Dev nD × Fin 7) (Φ : Dev nD × Fin 7 → sProp 𝕄) :
    (bigSep Finset.univ fun c : Dev nD => bigSep Finset.univ fun j : Fin 7 => Φ (c, j))
      = bigSep Finset.univ fun c : Dev nD => bigSep Finset.univ fun d : Fin 7 => Φ (e (c, d)) :=
  ((bigSep_univ_prod Φ).symm.trans (bigSep_univ_equiv e Φ)).trans (bigSep_univ_prod fun cd => Φ (e cd))

theorem toks_around : (bigSep Finset.univ fun c : Dev nD => (toks c : sProp 𝕄)) ⊢ bigSep Finset.univ fun c : Dev nD => payToks c := by
  have eB : (bigSep Finset.univ fun c : Dev nD => bigSep Finset.univ fun j : Fin 7 => (dutyTok ER (barCell c) 0 j : sProp 𝕄))
      = bigSep Finset.univ fun c : Dev nD => bigSep Finset.univ fun d : Fin 7 => (dutyTok ER (barCell (fwd c d.succ)) 0 (rev d) : sProp 𝕄) :=
    bigSep_deal barDeal (fun cj => (dutyTok ER (barCell cj.1) 0 cj.2 : sProp 𝕄))
  have eR : (bigSep Finset.univ fun c : Dev nD => bigSep Finset.univ fun j : Fin 7 => (dutyTok ER (recvCell c j) 0 (0 : Fin 7) : sProp 𝕄))
      = bigSep Finset.univ fun c : Dev nD => bigSep Finset.univ fun d : Fin 7 => (dutyTok ER (recvCell (fwd c d.succ) d) 0 (0 : Fin 7) : sProp 𝕄) :=
    bigSep_deal recvDeal (fun cj => (dutyTok ER (recvCell cj.1 cj.2) 0 (0 : Fin 7) : sProp 𝕄))
  unfold toks payToks
  rw [bigSep_sep', bigSep_sep', bigSep_sep', bigSep_sep']
  iintro ⟨H1, H2, H3⟩
  isplitl [H1]; · iapply (Entails.of_eq eB); iexact H1
  isplitl [H3]; · iapply (Entails.of_eq eR); iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem names_seven (cell : Dev nD → Fin 7 → GSem nD τ sig) :
    (bigSep Finset.univ fun c : Dev nD => bigSep Finset.univ fun j : Fin 7 => iprop(∃ κ : ℕ, cellInv ER (exRd m ρ) κ (cell c j)) : sProp 𝕄)
      ⊢ iprop(∃ K : Dev nD → Fin 7 → ℕ, bigSep Finset.univ fun c : Dev nD => bigSep Finset.univ fun j : Fin 7 => cellInv ER (exRd m ρ) (K c j) (cell c j)) :=
  (bigSep_mono fun c _ => BI.bigSep_exists_pi Finset.univ (fun (j : Fin 7) (κ : ℕ) => (cellInv ER (exRd m ρ) κ (cell c j) : sProp 𝕄))).trans
    (BI.bigSep_exists_pi Finset.univ (fun (c : Dev nD) (y : Fin 7 → ℕ) => (bigSep Finset.univ fun j : Fin 7 => cellInv ER (exRd m ρ) (y j) (cell c j) : sProp 𝕄)))

theorem regroup :
    (bigSep Finset.univ fun c : Dev nD => iprop(own15 (fun g => iprop(∃ κ : ℕ, cellInv ER (exRd m ρ) κ g)) c
          ∗ own15 (fun g => atPos ER g 0 ∅ 0) c ∗ own15 (fun g => reached ER g 0) c ∗ toks c) : sProp 𝕄)
      ⊢ bigSep Finset.univ (G' m ρ) := by
  unfold own15
  simp only [bigSep_sep']
  iintro ⟨⟨HIb, HIs, HIr⟩, ⟨HaB, HaS, HaR⟩, ⟨#HrB, #HrS, #HrR⟩, Htok⟩
  ihave HKb := (BI.bigSep_exists_pi Finset.univ (fun (c : Dev nD) (κ : ℕ) => (cellInv ER (exRd m ρ) κ (barCell c) : sProp 𝕄))) $$ HIb
  icases HKb with ⟨%Kb, #HIb⟩
  ihave HKs := (names_seven m ρ (fun c j => sendCell c j)) $$ HIs
  icases HKs with ⟨%Ks, #HIs⟩
  ihave HKr := (names_seven m ρ (fun c j => recvCell c j)) $$ HIr
  icases HKr with ⟨%Kr, #HIr⟩
  ihave Htk := (toks_around (F := F)) $$ Htok
  iapply (bigSep_with_persistent (R := records m ρ Kb Ks Kr) (Φ := fun c : Dev nD => linear c) fun c _ => by
    unfold G'; iintro ⟨#HR, HL⟩; iexists Kb; iexists Ks; iexists Kr; unfold ghost
    isplitr; · iexact HR
    iexact HL)
  isplitr
  · unfold records
    isplitl; · iexact HIb
    isplitl; · iexact HIs
    isplitl; · iexact HIr
    isplitl; · iexact HrB
    isplitl; · iexact HrS
    iexact HrR
  · unfold linear; simp only [bigSep_sep']
    isplitl [HaB]; · iexact HaB
    isplitl [HaS]; · iexact HaS
    isplitl [HaR]; · iexact HaR
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem owedR_eq (c : Dev nD) : owedR c 7 = rcvT c 6 + rcvT c 5 + rcvT c 4 + rcvT c 3 + rcvT c 2 + rcvT c 1 + rcvT c 0 := by
  show (0 : CellTallies nD τ sig Unit) + rcvT c 6 + rcvT c 5 + rcvT c 4 + rcvT c 3 + rcvT c 2 + rcvT c 1 + rcvT c 0 = _
  rw [zero_add]
theorem O₀_eq (c : Dev nD) : O₀ c = (rcvT c 6 + rcvT c 5 + rcvT c 4 + rcvT c 3 + rcvT c 2 + rcvT c 1 + rcvT c 0)
    + sigT c 6 + sigT c 5 + sigT c 4 + sigT c 3 + sigT c 2 + sigT c 1 + sigT c 0 := by
  show owedR c 7 + sigT c 6 + sigT c 5 + sigT c 4 + sigT c 3 + sigT c 2 + sigT c 1 + sigT c 0 = _
  rw [owedR_eq]

/-- One signal's due, summed over the devices, is one unit on every barrier cell; one copy's due a row's credit on every receive cell of its index. -/
theorem cred_sig (d : Fin 7) (c : Dev nD) : (Pipeline.launchCred (fun c' => sigT c' d) c : sProp 𝕄) ⊢ cred (tallyAt (barCell c) () 1) :=
  Pipeline.launchCred_tallyAt (.reg barS) (fun c' => fwd c' d.succ) (fun c' => bwd c' d.succ) (fun c' => fwd_bwd c' d.succ) (fun c' => bwd_fwd c' d.succ) () 1 c
theorem cred_rcv (d : Fin 7) (c : Dev nD) : (Pipeline.launchCred (fun c' => rcvT c' d) c : sProp 𝕄) ⊢ cred (tallyAt (recvCell c d) () N) :=
  Pipeline.launchCred_tallyAt (.dma (recvS d)) (fun c' => fwd c' d.succ) (fun c' => bwd c' d.succ) (fun c' => fwd_bwd c' d.succ) (fun c' => bwd_fwd c' d.succ) () N c

theorem seven_units (c : Dev nD) :
    iprop(cred (tallyAt (barCell c) () 1) ∗ cred (tallyAt (barCell c) () 1) ∗ cred (tallyAt (barCell c) () 1) ∗ cred (tallyAt (barCell c) () 1)
      ∗ cred (tallyAt (barCell c) () 1) ∗ cred (tallyAt (barCell c) () 1) ∗ cred (tallyAt (barCell c) () 1))
      ⊢ (cred (tallyAt (barCell c) () 7) : sProp 𝕄) := by
  rw [show (tallyAt (barCell c) () 7 : CellTallies nD τ sig Unit)
      = tallyAt (barCell c) () 1 + (tallyAt (barCell c) () 1 + (tallyAt (barCell c) () 1 + (tallyAt (barCell c) () 1
        + (tallyAt (barCell c) () 1 + (tallyAt (barCell c) () 1 + tallyAt (barCell c) () 1))))) from by
    simp only [tallyAt_add]]
  iintro ⟨H1, H2, H3, H4, H5, H6, H7⟩
  iapply (cred_add _ _).2; isplitl [H1]; · iexact H1
  iapply (cred_add _ _).2; isplitl [H2]; · iexact H2
  iapply (cred_add _ _).2; isplitl [H3]; · iexact H3
  iapply (cred_add _ _).2; isplitl [H4]; · iexact H4
  iapply (cred_add _ _).2; isplitl [H5]; · iexact H5
  iapply (cred_add _ _).2; isplitl [H6]; · iexact H6
  iexact H7

theorem creds (c : Dev nD) :
    (Pipeline.launchCred O₀ c : sProp 𝕄) ⊢ iprop(cred (tallyAt (barCell c) () 7) ∗ bigSep Finset.univ fun j : Fin 7 => cred (tallyAt (recvCell c j) () N)) := by
  rw [show (O₀ : Dev nD → CellTallies nD τ sig Unit) = fun c' => (rcvT c' 6 + rcvT c' 5 + rcvT c' 4 + rcvT c' 3 + rcvT c' 2 + rcvT c' 1 + rcvT c' 0)
      + sigT c' 6 + sigT c' 5 + sigT c' 4 + sigT c' 3 + sigT c' 2 + sigT c' 1 + sigT c' 0 from funext O₀_eq]
  simp only [Pipeline.launchCred_add]
  rw [bigSep_fin7]
  iintro ⟨⟨⟨⟨⟨⟨⟨⟨⟨⟨⟨⟨⟨R6, R5⟩, R4⟩, R3⟩, R2⟩, R1⟩, R0⟩, S6⟩, S5⟩, S4⟩, S3⟩, S2⟩, S1⟩, S0⟩
  isplitl [S0 S1 S2 S3 S4 S5 S6]
  · iapply (seven_units (F := F) c)
    isplitl [S0]; · iapply (cred_sig (F := F) 0 c); iexact S0
    isplitl [S1]; · iapply (cred_sig (F := F) 1 c); iexact S1
    isplitl [S2]; · iapply (cred_sig (F := F) 2 c); iexact S2
    isplitl [S3]; · iapply (cred_sig (F := F) 3 c); iexact S3
    isplitl [S4]; · iapply (cred_sig (F := F) 4 c); iexact S4
    isplitl [S5]; · iapply (cred_sig (F := F) 5 c); iexact S5
    iapply (cred_sig (F := F) 6 c); iexact S6
  isplitl [R0]; · iapply (cred_rcv (F := F) 0 c); iexact R0
  isplitl [R1]; · iapply (cred_rcv (F := F) 1 c); iexact R1
  isplitl [R2]; · iapply (cred_rcv (F := F) 2 c); iexact R2
  isplitl [R3]; · iapply (cred_rcv (F := F) 3 c); iexact R3
  isplitl [R4]; · iapply (cred_rcv (F := F) 4 c); iexact R4
  isplitl [R5]; · iapply (cred_rcv (F := F) 5 c); iexact R5
  iapply (cred_rcv (F := F) 6 c); iexact R6

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H7, HN⟩
  imodintro
  unfold start G'
  isplitl
  · isplitl [HG]; · iexact HG
    isplitl [H7]; · iexact H7
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scrPts
  iintro ⟨⟨%f, Hr⟩, HzS, HzV⟩
  isplitr; · iempintro
  isplitl [HzS HzV]
  · isplitl [HzS] <;> iassumption
  iexists f; iexact Hr

theorem lv_stage (q : DmaSem sig) (hq : q.val < 2) (c : Dev nD) : lv ((c : Thread nD τ), .dma q) () = 0 := by
  have hx : xferOf (SemLoc.dma q : SemLoc sig) = none := by
    have h1 : ¬(2 ≤ q.val ∧ q.val < 9) := by omega
    have h2 : ¬(9 ≤ q.val ∧ q.val < 16) := by omega
    simp only [xferOf]
    rw [dif_neg h1, dif_neg h2]
  unfold lv
  rw [if_neg (fun h => by cases h), if_neg]
  show ¬ isRecv (SemLoc.dma q : SemLoc sig) = true
  unfold isRecv
  rw [hx]
  exact Bool.false_ne_true

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (lv_stage _ (by fin_cases w <;> fin_cases s <;> decide) c) 7
    · rw [show (dats m ρ 0 c).owed _ = 0 from rfl, MayWait_zero]; iintro -; iempintro

end Cert.KernelIdeal.Proto

end
-- ==== Proof.Body.lean ====
/-
  One device's body, stepped statement by statement from the protocol's invariant: the seven signals, each handing a landing row to the
  device that will fill it; the partial sums stored in row 0; the barrier wait, which brings the seven targets' landing rows; the seven
  copies, each reading its share of row 0; the receive waits, which bring the own landing rows filled; the send waits, which bring the
  shares of row 0 back; the cells closed; the eight rows joined, summed and scaled into the result.
-/
import proofs.«900565_g7700000000000566_dist_mean_ax0_shard0_i_m2048_n1024_v7x_i8_bf16_1_alg».proof.Proof.Steps

noncomputable section

namespace Cert.KernelIdeal.Proto

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body -/

section Body
variable (Kb : Dev nD → ℕ) (Ks Kr : Dev nD → Fin 7 → ℕ)

theorem hz2 : (![0, 0] : Fin 2 → Nat) = fun _ => 0 := funext fun a => by fin_cases a <;> rfl

abbrev rx : Rect S2048x1024 := Rect.unit (s := S2048x1024) ![0, 0] S2048x1024.size inb_S2048x1024_S2048x1024_0_0
abbrev rg : Rect S8x1024 := Rect.unit (s := S8x1024) ![0, 0] S8x1024.size inb_S8x1024_S8x1024_0_0
abbrev ro : Rect S1x1024 := Rect.unit (s := S1x1024) ![0, 0] S1x1024.size inb_S1x1024_S1x1024_0_0

theorem read_x (f : (cc0_stg0_0 : Ref sig .tc).ty.Contents (Elt F)) : (xM : Memref sig .tc .vmem S2048x1024 .f32).view.readAt (Elt F) rx.toLoadRect f = f :=
  Memref.readAt_unit_zero (Elt F) cc0_stg0_0 hz2 _ f
theorem read_g (f : (cc0_scratch0 : Ref sig .tc).ty.Contents (Elt F)) : (gM : Memref sig .tc .vmem S8x1024 .f32).view.readAt (Elt F) rg.toLoadRect f = f :=
  Memref.readAt_unit_zero (Elt F) cc0_scratch0 hz2 _ f
theorem write_out (f w : (cc0_stg1_0 : Ref sig .tc).ty.Contents (Elt F)) :
    ((oM : Memref sig .tc .vmem S1x1024 .f32).access ro : View sig .tc _ _ _).write (Elt F) f w Finset.univ = w :=
  Memref.write_access_unit_zero_univ (Elt F) cc0_stg1_0 hz2 _ f w

theorem row_load_sub (r : Fin 8) : (gM : Memref sig .tc .vmem S8x1024 .f32).view.setOn (rowR r).toLoadRect.set ⊆ (rowM r : Memref sig .tc .vmem S1x1024 .f32).view.set := by
  show (View.whole cc0_scratch0).setOn (rowR r).set ⊆ ((View.whole cc0_scratch0).slice (rowR r)).set
  rw [View.set_slice_whole]; unfold View.setOn; rw [View.emb_whole, Finset.map_refl]
theorem row_store_sub (r : Fin 8) : ((gM : Memref sig .tc .vmem S8x1024 .f32).access (rowR r)).setOn Finset.univ ⊆ (rowM r : Memref sig .tc .vmem S1x1024 .f32).view.set := by
  rw [View.setOn_univ]

set_option maxHeartbeats 4000000 in
set_option maxRecDepth 8000 in
/-- The body, from `bodyPre`, one rule per statement in program order, to `bodyPost`. -/
theorem sound_body (c : Dev nD) (Kt : PUnit → sProp 𝕄) :
    iprop(bodyPre m ρ Kb Ks Kr c ∗ (bodyPost m ρ c -∗ Kt ⟨⟩))
      ⊢ wp frame (wpE (defs₀ (F := F)) 𝒱₀ c none) Set.univ (theBody (F := F)) Kt := by
  unfold theBody
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, Prog.bind_assoc, wp_deviceId]
  simp only [dev1_eq c, dev2_eq c, dev3_eq c, dev4_eq c, dev5_eq c, dev6_eq c, dev7_eq c, dev8_eq c, dev9_eq c, dev10_eq c, dev11_eq c, dev12_eq c, dev13_eq c, dev14_eq c]
  unfold bodyPre ghost linear payToks
  iintro ⟨⟨⟨⟨#HR, HatB, HatS, HatR, HtB, HtR, HtS⟩, HcB, HcR, #Hlev, ⟨%f0, Hscr⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owedS c 7 from rfl]
  -- the families over the seven indices, and the scratch's eight rows, one by one
  ihave H := (Entails.of_eq (bigSep_fin7 (fun j : Fin 7 => (atPos ER (sendCell c j) 0 ∅ 0 : sProp 𝕄)))) $$ HatS
  icases H with ⟨HaS0, HaS1, HaS2, HaS3, HaS4, HaS5, HaS6⟩
  ihave H := (Entails.of_eq (bigSep_fin7 (fun j : Fin 7 => (atPos ER (recvCell c j) 0 ∅ 0 : sProp 𝕄)))) $$ HatR
  icases H with ⟨HaR0, HaR1, HaR2, HaR3, HaR4, HaR5, HaR6⟩
  ihave H := (Entails.of_eq (bigSep_fin7 (fun d : Fin 7 => (dutyTok ER (barCell (fwd c d.succ)) 0 (rev d) : sProp 𝕄)))) $$ HtB
  icases H with ⟨HtB0, HtB1, HtB2, HtB3, HtB4, HtB5, HtB6⟩
  ihave H := (Entails.of_eq (bigSep_fin7 (fun d : Fin 7 => (dutyTok ER (recvCell (fwd c d.succ) d) 0 (0 : Fin 7) : sProp 𝕄)))) $$ HtR
  icases H with ⟨HtR0, HtR1, HtR2, HtR3, HtR4, HtR5, HtR6⟩
  ihave H := (Entails.of_eq (bigSep_fin7 (fun j : Fin 7 => (dutyTok ER (sendCell c j) 0 (0 : Fin 7) : sProp 𝕄)))) $$ HtS
  icases H with ⟨HtS0, HtS1, HtS2, HtS3, HtS4, HtS5, HtS6⟩
  ihave H := (Entails.of_eq (bigSep_fin7 (fun j : Fin 7 => (cred (tallyAt (recvCell c j) () N) : sProp 𝕄)))) $$ HcR
  icases H with ⟨HcR0, HcR1, HcR2, HcR3, HcR4, HcR5, HcR6⟩
  ihave H := (Entails.of_eq ((scr_split c f0).trans (bigSep_fin8 (fun r : Fin 8 => rowPts (F := F) fullShare c r f0)))) $$ Hscr
  icases H with ⟨Hr0, Hr1, Hr2, Hr3, Hr4, Hr5, Hr6, Hr7⟩
  -- signal 1: to the device 1 places on, with landing row 7
  iapply (wp_sig m ρ Kb Ks Kr c (fwd c 1) 0 rfl _ rfl (owedS c 6) f0) $$ [HO HtB0 Hr7]
  · isplitr; · iexact HR
    isplitl [HO]; · iexact HO
    isplitl [HtB0]; · iexact HtB0
    iexact Hr7
  iintro HO
  -- signal 2: to the device 2 places on, with landing row 6
  iapply (wp_sig m ρ Kb Ks Kr c (fwd c 2) 1 rfl _ rfl (owedS c 5) f0) $$ [HO HtB1 Hr6]
  · isplitr; · iexact HR
    isplitl [HO]; · iexact HO
    isplitl [HtB1]; · iexact HtB1
    iexact Hr6
  iintro HO
  -- signal 3: to the device 3 places on, with landing row 5
  iapply (wp_sig m ρ Kb Ks Kr c (fwd c 3) 2 rfl _ rfl (owedS c 4) f0) $$ [HO HtB2 Hr5]
  · isplitr; · iexact HR
    isplitl [HO]; · iexact HO
    isplitl [HtB2]; · iexact HtB2
    iexact Hr5
  iintro HO
  -- signal 4: to the device 4 places on, with landing row 4
  iapply (wp_sig m ρ Kb Ks Kr c (fwd c 4) 3 rfl _ rfl (owedS c 3) f0) $$ [HO HtB3 Hr4]
  · isplitr; · iexact HR
    isplitl [HO]; · iexact HO
    isplitl [HtB3]; · iexact HtB3
    iexact Hr4
  iintro HO
  -- signal 5: to the device 5 places on, with landing row 3
  iapply (wp_sig m ρ Kb Ks Kr c (fwd c 5) 4 rfl _ rfl (owedS c 2) f0) $$ [HO HtB4 Hr3]
  · isplitr; · iexact HR
    isplitl [HO]; · iexact HO
    isplitl [HtB4]; · iexact HtB4
    iexact Hr3
  iintro HO
  -- signal 6: to the device 6 places on, with landing row 2
  iapply (wp_sig m ρ Kb Ks Kr c (fwd c 6) 5 rfl _ rfl (owedS c 1) f0) $$ [HO HtB5 Hr2]
  · isplitr; · iexact HR
    isplitl [HO]; · iexact HO
    isplitl [HtB5]; · iexact HtB5
    iexact Hr2
  iintro HO
  -- signal 7: to the device 7 places on, with landing row 1
  iapply (wp_sig m ρ Kb Ks Kr c (fwd c 7) 6 rfl _ rfl (owedS c 0) f0) $$ [HO HtB6 Hr1]
  · isplitr; · iexact HR
    isplitl [HO]; · iexact HO
    isplitl [HtB6]; · iexact HtB6
    iexact Hr1
  iintro HO
  -- the block loaded, row 0 loaded and stored
  iapply (wp_load 𝒱₀ (c : Thread nD τ) none Set.univ (m := xM) (Finset.subset_univ _)) $$ Hx; iintro Hx
  rw [read_x]
  unfold rowPts
  iapply (wp_load 𝒱₀ (c : Thread nD τ) none Set.univ (m := gM) (row_load_sub 0)) $$ Hr0; iintro Hr0
  iapply (wp_store 𝒱₀ (c : Thread nD τ) none Set.univ (m := gM) (r := rowR 0) (Mk := Finset.univ) (row_store_sub 0)) $$ Hr0; iintro Hr0
  ihave Hr0 := (Entails.of_eq (row0_stored m ρ c f0)) $$ Hr0
  ihave Hsh := (row0_shares c (held m ρ c)).1 $$ Hr0
  icases Hsh with ⟨Hs0, Hs1, Hs2, Hs3, Hs4, Hs5, Hs6⟩
  -- the wait for seven on its own barrier, owing the seven receive credits: the seven targets' landing rows come with it
  rw [show owedS c 0 = owedR c 7 from rfl]
  iapply (Rounds.wp_wait_rest_token 𝒱₀ ER (exRd m ρ) (c : Thread nD τ) none (κ := Kb c)
      (wpE_semWait_eq 𝒱₀ (c : Thread nD τ) none Set.univ) (Set.mem_univ _) () (O := owedR c 7) (W := W) (R := 0) (m := 0) (T := ∅)
      (by rw [expect_bar]; decide)) $$ [HcB HO HatB]
  · isplitr; · iapply (inv_bar m ρ Kb Ks Kr c); iexact HR
    isplitl [HcB]; · iexact HcB
    isplitl [HO]; · iexact HO
    isplitr; · iapply (mayWait_bar c); iexact Hlev
    iexact HatB
  iintro ⟨HO, HatB, -, Hpay⟩
  ihave Hp := (Entails.of_eq ((rest_bar m ρ c).trans (bigSep_fin7 (fun d : Fin 7 => barPay (F := F) c d)))) $$ Hpay
  unfold barPay
  icases Hp with ⟨⟨⟨%n0, Hn0⟩, -⟩, ⟨⟨%n1, Hn1⟩, -⟩, ⟨⟨%n2, Hn2⟩, -⟩, ⟨⟨%n3, Hn3⟩, -⟩, ⟨⟨%n4, Hn4⟩, -⟩, ⟨⟨%n5, Hn5⟩, -⟩, ⟨⟨%n6, Hn6⟩, -⟩⟩
  -- copy 1: row 0 into row 1 of the device 1 places on
  iapply (wp_snd m ρ Kb Ks Kr c 0 (owedR c 6) n0) $$ [Hs0 Hn0 HO HtS0 HtR0]
  · isplitr; · ipureintro; exact ⟨dev8_eq c, rfl, rfl, rfl, rfl⟩
    isplitr; · iexact HR
    isplitl [Hs0]; · iexact Hs0
    isplitl [Hn0]; · iexact Hn0
    isplitl [HO]; · iexact HO
    isplitl [HtS0]; · iexact HtS0
    iexact HtR0
  iintro ⟨HcS0, HO⟩
  -- copy 2: row 0 into row 2 of the device 2 places on
  iapply (wp_snd m ρ Kb Ks Kr c 1 (owedR c 5) n1) $$ [Hs1 Hn1 HO HtS1 HtR1]
  · isplitr; · ipureintro; exact ⟨dev9_eq c, rfl, rfl, rfl, rfl⟩
    isplitr; · iexact HR
    isplitl [Hs1]; · iexact Hs1
    isplitl [Hn1]; · iexact Hn1
    isplitl [HO]; · iexact HO
    isplitl [HtS1]; · iexact HtS1
    iexact HtR1
  iintro ⟨HcS1, HO⟩
  -- copy 3: row 0 into row 3 of the device 3 places on
  iapply (wp_snd m ρ Kb Ks Kr c 2 (owedR c 4) n2) $$ [Hs2 Hn2 HO HtS2 HtR2]
  · isplitr; · ipureintro; exact ⟨dev10_eq c, rfl, rfl, rfl, rfl⟩
    isplitr; · iexact HR
    isplitl [Hs2]; · iexact Hs2
    isplitl [Hn2]; · iexact Hn2
    isplitl [HO]; · iexact HO
    isplitl [HtS2]; · iexact HtS2
    iexact HtR2
  iintro ⟨HcS2, HO⟩
  -- copy 4: row 0 into row 4 of the device 4 places on
  iapply (wp_snd m ρ Kb Ks Kr c 3 (owedR c 3) n3) $$ [Hs3 Hn3 HO HtS3 HtR3]
  · isplitr; · ipureintro; exact ⟨dev11_eq c, rfl, rfl, rfl, rfl⟩
    isplitr; · iexact HR
    isplitl [Hs3]; · iexact Hs3
    isplitl [Hn3]; · iexact Hn3
    isplitl [HO]; · iexact HO
    isplitl [HtS3]; · iexact HtS3
    iexact HtR3
  iintro ⟨HcS3, HO⟩
  -- copy 5: row 0 into row 5 of the device 5 places on
  iapply (wp_snd m ρ Kb Ks Kr c 4 (owedR c 2) n4) $$ [Hs4 Hn4 HO HtS4 HtR4]
  · isplitr; · ipureintro; exact ⟨dev12_eq c, rfl, rfl, rfl, rfl⟩
    isplitr; · iexact HR
    isplitl [Hs4]; · iexact Hs4
    isplitl [Hn4]; · iexact Hn4
    isplitl [HO]; · iexact HO
    isplitl [HtS4]; · iexact HtS4
    iexact HtR4
  iintro ⟨HcS4, HO⟩
  -- copy 6: row 0 into row 6 of the device 6 places on
  iapply (wp_snd m ρ Kb Ks Kr c 5 (owedR c 1) n5) $$ [Hs5 Hn5 HO HtS5 HtR5]
  · isplitr; · ipureintro; exact ⟨dev13_eq c, rfl, rfl, rfl, rfl⟩
    isplitr; · iexact HR
    isplitl [Hs5]; · iexact Hs5
    isplitl [Hn5]; · iexact Hn5
    isplitl [HO]; · iexact HO
    isplitl [HtS5]; · iexact HtS5
    iexact HtR5
  iintro ⟨HcS5, HO⟩
  -- copy 7: row 0 into row 7 of the device 7 places on
  iapply (wp_snd m ρ Kb Ks Kr c 6 (owedR c 0) n6) $$ [Hs6 Hn6 HO HtS6 HtR6]
  · isplitr; · ipureintro; exact ⟨dev14_eq c, rfl, rfl, rfl, rfl⟩
    isplitr; · iexact HR
    isplitl [Hs6]; · iexact Hs6
    isplitl [Hn6]; · iexact Hn6
    isplitl [HO]; · iexact HO
    isplitl [HtS6]; · iexact HtS6
    iexact HtR6
  iintro ⟨HcS6, HO⟩
  rw [show owedR c 0 = 0 from rfl]
  -- the wait on receive cell 0: landing row 1 filled
  iapply (wp_rcv m ρ Kb Ks Kr c 0) $$ [HcR0 HO HaR0]
  · isplitr; · ipureintro; exact ⟨rfl, rfl⟩
    isplitr; · iexact HR
    isplitl [HcR0]; · iexact HcR0
    isplitl [HO]; · iexact HO
    iexact HaR0
  iintro ⟨HO, HaR0, Hg1⟩
  -- the wait on receive cell 1: landing row 2 filled
  iapply (wp_rcv m ρ Kb Ks Kr c 1) $$ [HcR1 HO HaR1]
  · isplitr; · ipureintro; exact ⟨rfl, rfl⟩
    isplitr; · iexact HR
    isplitl [HcR1]; · iexact HcR1
    isplitl [HO]; · iexact HO
    iexact HaR1
  iintro ⟨HO, HaR1, Hg2⟩
  -- the wait on receive cell 2: landing row 3 filled
  iapply (wp_rcv m ρ Kb Ks Kr c 2) $$ [HcR2 HO HaR2]
  · isplitr; · ipureintro; exact ⟨rfl, rfl⟩
    isplitr; · iexact HR
    isplitl [HcR2]; · iexact HcR2
    isplitl [HO]; · iexact HO
    iexact HaR2
  iintro ⟨HO, HaR2, Hg3⟩
  -- the wait on receive cell 3: landing row 4 filled
  iapply (wp_rcv m ρ Kb Ks Kr c 3) $$ [HcR3 HO HaR3]
  · isplitr; · ipureintro; exact ⟨rfl, rfl⟩
    isplitr; · iexact HR
    isplitl [HcR3]; · iexact HcR3
    isplitl [HO]; · iexact HO
    iexact HaR3
  iintro ⟨HO, HaR3, Hg4⟩
  -- the wait on receive cell 4: landing row 5 filled
  iapply (wp_rcv m ρ Kb Ks Kr c 4) $$ [HcR4 HO HaR4]
  · isplitr; · ipureintro; exact ⟨rfl, rfl⟩
    isplitr; · iexact HR
    isplitl [HcR4]; · iexact HcR4
    isplitl [HO]; · iexact HO
    iexact HaR4
  iintro ⟨HO, HaR4, Hg5⟩
  -- the wait on receive cell 5: landing row 6 filled
  iapply (wp_rcv m ρ Kb Ks Kr c 5) $$ [HcR5 HO HaR5]
  · isplitr; · ipureintro; exact ⟨rfl, rfl⟩
    isplitr; · iexact HR
    isplitl [HcR5]; · iexact HcR5
    isplitl [HO]; · iexact HO
    iexact HaR5
  iintro ⟨HO, HaR5, Hg6⟩
  -- the wait on receive cell 6: landing row 7 filled
  iapply (wp_rcv m ρ Kb Ks Kr c 6) $$ [HcR6 HO HaR6]
  · isplitr; · ipureintro; exact ⟨rfl, rfl⟩
    isplitr; · iexact HR
    isplitl [HcR6]; · iexact HcR6
    isplitl [HO]; · iexact HO
    iexact HaR6
  iintro ⟨HO, HaR6, Hg7⟩
  -- the wait on send cell 0: its share of row 0 back
  iapply (wp_sndw m ρ Kb Ks Kr c 0) $$ [HcS0 HO HaS0]
  · isplitr; · ipureintro; exact ⟨rfl, rfl⟩
    isplitr; · iexact HR
    isplitl [HcS0]; · iexact HcS0
    isplitl [HO]; · iexact HO
    iexact HaS0
  iintro ⟨HO, HaS0, Hs0⟩
  -- the wait on send cell 1: its share of row 0 back
  iapply (wp_sndw m ρ Kb Ks Kr c 1) $$ [HcS1 HO HaS1]
  · isplitr; · ipureintro; exact ⟨rfl, rfl⟩
    isplitr; · iexact HR
    isplitl [HcS1]; · iexact HcS1
    isplitl [HO]; · iexact HO
    iexact HaS1
  iintro ⟨HO, HaS1, Hs1⟩
  -- the wait on send cell 2: its share of row 0 back
  iapply (wp_sndw m ρ Kb Ks Kr c 2) $$ [HcS2 HO HaS2]
  · isplitr; · ipureintro; exact ⟨rfl, rfl⟩
    isplitr; · iexact HR
    isplitl [HcS2]; · iexact HcS2
    isplitl [HO]; · iexact HO
    iexact HaS2
  iintro ⟨HO, HaS2, Hs2⟩
  -- the wait on send cell 3: its share of row 0 back
  iapply (wp_sndw m ρ Kb Ks Kr c 3) $$ [HcS3 HO HaS3]
  · isplitr; · ipureintro; exact ⟨rfl, rfl⟩
    isplitr; · iexact HR
    isplitl [HcS3]; · iexact HcS3
    isplitl [HO]; · iexact HO
    iexact HaS3
  iintro ⟨HO, HaS3, Hs3⟩
  -- the wait on send cell 4: its share of row 0 back
  iapply (wp_sndw m ρ Kb Ks Kr c 4) $$ [HcS4 HO HaS4]
  · isplitr; · ipureintro; exact ⟨rfl, rfl⟩
    isplitr; · iexact HR
    isplitl [HcS4]; · iexact HcS4
    isplitl [HO]; · iexact HO
    iexact HaS4
  iintro ⟨HO, HaS4, Hs4⟩
  -- the wait on send cell 5: its share of row 0 back
  iapply (wp_sndw m ρ Kb Ks Kr c 5) $$ [HcS5 HO HaS5]
  · isplitr; · ipureintro; exact ⟨rfl, rfl⟩
    isplitr; · iexact HR
    isplitl [HcS5]; · iexact HcS5
    isplitl [HO]; · iexact HO
    iexact HaS5
  iintro ⟨HO, HaS5, Hs5⟩
  -- the wait on send cell 6: its share of row 0 back
  iapply (wp_sndw m ρ Kb Ks Kr c 6) $$ [HcS6 HO HaS6]
  · isplitr; · ipureintro; exact ⟨rfl, rfl⟩
    isplitr; · iexact HR
    isplitl [HcS6]; · iexact HcS6
    isplitl [HO]; · iexact HO
    iexact HaS6
  iintro ⟨HO, HaS6, Hs6⟩
  -- the fourteen own cells close: their counters at zero are the core's again
  imod (close_send m ρ Kb Ks Kr c 0) $$ [HaS0] with HzS0
  · isplitr; · iexact HR
    iexact HaS0
  imod (close_recv m ρ Kb Ks Kr c 0) $$ [HaR0] with HzR0
  · isplitr; · iexact HR
    iexact HaR0
  imod (close_send m ρ Kb Ks Kr c 1) $$ [HaS1] with HzS1
  · isplitr; · iexact HR
    iexact HaS1
  imod (close_recv m ρ Kb Ks Kr c 1) $$ [HaR1] with HzR1
  · isplitr; · iexact HR
    iexact HaR1
  imod (close_send m ρ Kb Ks Kr c 2) $$ [HaS2] with HzS2
  · isplitr; · iexact HR
    iexact HaS2
  imod (close_recv m ρ Kb Ks Kr c 2) $$ [HaR2] with HzR2
  · isplitr; · iexact HR
    iexact HaR2
  imod (close_send m ρ Kb Ks Kr c 3) $$ [HaS3] with HzS3
  · isplitr; · iexact HR
    iexact HaS3
  imod (close_recv m ρ Kb Ks Kr c 3) $$ [HaR3] with HzR3
  · isplitr; · iexact HR
    iexact HaR3
  imod (close_send m ρ Kb Ks Kr c 4) $$ [HaS4] with HzS4
  · isplitr; · iexact HR
    iexact HaS4
  imod (close_recv m ρ Kb Ks Kr c 4) $$ [HaR4] with HzR4
  · isplitr; · iexact HR
    iexact HaR4
  imod (close_send m ρ Kb Ks Kr c 5) $$ [HaS5] with HzS5
  · isplitr; · iexact HR
    iexact HaS5
  imod (close_recv m ρ Kb Ks Kr c 5) $$ [HaR5] with HzR5
  · isplitr; · iexact HR
    iexact HaR5
  imod (close_send m ρ Kb Ks Kr c 6) $$ [HaS6] with HzS6
  · isplitr; · iexact HR
    iexact HaS6
  imod (close_recv m ρ Kb Ks Kr c 6) $$ [HaR6] with HzR6
  · isplitr; · iexact HR
    iexact HaR6
  -- row 0 whole again, the eight rows one buffer again
  ihave Hr0 := (row0_shares c (held m ρ c)).2 $$ [Hs0 Hs1 Hs2 Hs3 Hs4 Hs5 Hs6]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hs6
  ihave Hscr := (Entails.of_eq ((scr_split c (held m ρ c)).trans (bigSep_fin8 (fun r : Fin 8 => rowPts (F := F) fullShare c r (held m ρ c)))).symm) $$ [Hr0 Hg1 Hg2 Hg3 Hg4 Hg5 Hg6 Hg7]
  · isplitl [Hr0]; · iexact Hr0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    iexact Hg7
  unfold scrPts
  -- the eight rows loaded, summed and scaled, stored
  iapply (wp_load 𝒱₀ (c : Thread nD τ) none Set.univ (m := gM) (Finset.subset_univ _)) $$ Hscr; iintro Hscr
  rw [read_g]
  iapply (wp_load 𝒱₀ (c : Thread nD τ) none Set.univ (m := oM) (Finset.subset_univ _)) $$ Hout; iintro Hout
  iapply (wp_store 𝒱₀ (c : Thread nD τ) none Set.univ (m := oM) (r := ro) (Mk := Finset.univ) (Finset.subset_univ _)) $$ Hout; iintro Hout
  rw [write_out, wp_ret]; imodintro
  iapply Hk
  unfold bodyPost Φ₁ Dat.owesAt Pipeline.owesWithin scrPts
  rw [show (dats m ρ 0 c).owed t₀.succ = 0 from rfl, bigSep_fin7, bigSep_fin7]
  isplitl [Hscr HzS0 HzS1 HzS2 HzS3 HzS4 HzS5 HzS6 HzR0 HzR1 HzR2 HzR3 HzR4 HzR5 HzR6]
  · isplitl [Hscr]; · iexists (held m ρ c); iexact Hscr
    isplitl [HzS0 HzS1 HzS2 HzS3 HzS4 HzS5 HzS6]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    iexact HzR6
  isplitl [HO]
  · iexists (insert (SemLoc.dma (sendS 6), ()) (insert (SemLoc.dma (sendS 5), ()) (insert (SemLoc.dma (sendS 4), ()) (insert (SemLoc.dma (sendS 3), ()) (insert (SemLoc.dma (sendS 2), ()) (insert (SemLoc.dma (sendS 1), ()) (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W)))))))))))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

end Body

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ (theBody (F := F)) (fun _ => bodyPost m ρ c)
  unfold bodyPre' Φ₀ start
  iintro ⟨⟨⟨⟨%Kb, %Ks, %Kr, Hg⟩, Hrest⟩, Hscr⟩, Ho, Hx, Hout⟩
  iapply (sound_body m ρ Kb Ks Kr c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Cert.KernelIdeal.Proto

end
-- ==== Proof.Launch.lean ====
/-
  The launch: the library's launch theorem applied to the body's proof and the protocol's funding, and the input array read after the run.
-/
import proofs.«900565_g7700000000000566_dist_mean_ax0_shard0_i_m2048_n1024_v7x_i8_bf16_1_alg».proof.Proof.LaunchPre
import proofs.«900565_g7700000000000566_dist_mean_ax0_shard0_i_m2048_n1024_v7x_i8_bf16_1_alg».proof.Proof.Body

noncomputable section

namespace Cert.KernelIdeal.Proto

open Cert.KernelIdeal Cert.KernelIdeal.Gen Cert.KernelIdeal.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair execution of
    @main — the eight kernels meeting on the runtime's barrier semaphore, then copying their partial sums to one another —
    terminates, and every final state has each window's array at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Proto.run_main' depends on axioms: [propext, Classical.choice, Quot.sound] -/
#guard_msgs in #print axioms run_main

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.KernelIdeal.Proto

end
-- ==== Proof.Final.lean ====
/-
  The run, read: after it every device's result array holds the column sums of the eight gathered rows scaled by 2⁻¹⁴, and its
  input block is unchanged. The result window is the whole one-row array, flushed at the kernel's one point.
-/
import proofs.«900565_g7700000000000566_dist_mean_ax0_shard0_i_m2048_n1024_v7x_i8_bf16_1_alg».proof.Proof.Launch

noncomputable section

namespace Cert.KernelIdeal.Proto

open Cert.KernelIdeal Cert.KernelIdeal.Gen Cert.KernelIdeal.Mesh

open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The staged input block is the device's input array itself: the window is the whole array. -/
theorem xstg_eq (c : Dev nD) : xstg m ρ c = m ((c : Thread nD τ).loc main_arg0) := by
  unfold xstg
  funext j
  show m ((c : Thread nD τ).loc main_arg0) ((win0_0.blk (0 : Fin 1)).view.emb j) = m ((c : Thread nD τ).loc main_arg0) j
  refine congrArg (m ((c : Thread nD τ).loc main_arg0)) ?_
  funext a; apply Fin.ext
  match a with
  | ⟨0, _⟩ => show win0_0.index (0 : Fin 1) (0 : Fin 2) * 2048 + 1 * (j 0).val = (j 0).val; have : win0_0.index (0 : Fin 1) (0 : Fin 2) = 0 := rfl; omega
  | ⟨1, _⟩ => show win0_0.index (0 : Fin 1) (1 : Fin 2) * 1024 + 1 * (j 1).val = (j 1).val; have : win0_0.index (0 : Fin 1) (1 : Fin 2) = 0 := rfl; omega

/-- What the one point writes back is the result, read through the window's (whole) block. -/
theorem flushed_out (c : Dev nD) (t : Fin cfg0.N) :
    (dats m ρ 0 c).flushed 1 t = ((cfg0.win 1).blk t).view.read (Elt F) (outAt m ρ c) := by
  show (cfg0.win 1).cut (grid0.coords t) ((dats m ρ 0 c).after 1 t) = _
  rw [show (dats m ρ 0 c).after 1 t = outAt m ρ c from rfl]
  funext j
  show outAt m ρ c j = outAt m ρ c (((cfg0.win 1).blk t).view.emb j)
  refine congrArg (outAt m ρ c) ?_
  funext a; apply Fin.ext
  match a with
  | ⟨0, _⟩ => show (j 0).val = win0_1.index t (0 : Fin 2) * 1 + 1 * (j 0).val; have : win0_1.index t (0 : Fin 2) = 0 := rfl; omega
  | ⟨1, _⟩ => show (j 1).val = win0_1.index t (1 : Fin 2) * 1024 + 1 * (j 1).val; have : win0_1.index t (1 : Fin 2) = 0 := rfl; omega

/-- Every index of the result array lies in the one point's block. -/
theorem cover_out (i : S1x1024.Idx) : ∃ t : Fin cfg0.N, (cfg0.win 1).flush t = true ∧ i ∈ ((cfg0.win 1).blk t).view.set := by
  refine ⟨t₀, flush0_1 t₀, ?_⟩
  show i ∈ ((View.whole main_v1).slice (win0_1.rect t₀)).set
  rw [View.set_slice_whole, Rect.mem_set_unit]
  intro a
  have h0 : (i 0).val < 1 := (i 0).isLt
  have h1 : (i 1).val < 1024 := (i 1).isLt
  match a with
  | ⟨0, _⟩ => show win0_1.index t₀ (0 : Fin 2) * 1 ≤ (i 0).val ∧ (i 0).val < win0_1.index t₀ (0 : Fin 2) * 1 + 1; have : win0_1.index t₀ (0 : Fin 2) = 0 := rfl; omega
  | ⟨1, _⟩ => show win0_1.index t₀ (1 : Fin 2) * 1024 ≤ (i 1).val ∧ (i 1).val < win0_1.index t₀ (1 : Fin 2) * 1024 + 1024; have : win0_1.index t₀ (1 : Fin 2) = 0 := rfl; omega

/-- The result array after the run is the kernel's result. -/
theorem finalA_out (c : Dev nD) : finalA m ρ c (1 : Fin 2) = outAt m ρ c :=
  (dats m ρ 0 c).arrAt_eq_of_cover 1 _ (fun t _ => flushed_out m ρ c t) (fun i => cover_out i)

/-- Every weakly fair execution of the eight kernels terminates without a fault, every device's result array at the kernel's result of
    the eight input blocks, its input block unchanged. -/
theorem run_values : θ_run defs (onTc (τ := τ) (main (F := F))) ⟨m, fun _ => 0, ρ⟩ fun r => ∀ c : Dev nD,
    r.2.mem ((c : Thread nD τ).loc main_v1) = result (fun p : Dev nD => m ((p : Thread nD τ).loc main_arg0)) c
      ∧ r.2.mem ((c : Thread nD τ).loc main_arg0) = m ((c : Thread nD τ).loc main_arg0) :=
  (θ_run defs _ _).mono (fun r h c =>
      ⟨((h c 1).trans (finalA_out m ρ c)).trans (by unfold outAt; rw [show xstg m ρ = fun p : Dev nD => m ((p : Thread nD τ).loc main_arg0) from funext (xstg_eq m ρ)]),
        ((h c 0).trans (finalA_x m ρ c))⟩)
    (run_main m ρ)

/-- info: 'Cert.KernelIdeal.Proto.run_values' depends on axioms: [propext, Classical.choice, Quot.sound] -/
#guard_msgs in #print axioms run_values

end Cert.KernelIdeal.Proto

end
-- ==== Proof.BitsMesh.lean ====
/-
  The ring of eight devices the kernel runs on: device `c` addresses the device `d` places further round
  (`fwd c d`, the printed chains `(c + d) % 8`), and is addressed by the device `d` places back (`bwd c d`).
  The two are inverse to each other at a fixed distance, and the printed device chains are `fwd` at distances 1 to 7.
-/
import proofs.«900565_g7700000000000566_dist_mean_ax0_shard0_i_m2048_n1024_v7x_i8_bf16_1_alg».proof.Proof.Gen.Kernel

noncomputable section

namespace Cert.Kernel.Mesh

open Cert.Kernel Cert.Kernel.Gen
open Idealize.ShloMosaic

/-- The device `d` places further round the ring from `c`. -/
def fwd (c : Dev nD) (d : Fin 8) : Dev nD := ⟨(c.val + d.val) % 8, Nat.mod_lt _ (by decide)⟩
/-- The device `d` places back round the ring from `c`. -/
def bwd (c : Dev nD) (d : Fin 8) : Dev nD := ⟨(c.val + (8 - d.val)) % 8, Nat.mod_lt _ (by decide)⟩

theorem bwd_fwd (c : Dev nD) (d : Fin 8) : bwd (fwd c d) d = c := by revert c d; decide
theorem fwd_bwd (c : Dev nD) (d : Fin 8) : fwd (bwd c d) d = c := by revert c d; decide
theorem fwd_zero (c : Dev nD) : fwd c 0 = c := by revert c; decide
theorem bwd_zero (c : Dev nD) : bwd c 0 = c := by revert c; decide
theorem fwd_ne (c : Dev nD) (d : Fin 8) (hd : d ≠ 0) : fwd c d ≠ c := by revert c d; decide
theorem bwd_ne (c : Dev nD) (d : Fin 8) (hd : d ≠ 0) : bwd c d ≠ c := by revert c d; decide
/-- Going `d` places on is going `8 - d` places back. -/
theorem fwd_eq_bwd (c : Dev nD) (d : Fin 8) : fwd c d = bwd c (0 - d) := by revert c d; decide
theorem bwd_eq_fwd (c : Dev nD) (d : Fin 8) : bwd c d = fwd c (0 - d) := by revert c d; decide
/-- The distance from `c` on to `p`. -/
def dist (c p : Dev nD) : Fin 8 := ⟨(p.val + (8 - c.val)) % 8, Nat.mod_lt _ (by decide)⟩
theorem fwd_dist (c p : Dev nD) : fwd c (dist c p) = p := by revert c p; decide
theorem dist_fwd (c : Dev nD) (d : Fin 8) : dist c (fwd c d) = d := by revert c d; decide
theorem dist_bwd (c : Dev nD) (d : Fin 8) : dist (bwd c d) c = d := by revert c d; decide
theorem bwd_dist (c p : Dev nD) : bwd p (dist c p) = c := by revert c p; decide
theorem dist_ne_zero (c p : Dev nD) (h : p ≠ c) : dist c p ≠ 0 := by revert c p; decide
theorem fwd_inj (d : Fin 8) : Function.Injective (fun c : Dev nD => fwd c d) := by revert d; decide
theorem bwd_inj (d : Fin 8) : Function.Injective (fun c : Dev nD => bwd c d) := by revert d; decide

/-- The ring step of distance `d`, as a permutation of the devices. -/
def ring (d : Fin 8) : Dev nD ≃ Dev nD := ⟨fun c => fwd c d, fun c => bwd c d, fun c => bwd_fwd c d, fun c => fwd_bwd c d⟩

/-- The signals' device chains: the `d`-th names the device `d` places on. -/
theorem dev1_eq (c : Dev nD) : (⟨k0_dev1 c, k0_dev1_lt c⟩ : Dev nD) = fwd c 1 := Fin.ext (k0_dev1_eq c)
theorem dev2_eq (c : Dev nD) : (⟨k0_dev2 c, k0_dev2_lt c⟩ : Dev nD) = fwd c 2 := Fin.ext (k0_dev2_eq c)
theorem dev3_eq (c : Dev nD) : (⟨k0_dev3 c, k0_dev3_lt c⟩ : Dev nD) = fwd c 3 := Fin.ext (k0_dev3_eq c)
theorem dev4_eq (c : Dev nD) : (⟨k0_dev4 c, k0_dev4_lt c⟩ : Dev nD) = fwd c 4 := Fin.ext (k0_dev4_eq c)
theorem dev5_eq (c : Dev nD) : (⟨k0_dev5 c, k0_dev5_lt c⟩ : Dev nD) = fwd c 5 := Fin.ext (k0_dev5_eq c)
theorem dev6_eq (c : Dev nD) : (⟨k0_dev6 c, k0_dev6_lt c⟩ : Dev nD) = fwd c 6 := Fin.ext (k0_dev6_eq c)
theorem dev7_eq (c : Dev nD) : (⟨k0_dev7 c, k0_dev7_lt c⟩ : Dev nD) = fwd c 7 := Fin.ext (k0_dev7_eq c)
/-- The transfers' device chains: the copy into row `d` goes to the device `d` places on. -/
theorem dev8_eq (c : Dev nD) : (⟨k0_dev8 c, k0_dev8_lt c⟩ : Dev nD) = fwd c 1 := Fin.ext (k0_dev8_eq c)
theorem dev9_eq (c : Dev nD) : (⟨k0_dev9 c, k0_dev9_lt c⟩ : Dev nD) = fwd c 2 := Fin.ext (k0_dev9_eq c)
theorem dev10_eq (c : Dev nD) : (⟨k0_dev10 c, k0_dev10_lt c⟩ : Dev nD) = fwd c 3 := Fin.ext (k0_dev10_eq c)
theorem dev11_eq (c : Dev nD) : (⟨k0_dev11 c, k0_dev11_lt c⟩ : Dev nD) = fwd c 4 := Fin.ext (k0_dev11_eq c)
theorem dev12_eq (c : Dev nD) : (⟨k0_dev12 c, k0_dev12_lt c⟩ : Dev nD) = fwd c 5 := Fin.ext (k0_dev12_eq c)
theorem dev13_eq (c : Dev nD) : (⟨k0_dev13 c, k0_dev13_lt c⟩ : Dev nD) = fwd c 6 := Fin.ext (k0_dev13_eq c)
theorem dev14_eq (c : Dev nD) : (⟨k0_dev14 c, k0_dev14_lt c⟩ : Dev nD) = fwd c 7 := Fin.ext (k0_dev14_eq c)

end Cert.Kernel.Mesh

end
-- ==== Proof.BitsGathered.lean ====
/-
  What the exchange leaves in a device's eight-row scratch, and the kernel's result from it, as pure functions of
  the devices' input blocks: row `d` of device `c`'s scratch holds the column sums of the block of the device `d`
  places back round the ring (row 0 its own), and the result is the column sums of those eight rows scaled by 2⁻¹⁴.
-/
import proofs.«900565_g7700000000000566_dist_mean_ax0_shard0_i_m2048_n1024_v7x_i8_bf16_1_alg».proof.Proof.BitsMesh
import proofs.«900565_g7700000000000566_dist_mean_ax0_shard0_i_m2048_n1024_v7x_i8_bf16_1_alg».proof.Proof.Gen.Kernel.Skeleton
import Idealize.ShloMosaic.Lib.ValueIdx

noncomputable section

namespace Cert.Kernel.Mesh

open Cert.Kernel Cert.Kernel.Gen
open Idealize.ShloMosaic

variable {F : FTy → Type} [FloatOps F]

/-- Column `l` of a one-row vector. -/
abbrev col (l : Fin 1024) : S1x1024.Idx := ValueIdx.ix2 (0 : Fin 1) l
/-- Row `r`, column `l` of the eight-row scratch. -/
abbrev cell (r : Fin 8) (l : Fin 1024) : S8x1024.Idx := ValueIdx.ix2 r l

/-- The column sums of one device's block, as the row the kernel stores and sends. -/
abbrev rowOf (x : Vec F S2048x1024 .f32) : Vec F S1x1024 .f32 := k0_pay2 x

/-- Device `c`'s scratch after the exchange: row `d` is the row of the device `d` places back. -/
def gathered (xs : Dev nD → Vec F S2048x1024 .f32) (c : Dev nD) : Vec F S8x1024 .f32 :=
  fun i => rowOf (xs (bwd c ⟨(i 0).val, (i 0).isLt⟩)) (col ⟨(i 1).val, (i 1).isLt⟩)

theorem gathered_cell (xs : Dev nD → Vec F S2048x1024 .f32) (c : Dev nD) (r : Fin 8) (l : Fin 1024) :
    gathered xs c (cell r l) = rowOf (xs (bwd c r)) (col l) := rfl

/-- Device `c`'s result: the eight rows summed by columns and scaled. -/
def result (xs : Dev nD → Vec F S2048x1024 .f32) (c : Dev nD) : Vec F S1x1024 .f32 := k0_pay1 (gathered xs c)

end Cert.Kernel.Mesh

end
-- ==== Proof.BitsProto.lean ====
/-
  The exchange's protocol on the ring of eight devices, under the rounds discipline.
  Every device holds an eight-row scratch. Row 0 is its own partial sum; row `j+1` is the landing row of the copy from the device
  `j+1` places back. Before it copies, a device must know that each target is inside the kernel: each device signals the barrier
  semaphore of the seven others and waits for seven units. A signal to the device `d` places on hands over the signaller's own landing
  row `8 - d` (the row that device's copy will fill) and the fact that the matching receive cell stands at round 0.
  Cells per device: one barrier cell with seven unit duties, duty `j` paid by the device `j+1` places on; seven send cells and seven
  receive cells of one duty each, the send cell's payload a share of row 0 (the source of all seven copies), the receive cell's
  payload its landing row holding the sender's partial sum.
-/
import proofs.«900565_g7700000000000566_dist_mean_ax0_shard0_i_m2048_n1024_v7x_i8_bf16_1_alg».proof.Proof.BitsGathered
import proofs.«900565_g7700000000000566_dist_mean_ax0_shard0_i_m2048_n1024_v7x_i8_bf16_1_alg».proof.Proof.Gen.Kernel.Skeleton
import proofs.«900565_g7700000000000566_dist_mean_ax0_shard0_i_m2048_n1024_v7x_i8_bf16_1_alg».proof.Proof.Gen.Kernel.Launch
import proofs.«900565_g7700000000000566_dist_mean_ax0_shard0_i_m2048_n1024_v7x_i8_bf16_1_alg».proof.Proof.Gen.Kernel.Points
import proofs.«900565_g7700000000000566_dist_mean_ax0_shard0_i_m2048_n1024_v7x_i8_bf16_1_alg».proof.Proof.Gen.Kernel.Frame
import Idealize.ShloMosaic.Lib.Pipeline.Launch
import Idealize.ShloMosaic.Lib.Pipeline.Kit
import Idealize.ShloMosaic.Lib.Pipeline.Value
import Idealize.ShloMosaic.Lib.Tactic

noncomputable section

namespace Cert.Kernel.Proto

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) and the exchange's (duties `Fin 7`) -/

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs, the rows and the cells -/

abbrev xM : Memref sig .tc .vmem S2048x1024 .f32 := Memref.whole cc0_stg0_0
abbrev oM : Memref sig .tc .vmem S1x1024 .f32 := Memref.whole cc0_stg1_0
abbrev gM : Memref sig .tc .vmem S8x1024 .f32 := Memref.whole cc0_scratch0

theorem row_inb (r : Fin 8) : ∀ a, (![r.val, 0] : Fin 2 → Nat) a + S1x1024.size a ≤ S8x1024.size a := by revert r; decide
/-- Row `r` of the scratch, as a rectangle and as a memref. -/
abbrev rowR (r : Fin 8) : Rect S8x1024 := Rect.unit (s := S8x1024) ![r.val, 0] S1x1024.size (row_inb r)
abbrev rowM (r : Fin 8) : Memref sig .tc .vmem S1x1024 .f32 := gM.slice (rowR r) (fun _ => rfl)

/-- The runtime's barrier semaphore of collective id 0 (unscoped); the seven send and seven receive DMA semaphores (scoped scratch). -/
abbrev barS : Sem sig := (SemArray.scalar (sig.barrier 0 rfl) : Sems sig S_).sem
abbrev sendS (j : Fin 7) : DmaSem sig := ⟨2 + j.val, by have := j.isLt; show 2 + j.val < 16; omega⟩
abbrev recvS (j : Fin 7) : DmaSem sig := ⟨9 + j.val, by have := j.isLt; show 9 + j.val < 16; omega⟩

abbrev barCell (c : Dev nD) : GSem nD τ sig := ((c : Thread nD τ), .reg barS)
abbrev sendCell (c : Dev nD) (j : Fin 7) : GSem nD τ sig := ((c : Thread nD τ), .dma (sendS j))
abbrev recvCell (c : Dev nD) (j : Fin 7) : GSem nD τ sig := ((c : Thread nD τ), .dma (recvS j))

/-- The row a copy at distance `j+1` lands in, and that distance round the ring. -/
abbrev rw' (j : Fin 7) : Fin 8 := j.succ

example : (((cc0_scratch1 : DmaSems sig S7).slice (Rect.unit (s := S7) ![3] S1.size inb_S7_S1_3)).squeeze S_ squeezes_S1_S_).sem = sendS 3 := rfl
example : (((cc0_scratch2 : DmaSems sig S7).slice (Rect.unit (s := S7) ![3] S1.size inb_S7_S1_3)).squeeze S_ squeezes_S1_S_).sem = recvS 3 := rfl
example : (gM.slice (Rect.unit (s := S8x1024) ![3, 0] S1x1024.size inb_S8x1024_S1x1024_3_0) (fun _ => rfl) : Memref sig .tc .vmem S1x1024 .f32) = rowM 3 := rfl

abbrev N : ℕ := (rowM 0 : Memref sig .tc .vmem S1x1024 .f32).view.dmaCredit
theorem N_pos : 0 < N := View.dmaCredit_pos _ (by decide)
theorem amount_row (r : Fin 8) (q : DmaSem sig) : (rowM r : Memref sig .tc .vmem S1x1024 .f32).view.amount (.dma q) = N := rfl

/-- An index of the scratch lies in row `r` exactly when its row coordinate is `r`. -/
theorem mem_row (r : Fin 8) (i : S8x1024.Idx) :
    i ∈ (rowM r : Memref sig .tc .vmem S1x1024 .f32).view.set ↔ (i 0).val = r.val := by
  show i ∈ ((View.whole cc0_scratch0).slice (rowR r)).set ↔ _
  rw [View.set_slice_whole, Rect.mem_set_unit]
  constructor
  · intro h
    have h0 := h (0 : Fin 2)
    have e1 : (![r.val, 0] : Fin 2 → Nat) 0 = r.val := rfl
    have e2 : S1x1024.size (0 : Fin 2) = 1 := rfl
    rw [e1, e2] at h0; omega
  · intro h a
    have h1 : (i 1).val < 1024 := (i 1).isLt
    fin_cases a
    · show r.val ≤ (i 0).val ∧ (i 0).val < r.val + 1; omega
    · show 0 ≤ (i 1).val ∧ (i 1).val < 0 + 1024; omega

theorem rows_disjoint {r r' : Fin 8} (h : r ≠ r') :
    Disjoint (rowM r : Memref sig .tc .vmem S1x1024 .f32).view.set (rowM r' : Memref sig .tc .vmem S1x1024 .f32).view.set := by
  rw [Finset.disjoint_left]
  intro i hi hi'
  have a := (mem_row r i).mp hi
  have b := (mem_row r' i).mp hi'
  exact h (Fin.ext (a.symm.trans b))

theorem rows_cover : (Finset.univ : Finset S8x1024.Idx) = Finset.univ.biUnion fun r : Fin 8 => (rowM r : Memref sig .tc .vmem S1x1024 .f32).view.set := by
  ext i
  simp only [Finset.mem_univ, Finset.mem_biUnion, true_and, true_iff]
  exact ⟨⟨(i 0).val, (i 0).isLt⟩, (mem_row _ i).mpr rfl⟩

/-! ## Contents -/

/-- Device `c`'s input block, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- What device `c`'s scratch holds once the exchange is over: row `d` the partial sums of the device `d` places back. -/
def held (c : Dev nD) : Buf (Elt F) ((c : Thread nD τ).loc cc0_scratch0) := gathered (xstg m ρ) c

/-- The kernel's result on device `c`. -/
def outAt (c : Dev nD) : (cc0_stg1_0 : Ref sig .tc).ty.Contents (Elt F) := result (xstg m ρ) c

/-- Row `r` of device `c`'s scratch at share `q`, holding `f` there. -/
def rowPts (q : PosShare TreeShare) (c : Dev nD) (r : Fin 8) (f : Buf (Elt F) ((c : Thread nD τ).loc cc0_scratch0)) : sProp 𝕄 :=
  (rowM r : Memref sig .tc .vmem S1x1024 .f32).view.loc (c : Thread nD τ) ↦[(rowM r : Memref sig .tc .vmem S1x1024 .f32).view.set]{q} f
def xPts (c : Dev nD) : sProp 𝕄 :=
  (xM : Memref sig .tc .vmem S2048x1024 .f32).view.loc (c : Thread nD τ) ↦[(xM : Memref sig .tc .vmem S2048x1024 .f32).view.set]{fullShare} xstg m ρ c

instance rowPts_storable (q) (c : Dev nD) (r) (f) : BI.Storable (upEmb : UEmb _ 𝕄) (rowPts (F := F) q c r f) := by unfold rowPts; infer_instance

/-- The share of row 0 that the `k`-th and later copies read, and the `j`-th copy's own: halves of halves, the last copy keeping the rest. -/
def restShr : ℕ → PosShare TreeShare
  | 0 => fullShare
  | k + 1 => (restShr k).right
def shr (j : Fin 7) : PosShare TreeShare := if j.val = 6 then restShr 6 else (restShr j.val).left

theorem rowPts_share (k : ℕ) (c : Dev nD) (r : Fin 8) (f) :
    (rowPts (F := F) (restShr k) c r f) ⊣⊢ iprop(rowPts (restShr k).left c r f ∗ rowPts (restShr (k + 1)) c r f) := by
  unfold rowPts; exact pointsTo_share (PosShare.mem_left_op_right (restShr k))

/-! ## The schedule -/

/-- Which of the exchange's DMA semaphores a semaphore is: a receive (`true`) or send (`false`) semaphore, and its index. -/
def xferOf : SemLoc sig → Option (Bool × Fin 7)
  | .dma q => if h : 2 ≤ q.val ∧ q.val < 9 then some (false, ⟨q.val - 2, by omega⟩)
      else if h' : 9 ≤ q.val ∧ q.val < 16 then some (true, ⟨q.val - 9, by omega⟩) else none
  | _ => none

theorem xferOf_send (j : Fin 7) : xferOf (.dma (sendS j)) = some (false, j) := by revert j; decide
theorem xferOf_recv (j : Fin 7) : xferOf (.dma (recvS j)) = some (true, j) := by revert j; decide
theorem xferOf_bar : xferOf (.reg barS) = none := rfl

/-- What the device `j+1` places on from `t` hands `t` with its barrier signal: its landing row `j+1`, and that its receive cell `j` stands at round 0. -/
def barPay (t : Dev nD) (j : Fin 7) : sProp 𝕄 :=
  iprop((∃ f, rowPts fullShare (fwd t j.succ) j.succ f) ∗ reached ER (recvCell (fwd t j.succ) j) 0)
def recvPay (c : Dev nD) (j : Fin 7) : sProp 𝕄 := rowPts fullShare c j.succ (held m ρ c)
def sendPay (c : Dev nD) (j : Fin 7) : sProp 𝕄 := rowPts (shr j) c 0 (held m ρ c)

abbrev IsBar (g : GSem nD τ sig) : Prop := g.1.2 = .tc ∧ g.2 = .reg barS
abbrev IsXfer (g : GSem nD τ sig) : Prop := g.1.2 = .tc ∧ (xferOf g.2).isSome = true

/-- One round, round 0: a barrier cell has seven unit duties; a send or receive cell the one duty `0` of a row's credit. -/
def exRd : Rounds.Schedule (GSem nD τ sig) (Fin 7) 𝕄 where
  duties g r := if r = 0 ∧ IsBar g then Finset.univ else if r = 0 ∧ IsXfer g then {0} else ∅
  unitless _ := False
  amount g _ _ := if g.2 = .reg barS then 1 else N
  payload g _ d :=
    if g.2 = .reg barS then barPay g.1.1 d
    else match xferOf g.2 with
      | some (true, j) => recvPay m ρ g.1.1 j
      | some (false, j) => sendPay m ρ g.1.1 j
      | none => iprop(emp)
  amount_pos g _ _ _ := by
    by_cases h : g.2 = .reg barS
    · rw [if_pos h]; exact Nat.one_pos
    · rw [if_neg h]; exact N_pos

instance exRd_payload_storable (g : GSem nD τ sig) (r : ℕ) (d : Fin 7) :
    BI.Storable (upEmb : UEmb _ 𝕄) ((exRd (F := F) m ρ).payload g r d) := by
  show BI.Storable upEmb (if g.2 = .reg barS then barPay g.1.1 d
    else match xferOf g.2 with
      | some (true, j) => recvPay m ρ g.1.1 j
      | some (false, j) => sendPay m ρ g.1.1 j
      | none => iprop(emp))
  unfold barPay recvPay sendPay
  (repeat' split) <;> infer_instance

section Sched
variable (c : Dev nD)

theorem send_ne_bar (j : Fin 7) : (SemLoc.dma (sendS j) : SemLoc sig) ≠ .reg barS := fun h => by cases h
theorem recv_ne_bar (j : Fin 7) : (SemLoc.dma (recvS j) : SemLoc sig) ≠ .reg barS := fun h => by cases h
theorem not_bar_send (j : Fin 7) : ¬ IsBar (sendCell c j) := fun h => send_ne_bar j h.2
theorem not_bar_recv (j : Fin 7) : ¬ IsBar (recvCell c j) := fun h => recv_ne_bar j h.2

theorem duties_bar : (exRd (F := F) m ρ).duties (barCell c) 0 = Finset.univ := by dsimp only [exRd]; exact if_pos ⟨rfl, rfl, rfl⟩
theorem duties_send (j : Fin 7) : (exRd (F := F) m ρ).duties (sendCell c j) 0 = {0} := by
  dsimp only [exRd]; rw [if_neg (fun h => not_bar_send c j h.2)]; exact if_pos ⟨rfl, rfl, by rw [xferOf_send]; rfl⟩
theorem duties_recv (j : Fin 7) : (exRd (F := F) m ρ).duties (recvCell c j) 0 = {0} := by
  dsimp only [exRd]; rw [if_neg (fun h => not_bar_recv c j h.2)]; exact if_pos ⟨rfl, rfl, by rw [xferOf_recv]; rfl⟩
theorem duties_later (g : GSem nD τ sig) : ∀ r, 1 ≤ r → (exRd (F := F) m ρ).duties g r = ∅ :=
  fun r hr => by dsimp only [exRd]; rw [if_neg fun h => by omega, if_neg fun h => by omega]

theorem amount_bar (d : Fin 7) : (exRd (F := F) m ρ).amount (barCell c) 0 d = 1 := by dsimp only [exRd]; exact if_pos rfl
theorem amount_send (j d : Fin 7) : (exRd (F := F) m ρ).amount (sendCell c j) 0 d = N := by dsimp only [exRd]; exact if_neg (send_ne_bar j)
theorem amount_recv (j d : Fin 7) : (exRd (F := F) m ρ).amount (recvCell c j) 0 d = N := by dsimp only [exRd]; exact if_neg (recv_ne_bar j)

theorem expect_bar : (exRd (F := F) m ρ).expect (barCell c) 0 = 7 := by
  unfold Schedule.expect Schedule.amountOf
  rw [duties_bar, Finset.sum_congr rfl fun d _ => amount_bar m ρ c d, Finset.sum_const, Finset.card_univ, Fintype.card_fin, smul_eq_mul]
theorem expect_send (j : Fin 7) : (exRd (F := F) m ρ).expect (sendCell c j) 0 = N := by
  unfold Schedule.expect Schedule.amountOf; rw [duties_send, Finset.sum_singleton, amount_send]
theorem expect_recv (j : Fin 7) : (exRd (F := F) m ρ).expect (recvCell c j) 0 = N := by
  unfold Schedule.expect Schedule.amountOf; rw [duties_recv, Finset.sum_singleton, amount_recv]

theorem payload_bar (d : Fin 7) : (exRd (F := F) m ρ).payload (barCell c) 0 d = barPay c d := by dsimp only [exRd]; rw [if_pos rfl]
theorem payload_send (j d : Fin 7) : (exRd (F := F) m ρ).payload (sendCell c j) 0 d = sendPay m ρ c j := by
  dsimp only [exRd]; rw [if_neg (send_ne_bar j), xferOf_send]
theorem payload_recv (j d : Fin 7) : (exRd (F := F) m ρ).payload (recvCell c j) 0 d = recvPay m ρ c j := by
  dsimp only [exRd]; rw [if_neg (recv_ne_bar j), xferOf_recv]

/-- The rest of the barrier cell's round, no duty taken: all seven payloads. -/
theorem rest_bar : bigSep ((exRd (F := F) m ρ).duties (barCell c) 0 \ ∅) (fun d => (exRd (F := F) m ρ).payload (barCell c) 0 d)
    = bigSep Finset.univ fun d : Fin 7 => barPay (F := F) c d := by
  rw [Finset.sdiff_empty, duties_bar]; exact bigSep_congr fun d _ => payload_bar m ρ c d
theorem rest_send (j : Fin 7) : bigSep ((exRd (F := F) m ρ).duties (sendCell c j) 0 \ ∅) (fun d => (exRd (F := F) m ρ).payload (sendCell c j) 0 d) = sendPay m ρ c j := by
  rw [Finset.sdiff_empty, duties_send, bigSep_singleton, payload_send]
theorem rest_recv (j : Fin 7) : bigSep ((exRd (F := F) m ρ).duties (recvCell c j) 0 \ ∅) (fun d => (exRd (F := F) m ρ).payload (recvCell c j) 0 d) = recvPay m ρ c j := by
  rw [Finset.sdiff_empty, duties_recv, bigSep_singleton, payload_recv]

end Sched

/-! ## What each core owes at launch; the levels -/

/-- The ring distances pair up: the device `d+1` places on sees this one `(6-d)+1` places on. -/
def rev (d : Fin 7) : Fin 7 := ⟨6 - d.val, by omega⟩
theorem rev_rev (d : Fin 7) : rev (rev d) = d := by revert d; decide
theorem fwd_fwd_rev (c : Dev nD) (d : Fin 7) : fwd (fwd c d.succ) (rev d).succ = c := by revert c d; decide
theorem bwd_succ_eq (c : Dev nD) (d : Fin 7) : bwd c d.succ = fwd c (rev d).succ := by revert c d; decide

/-- The unit device `c` owes the barrier cell of the device `d+1` places on, and the row's credit it owes that device's receive cell `d`. -/
def sigT (c : Dev nD) (d : Fin 7) : CellTallies nD τ sig Unit := tallyAt (barCell (fwd c d.succ)) () 1
def rcvT (c : Dev nD) (d : Fin 7) : CellTallies nD τ sig Unit := tallyAt (recvCell (fwd c d.succ) d) () N

/-- What is owed with `n` copies still to make: the receive credits of the last `n`. -/
def owedR (c : Dev nD) : ℕ → CellTallies nD τ sig Unit
  | 0 => 0
  | n + 1 => owedR c n + rcvT c ⟨6 - n, by omega⟩
/-- What is owed with `n` signals still to make: every receive credit, and the units of the last `n` signals. -/
def owedS (c : Dev nD) : ℕ → CellTallies nD τ sig Unit
  | 0 => owedR c 7
  | n + 1 => owedS c n + sigT c ⟨6 - n, by omega⟩
def O₀ (c : Dev nD) : CellTallies nD τ sig Unit := owedS c 7

theorem owedR_pos {c : Dev nD} {g : GSem nD τ sig} {u : Unit} : ∀ n, 0 < owedR c n g u → ∃ d : Fin 7, g = recvCell (fwd c d.succ) d
  | 0, h => by
    rw [show owedR c 0 = 0 from rfl, Pi.zero_apply, Finsupp.zero_apply] at h
    exact absurd h (Nat.lt_irrefl 0)
  | n + 1, h => by
    rcases Pipeline.add_pos_cases (show 0 < (owedR c n + rcvT c ⟨6 - n, by omega⟩) g u from h) with h | h
    · exact owedR_pos n h
    · exact ⟨_, (Pipeline.tallyAt_pos h).1⟩

theorem owedS_pos {c : Dev nD} {g : GSem nD τ sig} {u : Unit} :
    ∀ n, 0 < owedS c n g u → (∃ d : Fin 7, g = recvCell (fwd c d.succ) d) ∨ ∃ d : Fin 7, g = barCell (fwd c d.succ)
  | 0, h => .inl (owedR_pos 7 h)
  | n + 1, h => by
    rcases Pipeline.add_pos_cases (show 0 < (owedS c n + sigT c ⟨6 - n, by omega⟩) g u from h) with h | h
    · exact owedS_pos n h
    · exact .inr ⟨_, (Pipeline.tallyAt_pos h).1⟩

def L (g : GSem nD τ sig) : Finset Unit := if g.1.2 = .tc then {()} else ∅
def isRecv (s : SemLoc sig) : Bool := match xferOf s with | some (true, _) => true | _ => false
/-- Barrier cells at 1, receive cells at 2, everything else (staging, send) at 0. -/
def lv (g : GSem nD τ sig) (_ : Unit) : ℕ := if g.2 = .reg barS then 1 else if isRecv g.2 = true then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (j : Fin 7) (u : Unit) : lv (recvCell c j) u = 2 := by
  unfold lv; rw [if_neg (recv_ne_bar j), if_pos (by unfold isRecv; rw [xferOf_recv])]
theorem lv_send (c : Dev nD) (j : Fin 7) (u : Unit) : lv (sendCell c j) u = 0 := by
  unfold lv; rw [if_neg (send_ne_bar j), if_neg (by unfold isRecv; rw [xferOf_send]; exact Bool.false_ne_true)]

/-- A wait on a cell at level 0, with any number of signals still to make: everything owed sits above it. -/
theorem mayWait_low (c : Dev nD) (s : SemLoc sig) (hs : lv ((c : Thread nD τ), s) () = 0) (n : ℕ) :
    (levAts L lv : sProp 𝕄) ⊢ MayWait (c : Thread nD τ) s () (owedS c n) :=
  Pipeline.mayWait_of_levAts (by rw [L_tc]; exact Finset.mem_singleton_self _) fun g i hg => by
    rcases owedS_pos n hg with ⟨d, rfl⟩ | ⟨d, rfl⟩
    · exact ⟨by rw [L_tc]; exact Finset.mem_singleton_self _, by rw [hs, lv_recv]; decide⟩
    · exact ⟨by rw [L_tc]; exact Finset.mem_singleton_self _, by rw [hs, lv_bar]; decide⟩

/-- At its barrier wait a device owes the seven receive credits only: receive cells, above its barrier cell. -/
theorem mayWait_bar (c : Dev nD) :
    (levAts L lv : sProp 𝕄) ⊢ MayWait (c : Thread nD τ) (.reg barS) () (owedR c 7) :=
  Pipeline.mayWait_of_levAts (by rw [L_tc]; exact Finset.mem_singleton_self _) fun g i hg => by
    obtain ⟨d, rfl⟩ := owedR_pos 7 hg
    exact ⟨by rw [L_tc]; exact Finset.mem_singleton_self _, by rw [lv_bar, lv_recv]; decide⟩

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The whole scratch of device `c`. -/
def scrPts (c : Dev nD) (f : Buf (Elt F) ((c : Thread nD τ).loc cc0_scratch0)) : sProp 𝕄 :=
  (((c : Thread nD τ).loc cc0_scratch0) ↦{fullShare} f : sProp 𝕄)

/-- Every cell's invariant, under the names the launch allocated them at, and that every cell stands at round 0: what every device knows. -/
def records (Kb : Dev nD → ℕ) (Ks Kr : Dev nD → Fin 7 → ℕ) : sProp 𝕄 :=
  iprop((bigSep Finset.univ fun c : Dev nD => cellInv ER (exRd m ρ) (Kb c) (barCell c))
    ∗ (bigSep Finset.univ fun c : Dev nD => bigSep Finset.univ fun j : Fin 7 => cellInv ER (exRd m ρ) (Ks c j) (sendCell c j))
    ∗ (bigSep Finset.univ fun c : Dev nD => bigSep Finset.univ fun j : Fin 7 => cellInv ER (exRd m ρ) (Kr c j) (recvCell c j))
    ∗ (bigSep Finset.univ fun c : Dev nD => reached ER (barCell c) 0)
    ∗ (bigSep Finset.univ fun c : Dev nD => bigSep Finset.univ fun j : Fin 7 => reached ER (sendCell c j) 0)
    ∗ (bigSep Finset.univ fun c : Dev nD => bigSep Finset.univ fun j : Fin 7 => reached ER (recvCell c j) 0))

instance records_persistent (Kb : Dev nD → ℕ) (Ks Kr : Dev nD → Fin 7 → ℕ) : BI.Persistent (records m ρ Kb Ks Kr) := by
  unfold records; infer_instance

/-- The tokens of the duties device `c` pays: on the barrier cell of the device `d+1` places on, the duty that device knows `c` by;
    on that device's receive cell `d`; on its own send cells. -/
def payToks (c : Dev nD) : sProp 𝕄 :=
  iprop((bigSep Finset.univ fun d : Fin 7 => dutyTok ER (barCell (fwd c d.succ)) 0 (rev d))
    ∗ (bigSep Finset.univ fun d : Fin 7 => dutyTok ER (recvCell (fwd c d.succ) d) 0 (0 : Fin 7))
    ∗ (bigSep Finset.univ fun j : Fin 7 => dutyTok ER (sendCell c j) 0 (0 : Fin 7)))

/-- What stays with device `c` alone: its positions in its fifteen cells and the tokens it pays with. -/
def linear (c : Dev nD) : sProp 𝕄 :=
  iprop(atPos ER (barCell c) 0 ∅ 0 ∗ (bigSep Finset.univ fun j : Fin 7 => atPos ER (sendCell c j) 0 ∅ 0)
    ∗ (bigSep Finset.univ fun j : Fin 7 => atPos ER (recvCell c j) 0 ∅ 0) ∗ payToks c)

def ghost (Kb : Dev nD → ℕ) (Ks Kr : Dev nD → Fin 7 → ℕ) (c : Dev nD) : sProp 𝕄 := iprop(records m ρ Kb Ks Kr ∗ linear c)

/-- What device `c`'s body starts from: the ghost state at some names, its barrier's seven units and its receive cells' credits, the level facts. -/
def start (c : Dev nD) : sProp 𝕄 :=
  iprop((∃ Kb Ks Kr, ghost m ρ Kb Ks Kr c) ∗ cred (tallyAt (barCell c) () 7)
    ∗ (bigSep Finset.univ fun j : Fin 7 => cred (tallyAt (recvCell c j) () N)) ∗ levAts L lv)

def Φ₀ (c : Dev nD) : sProp 𝕄 := iprop(start m ρ c ∗ ∃ f, scrPts c f)
/-- After the point: the scratch back whole, the fourteen own cells at zero, closed. -/
def Φ₁ (c : Dev nD) : sProp 𝕄 :=
  iprop((∃ f, scrPts c f) ∗ (bigSep Finset.univ fun j : Fin 7 => semVal (sendCell c j) 0) ∗ (bigSep Finset.univ fun j : Fin 7 => semVal (recvCell c j) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (Kb : Dev nD → ℕ) (Ks Kr : Dev nD → Fin 7 → ℕ) (c : Dev nD) : sProp 𝕄 :=
  iprop((ghost m ρ Kb Ks Kr c ∗ cred (tallyAt (barCell c) () 7) ∗ (bigSep Finset.univ fun j : Fin 7 => cred (tallyAt (recvCell c j) () N))
      ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ (F := F) c ∗ (dats m ρ 0 c).owesAt () t₀.succ ∗ stg c cc0_stg0_0 (xstg m ρ c) ∗ stg c cc0_stg1_0 (outAt m ρ c))

/-- The body as the pipeline calls it at its one point. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) cc0_scratch1 cc0_scratch2

end Cert.Kernel.Proto

end
-- ==== Proof.BitsSteps.lean ====
/-
  The pieces one device's body is stepped with: the scratch as its eight rows, what each row is to hold, row 0's seven shares, and one
  lemma per kind of statement — a signal that hands a landing row over, a copy of row 0 into a peer's row, the waits that bring rows and
  shares back, a cell's closing — each the library's rule at this protocol's cells and payloads.
-/
import proofs.«900565_g7700000000000566_dist_mean_ax0_shard0_i_m2048_n1024_v7x_i8_bf16_1_alg».proof.Proof.BitsProto

noncomputable section

namespace Cert.Kernel.Proto

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The rows of the scratch -/

/-- The whole scratch is its eight rows. -/
theorem scr_split (c : Dev nD) (f : Buf (Elt F) ((c : Thread nD τ).loc cc0_scratch0)) :
    (scrPts (F := F) c f) = bigSep Finset.univ fun r : Fin 8 => rowPts fullShare c r f := by
  unfold scrPts rowPts
  refine Eq.trans ?_ (pointsTo_biUnion (q := fullShare) (f := f) (Finset.univ : Finset (Fin 8))
    (fun r : Fin 8 => (rowM r : Memref sig .tc .vmem S1x1024 .f32).view.set) (fun r _ r' _ h => rows_disjoint h))
  exact congrArg (fun S => (((c : Thread nD τ).loc cc0_scratch0) ↦[S]{fullShare} f : sProp 𝕄)) rows_cover

/-- Where column `y` of row `r` lies in the scratch. -/
theorem emb_row (r : Fin 8) (y : S1x1024.Idx) :
    ((rowM r : Memref sig .tc .vmem S1x1024 .f32).view.emb y : S8x1024.Idx) = cell r ⟨(y 1).val, (y 1).isLt⟩ := by
  funext a
  refine Fin.ext ?_
  have h0 : (y 0).val = 0 := Nat.lt_one_iff.mp (y 0).isLt
  match a with
  | ⟨0, _⟩ => show r.val + 1 * (y 0).val = r.val; omega
  | ⟨1, _⟩ => show 0 + 1 * (y 1).val = (y 1).val; omega

theorem col_eta (y : S1x1024.Idx) : col ⟨(y 1).val, (y 1).isLt⟩ = y := by
  funext a
  match a with
  | ⟨0, _⟩ => exact Fin.ext (Nat.lt_one_iff.mp (y 0).isLt).symm
  | ⟨1, _⟩ => rfl

/-- What a device's scratch is to hold, read through row `r`: the partial sums of the device `r` places back. -/
theorem held_read (c : Dev nD) (r : Fin 8) :
    (rowM r : Memref sig .tc .vmem S1x1024 .f32).view.read (Elt F) (held m ρ c) = rowOf (xstg m ρ (bwd c r)) := by
  funext y
  show held m ρ c ((rowM r : Memref sig .tc .vmem S1x1024 .f32).view.emb y) = _
  rw [emb_row]; unfold held; rw [gathered_cell, col_eta]

/-- After the store of its partial sums, row 0 holds what the exchange is to leave there. -/
theorem row0_stored (c : Dev nD) (f0 : Buf (Elt F) ((c : Thread nD τ).loc cc0_scratch0)) :
    ((rowM 0 : Memref sig .tc .vmem S1x1024 .f32).view.loc (c : Thread nD τ) ↦[(rowM 0 : Memref sig .tc .vmem S1x1024 .f32).view.set]{fullShare}
        ((gM : Memref sig .tc .vmem S8x1024 .f32).access (rowR 0)).write (Elt F) f0 (k0_pay2 (xstg m ρ c)) Finset.univ : sProp 𝕄)
      = rowPts fullShare c 0 (held m ρ c) := by
  unfold rowPts
  refine pointsTo_congr fun i hi => ?_
  obtain ⟨y, rfl⟩ := View.exists_emb_of_mem_set _ hi
  rw [View.write_emb_of_mem _ _ (Finset.mem_univ y)]
  show k0_pay2 (xstg m ρ c) y = (rowM 0 : Memref sig .tc .vmem S1x1024 .f32).view.read (Elt F) (held m ρ c) y
  rw [held_read, bwd_zero]

/-- A copy of row 0 of device `c` into row `d+1` of the device `d+1` places on leaves there what that device is to hold. -/
theorem row_landed (c : Dev nD) (d : Fin 7) (fd : Buf (Elt F) (((fwd c d.succ : Dev nD) : Thread nD τ).loc cc0_scratch0)) :
    ((rowM d.succ : Memref sig .tc .vmem S1x1024 .f32).view.loc ((fwd c d.succ : Dev nD) : Thread nD τ) ↦[(rowM d.succ : Memref sig .tc .vmem S1x1024 .f32).view.set]{fullShare}
        ((rowM d.succ : Memref sig .tc .vmem S1x1024 .f32).view.write (Elt F) fd ((rowM 0 : Memref sig .tc .vmem S1x1024 .f32).view.read (Elt F) (held m ρ c)) Finset.univ) : sProp 𝕄)
      = rowPts fullShare (fwd c d.succ) d.succ (held m ρ (fwd c d.succ)) := by
  unfold rowPts
  refine pointsTo_congr fun i hi => ?_
  obtain ⟨y, rfl⟩ := View.exists_emb_of_mem_set _ hi
  rw [View.write_emb_of_mem _ _ (Finset.mem_univ y)]
  show (rowM 0 : Memref sig .tc .vmem S1x1024 .f32).view.read (Elt F) (held m ρ c) y = (rowM d.succ : Memref sig .tc .vmem S1x1024 .f32).view.read (Elt F) (held m ρ (fwd c d.succ)) y
  rw [held_read, held_read, bwd_zero, bwd_fwd]

theorem shr_0 : shr 0 = (restShr 0).left := rfl
theorem shr_1 : shr 1 = (restShr 1).left := rfl
theorem shr_2 : shr 2 = (restShr 2).left := rfl
theorem shr_3 : shr 3 = (restShr 3).left := rfl
theorem shr_4 : shr 4 = (restShr 4).left := rfl
theorem shr_5 : shr 5 = (restShr 5).left := rfl
theorem shr_6 : shr 6 = restShr 6 := rfl

/-- Row 0 at the full share is the seven copies' shares of it. -/
theorem row0_shares (c : Dev nD) (f : Buf (Elt F) ((c : Thread nD τ).loc cc0_scratch0)) :
    rowPts (F := F) fullShare c 0 f ⊣⊢ iprop(rowPts (shr 0) c 0 f ∗ rowPts (shr 1) c 0 f ∗ rowPts (shr 2) c 0 f ∗ rowPts (shr 3) c 0 f
      ∗ rowPts (shr 4) c 0 f ∗ rowPts (shr 5) c 0 f ∗ rowPts (shr 6) c 0 f) := by
  have e0 : rowPts (F := F) fullShare c 0 f ⊣⊢ iprop(rowPts (F := F) (restShr 0).left c 0 f ∗ rowPts (F := F) (restShr 1) c 0 f) := rowPts_share (F := F) 0 c 0 f
  have e1 : rowPts (F := F) (restShr 1) c 0 f ⊣⊢ iprop(rowPts (F := F) (restShr 1).left c 0 f ∗ rowPts (F := F) (restShr 2) c 0 f) := rowPts_share (F := F) 1 c 0 f
  have e2 : rowPts (F := F) (restShr 2) c 0 f ⊣⊢ iprop(rowPts (F := F) (restShr 2).left c 0 f ∗ rowPts (F := F) (restShr 3) c 0 f) := rowPts_share (F := F) 2 c 0 f
  have e3 : rowPts (F := F) (restShr 3) c 0 f ⊣⊢ iprop(rowPts (F := F) (restShr 3).left c 0 f ∗ rowPts (F := F) (restShr 4) c 0 f) := rowPts_share (F := F) 3 c 0 f
  have e4 : rowPts (F := F) (restShr 4) c 0 f ⊣⊢ iprop(rowPts (F := F) (restShr 4).left c 0 f ∗ rowPts (F := F) (restShr 5) c 0 f) := rowPts_share (F := F) 4 c 0 f
  have e5 : rowPts (F := F) (restShr 5) c 0 f ⊣⊢ iprop(rowPts (F := F) (restShr 5).left c 0 f ∗ rowPts (F := F) (restShr 6) c 0 f) := rowPts_share (F := F) 5 c 0 f
  rw [shr_0, shr_1, shr_2, shr_3, shr_4, shr_5, shr_6]
  constructor
  · iintro H
    ihave H := e0.1 $$ H; icases H with ⟨H0, H⟩
    ihave H := e1.1 $$ H; icases H with ⟨H1, H⟩
    ihave H := e2.1 $$ H; icases H with ⟨H2, H⟩
    ihave H := e3.1 $$ H; icases H with ⟨H3, H⟩
    ihave H := e4.1 $$ H; icases H with ⟨H4, H⟩
    ihave H := e5.1 $$ H; icases H with ⟨H5, H6⟩
    isplitl [H0]; · iexact H0
    isplitl [H1]; · iexact H1
    isplitl [H2]; · iexact H2
    isplitl [H3]; · iexact H3
    isplitl [H4]; · iexact H4
    isplitl [H5]; · iexact H5
    iexact H6
  · iintro ⟨H0, H1, H2, H3, H4, H5, H6⟩
    ihave H := e5.2 $$ [H5 H6]
    · isplitl [H5]; · iexact H5
      iexact H6
    ihave H := e4.2 $$ [H4 H]
    · isplitl [H4]; · iexact H4
      iexact H
    ihave H := e3.2 $$ [H3 H]
    · isplitl [H3]; · iexact H3
      iexact H
    ihave H := e2.2 $$ [H2 H]
    · isplitl [H2]; · iexact H2
      iexact H
    ihave H := e1.2 $$ [H1 H]
    · isplitl [H1]; · iexact H1
      iexact H
    ihave H := e0.2 $$ [H0 H]
    · isplitl [H0]; · iexact H0
      iexact H
    iexact H

/-! ## What every device knows -/

section Known
variable (Kb : Dev nD → ℕ) (Ks Kr : Dev nD → Fin 7 → ℕ)

theorem inv_bar (t : Dev nD) : records m ρ Kb Ks Kr ⊢ cellInv ER (exRd m ρ) (Kb t) (barCell t) := by
  have e : (bigSep Finset.univ fun c : Dev nD => (cellInv ER (exRd m ρ) (Kb c) (barCell c) : sProp 𝕄)) ⊢ (cellInv ER (exRd m ρ) (Kb t) (barCell t) : sProp 𝕄) := bigSep_elim (Finset.mem_univ t)
  unfold records; iintro ⟨H, -⟩; iapply e; iexact H
theorem inv_send (c : Dev nD) (j : Fin 7) : records m ρ Kb Ks Kr ⊢ cellInv ER (exRd m ρ) (Ks c j) (sendCell c j) := by
  have e1 : (bigSep Finset.univ fun c : Dev nD => bigSep Finset.univ fun j : Fin 7 => (cellInv ER (exRd m ρ) (Ks c j) (sendCell c j) : sProp 𝕄))
      ⊢ bigSep Finset.univ fun j : Fin 7 => (cellInv ER (exRd m ρ) (Ks c j) (sendCell c j) : sProp 𝕄) := bigSep_elim (Finset.mem_univ c)
  have e2 : (bigSep Finset.univ fun j : Fin 7 => (cellInv ER (exRd m ρ) (Ks c j) (sendCell c j) : sProp 𝕄)) ⊢ (cellInv ER (exRd m ρ) (Ks c j) (sendCell c j) : sProp 𝕄) := bigSep_elim (Finset.mem_univ j)
  unfold records; iintro ⟨-, H, -⟩; iapply e2; iapply e1; iexact H
theorem inv_recv (c : Dev nD) (j : Fin 7) : records m ρ Kb Ks Kr ⊢ cellInv ER (exRd m ρ) (Kr c j) (recvCell c j) := by
  have e1 : (bigSep Finset.univ fun c : Dev nD => bigSep Finset.univ fun j : Fin 7 => (cellInv ER (exRd m ρ) (Kr c j) (recvCell c j) : sProp 𝕄))
      ⊢ bigSep Finset.univ fun j : Fin 7 => (cellInv ER (exRd m ρ) (Kr c j) (recvCell c j) : sProp 𝕄) := bigSep_elim (Finset.mem_univ c)
  have e2 : (bigSep Finset.univ fun j : Fin 7 => (cellInv ER (exRd m ρ) (Kr c j) (recvCell c j) : sProp 𝕄)) ⊢ (cellInv ER (exRd m ρ) (Kr c j) (recvCell c j) : sProp 𝕄) := bigSep_elim (Finset.mem_univ j)
  unfold records; iintro ⟨-, -, H, -⟩; iapply e2; iapply e1; iexact H
theorem rch_bar (t : Dev nD) : records m ρ Kb Ks Kr ⊢ reached ER (barCell t) 0 := by
  have e : (bigSep Finset.univ fun c : Dev nD => (reached ER (barCell c) 0 : sProp 𝕄)) ⊢ (reached ER (barCell t) 0 : sProp 𝕄) := bigSep_elim (Finset.mem_univ t)
  unfold records; iintro ⟨-, -, -, H, -⟩; iapply e; iexact H
theorem rch_send (c : Dev nD) (j : Fin 7) : records m ρ Kb Ks Kr ⊢ reached ER (sendCell c j) 0 := by
  have e1 : (bigSep Finset.univ fun c : Dev nD => bigSep Finset.univ fun j : Fin 7 => (reached ER (sendCell c j) 0 : sProp 𝕄))
      ⊢ bigSep Finset.univ fun j : Fin 7 => (reached ER (sendCell c j) 0 : sProp 𝕄) := bigSep_elim (Finset.mem_univ c)
  have e2 : (bigSep Finset.univ fun j : Fin 7 => (reached ER (sendCell c j) 0 : sProp 𝕄)) ⊢ (reached ER (sendCell c j) 0 : sProp 𝕄) := bigSep_elim (Finset.mem_univ j)
  unfold records; iintro ⟨-, -, -, -, H, -⟩; iapply e2; iapply e1; iexact H
theorem rch_recv (c : Dev nD) (j : Fin 7) : records m ρ Kb Ks Kr ⊢ reached ER (recvCell c j) 0 := by
  have e1 : (bigSep Finset.univ fun c : Dev nD => bigSep Finset.univ fun j : Fin 7 => (reached ER (recvCell c j) 0 : sProp 𝕄))
      ⊢ bigSep Finset.univ fun j : Fin 7 => (reached ER (recvCell c j) 0 : sProp 𝕄) := bigSep_elim (Finset.mem_univ c)
  have e2 : (bigSep Finset.univ fun j : Fin 7 => (reached ER (recvCell c j) 0 : sProp 𝕄)) ⊢ (reached ER (recvCell c j) 0 : sProp 𝕄) := bigSep_elim (Finset.mem_univ j)
  unfold records; iintro ⟨-, -, -, -, -, H⟩; iapply e2; iapply e1; iexact H

/-! ## The steps -/

/-- The `d`-th signal, to the device `d+1` places on: it pays that device's barrier duty `6-d` with this device's landing row `7-d`. -/
theorem wp_sig (c t : Dev nD) (d : Fin 7) (ht : t = fwd c d.succ) (k' : ℕ) (hk' : k' = 1) (O : CellTallies nD τ sig Unit) {W : Waits sig Unit}
    (f : Buf (Elt F) ((c : Thread nD τ).loc cc0_scratch0))
    {α : Type} {Q : α → sProp 𝕄} {k : PUnit → Prog (TpuEff nD τ sig (Elt F) Λ₀ .tc) α} :
    iprop(records m ρ Kb Ks Kr ∗ owes (c : Thread nD τ) (O + sigT c d) W ∗ dutyTok ER (barCell t) 0 (rev d) ∗ rowPts fullShare c (rev d).succ f)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (t : Thread nD τ) barS k') k) Q) := by
  subst ht; subst hk'
  refine BIBase.Entails.trans ?_ (Rounds.wp_signal 𝒱₀ ER (exRd m ρ) (c : Thread nD τ) none (dst := ((fwd c d.succ : Dev nD) : Thread nD τ)) (κ := Kb (fwd c d.succ))
      (d := rev d) (r := 0) (by rw [duties_bar]; exact Finset.mem_univ _) (amount_bar m ρ (fwd c d.succ) (rev d)) () O rfl)
  iintro ⟨#HR, HO, Ht, Hrow⟩
  isplitr; · iapply (inv_bar m ρ Kb Ks Kr (fwd c d.succ)); iexact HR
  isplitl [HO]; · iexact HO
  isplitl [Ht]; · iexact Ht
  isplitl [Hrow]
  · rw [payload_bar]; unfold barPay; rw [fwd_fwd_rev]
    isplitl [Hrow]; · iexists f; iexact Hrow
    iapply (rch_recv m ρ Kb Ks Kr c (rev d)); iexact HR
  iapply (rch_bar m ρ Kb Ks Kr (fwd c d.succ)); iexact HR

/-- The `d`-th copy: row 0, at its share, into row `d+1` of the device `d+1` places on, whose landing row the barrier wait brought. -/
theorem wp_snd₀ (c t : Dev nD) (d : Fin 7) (ht : t = fwd c d.succ) (O : CellTallies nD τ sig Unit) {W : Waits sig Unit}
    (fn : Buf (Elt F) ((t : Thread nD τ).loc cc0_scratch0))
    {hsc : (rowM d.succ : Memref sig (Dev.tc t : Thread nD τ).2.kind .vmem S1x1024 .f32).view.ref.isScScratch = false}
    {hsrc : (rowM 0 : Memref sig .tc .vmem S1x1024 .f32).view.WordExact} {hdst : (rowM d.succ : Memref sig .tc .vmem S1x1024 .f32).view.WordExact}
    {hsem : DmaTarget.Typed .vmem (.dma (recvS d)) (.remote (Dev.tc t : Thread nD τ) (rowM d.succ : Memref sig .tc .vmem S1x1024 .f32) (.dma (sendS d)) hsc)}
    {α : Type} {Q : α → sProp 𝕄} {k : PUnit → Prog (TpuEff nD τ sig (Elt F) Λ₀ .tc) α} :
    iprop(records m ρ Kb Ks Kr ∗ rowPts (shr d) c 0 (held m ρ c) ∗ rowPts fullShare t d.succ fn
        ∗ owes (c : Thread nD τ) (O + rcvT c d) W ∗ dutyTok ER (sendCell c d) 0 (0 : Fin 7) ∗ dutyTok ER (recvCell t d) 0 (0 : Fin 7))
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM 0 : Memref sig .tc .vmem S1x1024 .f32) (.remote (Dev.tc t : Thread nD τ) (rowM d.succ : Memref sig .tc .vmem S1x1024 .f32) (.dma (sendS d)) hsc) (.dma (recvS d)) hsrc hdst hsem) k) Q) := by
  subst ht
  refine BIBase.Entails.trans ?_ (Rounds.wp_send_pointsTo 𝒱₀ ER (exRd m ρ) (c : Thread nD τ) none (κ₁ := Ks c d) (κ₂ := Kr (fwd c d.succ) d)
    (r₁ := 0) (r₂ := 0) (d₁ := (0 : Fin 7)) (d₂ := (0 : Fin 7)) (q := shr d) (fs := held m ρ c) (fd := fn)
    (by rw [duties_send]; exact Finset.mem_singleton_self _) (by rw [duties_recv]; exact Finset.mem_singleton_self _)
    () () N rfl (amount_send m ρ c d 0) (amount_recv m ρ (fwd c d.succ) d 0) O rfl (W := W)
    (by rw [payload_send]; unfold sendPay rowPts; exact BI.Entails.refl _)
    (by rw [payload_recv]; unfold recvPay; rw [row_landed]))
  unfold rowPts
  iintro ⟨#HR, Hsrc, Hdst, HO, HtS, HtR⟩
  isplitr; · iapply (inv_send m ρ Kb Ks Kr c d); iexact HR
  isplitr; · iapply (inv_recv m ρ Kb Ks Kr (fwd c d.succ) d); iexact HR
  isplitl [Hsrc]; · iexact Hsrc
  isplitl [Hdst]; · iexact Hdst
  isplitl [HO]; · iexact HO
  isplitl [HtS]; · iexact HtS
  isplitr; · iapply (rch_send m ρ Kb Ks Kr c d); iexact HR
  isplitl [HtR]; · iexact HtR
  iapply (rch_recv m ρ Kb Ks Kr (fwd c d.succ) d); iexact HR

/-- The same, with the copy's target device, its two views and its two semaphores as they are printed, equal to the protocol's. -/
theorem wp_snd (c : Dev nD) (d : Fin 7) (O : CellTallies nD τ sig Unit) {W : Waits sig Unit}
    (fn : Buf (Elt F) (((fwd c d.succ : Dev nD) : Thread nD τ).loc cc0_scratch0))
    {t : Dev nD} {src dst : Memref sig .tc .vmem S1x1024 .f32} {sS sR : DmaSem sig}
    {hsc : (dst : Memref sig (Dev.tc t : Thread nD τ).2.kind .vmem S1x1024 .f32).view.ref.isScScratch = false}
    {hsrc : src.view.WordExact} {hdst : dst.view.WordExact}
    {hsem : DmaTarget.Typed .vmem (.dma sR) (.remote (Dev.tc t : Thread nD τ) dst (.dma sS) hsc)}
    {α : Type} {Q : α → sProp 𝕄} {k : PUnit → Prog (TpuEff nD τ sig (Elt F) Λ₀ .tc) α} :
    iprop(⌜t = fwd c d.succ ∧ src = rowM 0 ∧ dst = rowM d.succ ∧ sS = sendS d ∧ sR = recvS d⌝
        ∗ records m ρ Kb Ks Kr ∗ rowPts (shr d) c 0 (held m ρ c) ∗ rowPts fullShare (fwd c d.succ) d.succ fn
        ∗ owes (c : Thread nD τ) (O + rcvT c d) W ∗ dutyTok ER (sendCell c d) 0 (0 : Fin 7) ∗ dutyTok ER (recvCell (fwd c d.succ) d) 0 (0 : Fin 7))
      ⊢ iprop(((cred (tallyAt (sendCell c d) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc t : Thread nD τ) dst (.dma sS) hsc) (.dma sR) hsrc hdst hsem) k) Q) := by
  iintro ⟨%h, H⟩
  obtain ⟨rfl, rfl, rfl, rfl, rfl⟩ := h
  iapply (wp_snd₀ m ρ Kb Ks Kr c (fwd c d.succ) d rfl O fn)
  iexact H

/-- The wait on receive cell `j`, owing nothing: the landing row `j+1` comes back holding the sender's partial sums. -/
theorem wp_rcv (c : Dev nD) (j : Fin 7) {W : Waits sig Unit}
    {sm : DmaSem sig} {src dst : Memref sig .tc .vmem S1x1024 .f32} {hsrc : src.view.WordExact} {hdst : dst.view.WordExact}
    {α : Type} {Q : α → sProp 𝕄} {k : PUnit → Prog (TpuEff nD τ sig (Elt F) Λ₀ .tc) α} :
    iprop(⌜sm = recvS j ∧ dst.view.dmaCredit = N⌝ ∗ records m ρ Kb Ks Kr ∗ cred (tallyAt (recvCell c j) () N) ∗ owes (c : Thread nD τ) 0 W ∗ atPos ER (recvCell c j) 0 ∅ 0)
      ⊢ iprop(((owes (c : Thread nD τ) 0 (insert (SemLoc.dma (recvS j), ()) W) ∗ atPos ER (recvCell c j) 1 ∅ 0 ∗ rowPts fullShare c j.succ (held m ρ c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  iintro ⟨%h, #HR, Hc, HO, Hat⟩ Hk
  obtain ⟨rfl, hN⟩ := h
  have hw : ∀ K : PUnit → sProp 𝕄, wpE (defs₀ (F := F)) 𝒱₀ (c : Thread nD τ) none Set.univ (.waitDma2 (recvS j) src dst hsrc hdst) K
      = waitSpec (c : Thread nD τ) Set.univ (.dma (recvS j)) N K := fun K => by
    rw [wpE_waitDma2_eq, hN]
  iapply (Rounds.wp_wait_rest_token 𝒱₀ ER (exRd m ρ) (c : Thread nD τ) none (κ := Kr c j) hw (Set.mem_univ _) () (O := 0) (W := W) (R := 0) (m := 0) (T := ∅)
      (by rw [Nat.zero_add, expect_recv])) $$ [Hc HO Hat]
  · isplitr; · iapply (inv_recv m ρ Kb Ks Kr c j); iexact HR
    isplitl [Hc]; · iexact Hc
    isplitl [HO]; · iexact HO
    isplitr; · rw [MayWait_zero]; iempintro
    iexact Hat
  iintro ⟨HO, Hat, -, Hpay⟩
  ihave Hrow := (Entails.of_eq (rest_recv m ρ c j)) $$ Hpay
  iapply Hk
  isplitl [HO]; · iexact HO
  isplitl [Hat]; · iexact Hat
  unfold recvPay; iexact Hrow

/-- The wait on send cell `j`, owing nothing: the copy's share of row 0 comes back. -/
theorem wp_sndw (c : Dev nD) (j : Fin 7) {W : Waits sig Unit}
    {sm : DmaSem sig} {src dst : Memref sig .tc .vmem S1x1024 .f32} {hsrc : src.view.WordExact} {hdst : dst.view.WordExact}
    {α : Type} {Q : α → sProp 𝕄} {k : PUnit → Prog (TpuEff nD τ sig (Elt F) Λ₀ .tc) α} :
    iprop(⌜sm = sendS j ∧ dst.view.dmaCredit = N⌝ ∗ records m ρ Kb Ks Kr ∗ cred (tallyAt (sendCell c j) () N) ∗ owes (c : Thread nD τ) 0 W ∗ atPos ER (sendCell c j) 0 ∅ 0)
      ⊢ iprop(((owes (c : Thread nD τ) 0 (insert (SemLoc.dma (sendS j), ()) W) ∗ atPos ER (sendCell c j) 1 ∅ 0 ∗ rowPts (shr j) c 0 (held m ρ c))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  iintro ⟨%h, #HR, Hc, HO, Hat⟩ Hk
  obtain ⟨rfl, hN⟩ := h
  have hw : ∀ K : PUnit → sProp 𝕄, wpE (defs₀ (F := F)) 𝒱₀ (c : Thread nD τ) none Set.univ (.waitDma2 (sendS j) src dst hsrc hdst) K
      = waitSpec (c : Thread nD τ) Set.univ (.dma (sendS j)) N K := fun K => by
    rw [wpE_waitDma2_eq, hN]
  iapply (Rounds.wp_wait_rest_token 𝒱₀ ER (exRd m ρ) (c : Thread nD τ) none (κ := Ks c j) hw (Set.mem_univ _) () (O := 0) (W := W) (R := 0) (m := 0) (T := ∅)
      (by rw [Nat.zero_add, expect_send])) $$ [Hc HO Hat]
  · isplitr; · iapply (inv_send m ρ Kb Ks Kr c j); iexact HR
    isplitl [Hc]; · iexact Hc
    isplitl [HO]; · iexact HO
    isplitr; · rw [MayWait_zero]; iempintro
    iexact Hat
  iintro ⟨HO, Hat, -, Hpay⟩
  ihave Hrow := (Entails.of_eq (rest_send m ρ c j)) $$ Hpay
  iapply Hk
  isplitl [HO]; · iexact HO
  isplitl [Hat]; · iexact Hat
  unfold sendPay; iexact Hrow

/-- An own cell past its one round closes: its counter, at zero, is the core's again. -/
theorem close_send (c : Dev nD) (j : Fin 7) : iprop(records m ρ Kb Ks Kr ∗ atPos ER (sendCell c j) 1 ∅ 0) ⊢ (|={Set.univ}=> semVal (sendCell c j) 0 : sProp 𝕄) := by
  iintro ⟨#HR, Hat⟩
  iapply (Rounds.cell_close ER (exRd m ρ) (Set.mem_univ (Ks c j)) (fun h => h) (R := 0 + 1) (duties_later m ρ (sendCell c j)))
  isplitr; · iapply (inv_send m ρ Kb Ks Kr c j); iexact HR
  iexact Hat
theorem close_recv (c : Dev nD) (j : Fin 7) : iprop(records m ρ Kb Ks Kr ∗ atPos ER (recvCell c j) 1 ∅ 0) ⊢ (|={Set.univ}=> semVal (recvCell c j) 0 : sProp 𝕄) := by
  iintro ⟨#HR, Hat⟩
  iapply (Rounds.cell_close ER (exRd m ρ) (Set.mem_univ (Kr c j)) (fun h => h) (R := 0 + 1) (duties_later m ρ (recvCell c j)))
  isplitr; · iapply (inv_recv m ρ Kb Ks Kr c j); iexact HR
  iexact Hat

end Known

end Cert.Kernel.Proto

end
-- ==== Proof.BitsLaunchPre.lean ====
/-
  Before the launch theorem: the exchange's cells and tokens as finite sets, funded for all eight devices at once; every cell's
  invariant allocated and its name told to every device; the tokens dealt to the devices that pay with them; the launch credit counted
  — seven units on each barrier cell, a row's credit on each receive cell —; and the launch theorem's side conditions.
-/
import proofs.«900565_g7700000000000566_dist_mean_ax0_shard0_i_m2048_n1024_v7x_i8_bf16_1_alg».proof.Proof.BitsSteps

noncomputable section

namespace Cert.Kernel.Proto

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores; the cells and the tokens as finite sets -/

/-- The kernel's fourteen own (scoped) semaphores: the receive (`true`) and send (`false`) semaphore of each index. -/
abbrev osem : Bool × Fin 7 → SemLoc sig := fun bj => if bj.1 then .dma (recvS bj.2) else .dma (sendS bj.2)

theorem ownSemFacts : Pipeline.OwnSemFacts cfg0.spec osem := by decide

theorem share_eq (c : Dev nD) (w : Fin cfg0.W) : (dats m ρ 0 c).share w = fullShare := by unfold Dat.share; split <;> rfl

theorem dev_of_cell {g g' : GSem nD τ sig} (h : g = g') : g.1.1 = g'.1.1 := congrArg (fun g : GSem nD τ sig => g.1.1) h

theorem bar_inj : Function.Injective (barCell : Dev nD → GSem nD τ sig) := fun a b h => dev_of_cell h
theorem sendS_inj {j j' : Fin 7} (h : (SemLoc.dma (sendS j) : SemLoc sig) = .dma (sendS j')) : j = j' := by
  revert j j'; decide
theorem recvS_inj {j j' : Fin 7} (h : (SemLoc.dma (recvS j) : SemLoc sig) = .dma (recvS j')) : j = j' := by
  revert j j'; decide
theorem sendS_ne_recvS (j j' : Fin 7) : (SemLoc.dma (sendS j) : SemLoc sig) ≠ .dma (recvS j') := by
  revert j j'; decide
theorem send_inj : Function.Injective (fun cj : Dev nD × Fin 7 => sendCell cj.1 cj.2) := by
  rintro ⟨c, j⟩ ⟨c', j'⟩ h
  have h1 : c = c' := dev_of_cell h
  have h2 : j = j' := sendS_inj (congrArg Prod.snd h)
  subst h1; subst h2; rfl
theorem recv_inj : Function.Injective (fun cj : Dev nD × Fin 7 => recvCell cj.1 cj.2) := by
  rintro ⟨c, j⟩ ⟨c', j'⟩ h
  have h1 : c = c' := dev_of_cell h
  have h2 : j = j' := recvS_inj (congrArg Prod.snd h)
  subst h1; subst h2; rfl

def barEmb : Dev nD ↪ GSem nD τ sig := ⟨barCell, bar_inj⟩
def sendEmb : Dev nD × Fin 7 ↪ GSem nD τ sig := ⟨fun cj => sendCell cj.1 cj.2, send_inj⟩
def recvEmb : Dev nD × Fin 7 ↪ GSem nD τ sig := ⟨fun cj => recvCell cj.1 cj.2, recv_inj⟩

/-- All the exchange's cells: eight barrier cells, fifty-six send cells, fifty-six receive cells. -/
def exCells : Finset (GSem nD τ sig) := Finset.univ.map barEmb ∪ (Finset.univ.map sendEmb ∪ Finset.univ.map recvEmb)

theorem cells_disj1 : Disjoint (Finset.univ.map barEmb) (Finset.univ.map sendEmb ∪ Finset.univ.map recvEmb) := by
  rw [Finset.disjoint_left]
  intro g hb hx
  obtain ⟨c, -, rfl⟩ := Finset.mem_map.mp hb
  rcases Finset.mem_union.mp hx with hx | hx
  · obtain ⟨cj, -, e⟩ := Finset.mem_map.mp hx
    exact send_ne_bar cj.2 (congrArg Prod.snd e)
  · obtain ⟨cj, -, e⟩ := Finset.mem_map.mp hx
    exact recv_ne_bar cj.2 (congrArg Prod.snd e)
theorem cells_disj2 : Disjoint (Finset.univ.map sendEmb) (Finset.univ.map recvEmb) := by
  rw [Finset.disjoint_left]
  intro g hs hr
  obtain ⟨cj, -, rfl⟩ := Finset.mem_map.mp hs
  obtain ⟨cj', -, e⟩ := Finset.mem_map.mp hr
  exact sendS_ne_recvS cj.2 cj'.2 (congrArg Prod.snd e).symm

theorem bigSep_cells (Φ : GSem nD τ sig → sProp 𝕄) :
    bigSep exCells Φ = iprop((bigSep Finset.univ fun c : Dev nD => Φ (barCell c))
      ∗ (bigSep Finset.univ fun cj : Dev nD × Fin 7 => Φ (sendCell cj.1 cj.2))
      ∗ (bigSep Finset.univ fun cj : Dev nD × Fin 7 => Φ (recvCell cj.1 cj.2))) := by
  unfold exCells
  rw [bigSep_union cells_disj1, bigSep_union cells_disj2, bigSep_map, bigSep_map, bigSep_map]
  rfl

/-- The duty tokens as minted: a barrier cell's seven, a send cell's one, a receive cell's one. -/
abbrev barTok : Dev nD × Fin 7 → GSem nD τ sig × ℕ × Fin 7 := fun cj => (barCell cj.1, 0, cj.2)
abbrev sendTok : Dev nD × Fin 7 → GSem nD τ sig × ℕ × Fin 7 := fun cj => (sendCell cj.1 cj.2, 0, 0)
abbrev recvTok : Dev nD × Fin 7 → GSem nD τ sig × ℕ × Fin 7 := fun cj => (recvCell cj.1 cj.2, 0, 0)
theorem barTok_inj : Function.Injective barTok := by
  rintro ⟨c, j⟩ ⟨c', j'⟩ h
  have h1 : c = c' := dev_of_cell (congrArg (fun x : GSem nD τ sig × ℕ × Fin 7 => x.1) h)
  have h2 : j = j' := congrArg (fun x : GSem nD τ sig × ℕ × Fin 7 => x.2.2) h
  subst h1; subst h2; rfl
theorem sendTok_inj : Function.Injective sendTok := fun a b h => send_inj (congrArg (fun x : GSem nD τ sig × ℕ × Fin 7 => x.1) h)
theorem recvTok_inj : Function.Injective recvTok := fun a b h => recv_inj (congrArg (fun x : GSem nD τ sig × ℕ × Fin 7 => x.1) h)

def exToks : Finset (GSem nD τ sig × ℕ × Fin 7) :=
  Finset.univ.map ⟨barTok, barTok_inj⟩ ∪ (Finset.univ.map ⟨sendTok, sendTok_inj⟩ ∪ Finset.univ.map ⟨recvTok, recvTok_inj⟩)

theorem toks_disj1 : Disjoint (Finset.univ.map ⟨barTok, barTok_inj⟩) (Finset.univ.map ⟨sendTok, sendTok_inj⟩ ∪ Finset.univ.map ⟨recvTok, recvTok_inj⟩) := by
  rw [Finset.disjoint_left]
  intro x hb hx
  obtain ⟨c, -, rfl⟩ := Finset.mem_map.mp hb
  rcases Finset.mem_union.mp hx with hx | hx
  · obtain ⟨cj, -, e⟩ := Finset.mem_map.mp hx
    exact send_ne_bar cj.2 (congrArg (fun x : GSem nD τ sig × ℕ × Fin 7 => x.1.2) e)
  · obtain ⟨cj, -, e⟩ := Finset.mem_map.mp hx
    exact recv_ne_bar cj.2 (congrArg (fun x : GSem nD τ sig × ℕ × Fin 7 => x.1.2) e)
theorem toks_disj2 : Disjoint (Finset.univ.map ⟨sendTok, sendTok_inj⟩) (Finset.univ.map ⟨recvTok, recvTok_inj⟩) := by
  rw [Finset.disjoint_left]
  intro x hs hr
  obtain ⟨cj, -, rfl⟩ := Finset.mem_map.mp hs
  obtain ⟨cj', -, e⟩ := Finset.mem_map.mp hr
  exact sendS_ne_recvS cj.2 cj'.2 (congrArg (fun x : GSem nD τ sig × ℕ × Fin 7 => x.1.2) e).symm

def u₀ : UU :=
  (initOf (Pipeline.cells cfgs cellOf_inj) (Pipeline.launchToks cfgs cellOf_inj), initOf exCells exToks)

/-- The duty tokens of device `c`'s own cells. -/
def toks (c : Dev nD) : sProp 𝕄 :=
  iprop((bigSep Finset.univ fun j : Fin 7 => dutyTok ER (barCell c) 0 j)
    ∗ (bigSep Finset.univ fun j : Fin 7 => dutyTok ER (sendCell c j) 0 (0 : Fin 7))
    ∗ (bigSep Finset.univ fun j : Fin 7 => dutyTok ER (recvCell c j) 0 (0 : Fin 7)))

/-- A family of assertions over device `c`'s fifteen cells, conjoined. -/
def own15 (Φ : GSem nD τ sig → sProp 𝕄) (c : Dev nD) : sProp 𝕄 :=
  iprop(Φ (barCell c) ∗ (bigSep Finset.univ fun j : Fin 7 => Φ (sendCell c j)) ∗ (bigSep Finset.univ fun j : Fin 7 => Φ (recvCell c j)))

/-- What the launch element deals device `c` (the theorem's `G`). -/
def G (c : Dev nD) : sProp 𝕄 :=
  iprop(own15 (fun g => roundState ER (exRd m ρ) g 0) c ∗ own15 (fun g => atPos ER g 0 ∅ 0) c ∗ own15 (fun g => reached ER g 0) c ∗ toks c)

/-- What the global step makes of it (`G'`). -/
def G' (c : Dev nD) : sProp 𝕄 := iprop(∃ Kb Ks Kr, ghost m ρ Kb Ks Kr c)

/-- A family over all the exchange's cells is the devices' families. -/
theorem cells_by_dev (Φ : GSem nD τ sig → sProp 𝕄) : bigSep exCells Φ = bigSep Finset.univ fun c : Dev nD => own15 Φ c := by
  rw [bigSep_cells, bigSep_univ_prod (fun cj : Dev nD × Fin 7 => Φ (sendCell cj.1 cj.2)),
    bigSep_univ_prod (fun cj : Dev nD × Fin 7 => Φ (recvCell cj.1 cj.2))]
  unfold own15
  rw [bigSep_sep', bigSep_sep']
  try rfl

theorem toks_by_dev : bigSep exToks (fun x => (dutyTok ER x.1 x.2.1 x.2.2 : sProp 𝕄)) = bigSep Finset.univ fun c : Dev nD => toks c := by
  unfold exToks toks
  rw [bigSep_union toks_disj1, bigSep_union toks_disj2, bigSep_map, bigSep_map, bigSep_map,
    bigSep_univ_prod, bigSep_univ_prod, bigSep_univ_prod, bigSep_sep', bigSep_sep']
  try rfl

theorem fund_ex : BI.own (ER (initOf exCells exToks)) ⊢ (|==> bigSep Finset.univ (G m ρ) : sProp 𝕄) := by
  iintro HX
  imod (Rounds.fund ER (exRd m ρ) exCells exToks) $$ HX with ⟨Hst, Hr, Hat, Htok⟩
  imodintro
  ihave Hst' := (Entails.of_eq (cells_by_dev (fun g => roundState ER (exRd m ρ) g 0))) $$ Hst
  ihave Hat' := (Entails.of_eq (cells_by_dev (F := F) (fun g => atPos ER g 0 ∅ 0))) $$ Hat
  ihave Hr' := (Entails.of_eq (cells_by_dev (F := F) (fun g => reached ER g 0))) $$ Hr
  ihave Htok' := (Entails.of_eq (toks_by_dev (F := F))) $$ Htok
  unfold G; simp only [bigSep_sep']
  isplitl [Hst']; · iexact Hst'
  isplitl [Hat']; · iexact Hat'
  isplitl [Hr']; · iexact Hr'
  iexact Htok'

/-- The send and receive semaphores are the kernel's own fourteen; -/
theorem ownSems0_eq (c : Dev nD) : (Pipeline.ownSems0 (Ix := Unit) (Name := ℕ) (U := UU) (Lvl := ℕ) (Val := Elt F) (τ := τ) osem c : sProp 𝕄)
    = iprop((bigSep Finset.univ fun j : Fin 7 => semVal (sendCell c j) 0) ∗ (bigSep Finset.univ fun j : Fin 7 => semVal (recvCell c j) 0)) := by
  unfold Pipeline.ownSems0
  rw [bigSep_univ_prod, bigSep_univ_eq_bigSepL [false, true] (by decide) (by decide)]
  rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem alloc_one (g : GSem nD τ sig) :
    iprop(semVal g 0 ∗ roundState ER (exRd m ρ) g 0) ⊢ (|={Set.univ}=> iprop(∃ κ : ℕ, cellInv ER (exRd m ρ) κ g) : sProp 𝕄) :=
  (Rounds.body_intro ER (exRd m ρ) g).trans inv_alloc

theorem alloc_seven (cell : Fin 7 → GSem nD τ sig) :
    iprop((bigSep Finset.univ fun j : Fin 7 => semVal (cell j) 0) ∗ bigSep Finset.univ fun j : Fin 7 => roundState ER (exRd m ρ) (cell j) 0)
      ⊢ (|={Set.univ}=> bigSep Finset.univ fun j : Fin 7 => iprop(∃ κ : ℕ, cellInv ER (exRd m ρ) κ (cell j)) : sProp 𝕄) := by
  rw [← bigSep_sep']
  exact (bigSep_mono fun j _ => alloc_one m ρ (cell j)).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop(own15 (fun g => iprop(∃ κ : ℕ, cellInv ER (exRd m ρ) κ g)) c
          ∗ own15 (fun g => atPos ER g 0 ∅ 0) c ∗ own15 (fun g => reached ER g 0) c ∗ toks c) := by
  rw [ownSems0_eq, unscopedSems0_eq]
  unfold G own15
  iintro ⟨⟨HvS, HvR⟩, HvB, ⟨HsB, HsS, HsR⟩, Hat, Hr, Htok⟩
  imod (alloc_one m ρ (barCell c)) $$ [HvB HsB] with HIb
  · isplitl [HvB] <;> iassumption
  imod (alloc_seven m ρ (fun j => sendCell c j)) $$ [HvS HsS] with HIs
  · isplitl [HvS] <;> iassumption
  imod (alloc_seven m ρ (fun j => recvCell c j)) $$ [HvR HsR] with HIr
  · isplitl [HvR] <;> iassumption
  imodintro
  isplitl [HIb HIs HIr]
  · isplitl [HIb]; · iexact HIb
    isplitl [HIs] <;> iassumption
  isplitl [Hat]; · iexact Hat
  isplitl [Hr]; · iexact Hr
  iexact Htok

/-! ### The tokens dealt round the ring -/

/-- Device `c`'s `d`-th signal goes to the device `d+1` places on, which knows `c` as its duty `6-d`: a bijection of (device, duty). -/
def barDeal : Dev nD × Fin 7 ≃ Dev nD × Fin 7 where
  toFun cd := (fwd cd.1 cd.2.succ, rev cd.2)
  invFun tj := (fwd tj.1 tj.2.succ, rev tj.2)
  left_inv := by intro cd; revert cd; decide
  right_inv := by intro tj; revert tj; decide
/-- Device `c`'s `d`-th copy goes to receive cell `d` of the device `d+1` places on. -/
def recvDeal : Dev nD × Fin 7 ≃ Dev nD × Fin 7 where
  toFun cd := (fwd cd.1 cd.2.succ, cd.2)
  invFun tj := (bwd tj.1 tj.2.succ, tj.2)
  left_inv := by intro cd; revert cd; decide
  right_inv := by intro tj; revert tj; decide

/-- A family over (device, index), summed device by device, may be summed along a bijection of the pairs. -/
theorem bigSep_deal (e : Dev nD × Fin 7 ≃ Dev nD × Fin 7) (Φ : Dev nD × Fin 7 → sProp 𝕄) :
    (bigSep Finset.univ fun c : Dev nD => bigSep Finset.univ fun j : Fin 7 => Φ (c, j))
      = bigSep Finset.univ fun c : Dev nD => bigSep Finset.univ fun d : Fin 7 => Φ (e (c, d)) :=
  ((bigSep_univ_prod Φ).symm.trans (bigSep_univ_equiv e Φ)).trans (bigSep_univ_prod fun cd => Φ (e cd))

theorem toks_around : (bigSep Finset.univ fun c : Dev nD => (toks c : sProp 𝕄)) ⊢ bigSep Finset.univ fun c : Dev nD => payToks c := by
  have eB : (bigSep Finset.univ fun c : Dev nD => bigSep Finset.univ fun j : Fin 7 => (dutyTok ER (barCell c) 0 j : sProp 𝕄))
      = bigSep Finset.univ fun c : Dev nD => bigSep Finset.univ fun d : Fin 7 => (dutyTok ER (barCell (fwd c d.succ)) 0 (rev d) : sProp 𝕄) :=
    bigSep_deal barDeal (fun cj => (dutyTok ER (barCell cj.1) 0 cj.2 : sProp 𝕄))
  have eR : (bigSep Finset.univ fun c : Dev nD => bigSep Finset.univ fun j : Fin 7 => (dutyTok ER (recvCell c j) 0 (0 : Fin 7) : sProp 𝕄))
      = bigSep Finset.univ fun c : Dev nD => bigSep Finset.univ fun d : Fin 7 => (dutyTok ER (recvCell (fwd c d.succ) d) 0 (0 : Fin 7) : sProp 𝕄) :=
    bigSep_deal recvDeal (fun cj => (dutyTok ER (recvCell cj.1 cj.2) 0 (0 : Fin 7) : sProp 𝕄))
  unfold toks payToks
  rw [bigSep_sep', bigSep_sep', bigSep_sep', bigSep_sep']
  iintro ⟨H1, H2, H3⟩
  isplitl [H1]; · iapply (Entails.of_eq eB); iexact H1
  isplitl [H3]; · iapply (Entails.of_eq eR); iexact H3
  iexact H2

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem names_seven (cell : Dev nD → Fin 7 → GSem nD τ sig) :
    (bigSep Finset.univ fun c : Dev nD => bigSep Finset.univ fun j : Fin 7 => iprop(∃ κ : ℕ, cellInv ER (exRd m ρ) κ (cell c j)) : sProp 𝕄)
      ⊢ iprop(∃ K : Dev nD → Fin 7 → ℕ, bigSep Finset.univ fun c : Dev nD => bigSep Finset.univ fun j : Fin 7 => cellInv ER (exRd m ρ) (K c j) (cell c j)) :=
  (bigSep_mono fun c _ => BI.bigSep_exists_pi Finset.univ (fun (j : Fin 7) (κ : ℕ) => (cellInv ER (exRd m ρ) κ (cell c j) : sProp 𝕄))).trans
    (BI.bigSep_exists_pi Finset.univ (fun (c : Dev nD) (y : Fin 7 → ℕ) => (bigSep Finset.univ fun j : Fin 7 => cellInv ER (exRd m ρ) (y j) (cell c j) : sProp 𝕄)))

theorem regroup :
    (bigSep Finset.univ fun c : Dev nD => iprop(own15 (fun g => iprop(∃ κ : ℕ, cellInv ER (exRd m ρ) κ g)) c
          ∗ own15 (fun g => atPos ER g 0 ∅ 0) c ∗ own15 (fun g => reached ER g 0) c ∗ toks c) : sProp 𝕄)
      ⊢ bigSep Finset.univ (G' m ρ) := by
  unfold own15
  simp only [bigSep_sep']
  iintro ⟨⟨HIb, HIs, HIr⟩, ⟨HaB, HaS, HaR⟩, ⟨#HrB, #HrS, #HrR⟩, Htok⟩
  ihave HKb := (BI.bigSep_exists_pi Finset.univ (fun (c : Dev nD) (κ : ℕ) => (cellInv ER (exRd m ρ) κ (barCell c) : sProp 𝕄))) $$ HIb
  icases HKb with ⟨%Kb, #HIb⟩
  ihave HKs := (names_seven m ρ (fun c j => sendCell c j)) $$ HIs
  icases HKs with ⟨%Ks, #HIs⟩
  ihave HKr := (names_seven m ρ (fun c j => recvCell c j)) $$ HIr
  icases HKr with ⟨%Kr, #HIr⟩
  ihave Htk := (toks_around (F := F)) $$ Htok
  iapply (bigSep_with_persistent (R := records m ρ Kb Ks Kr) (Φ := fun c : Dev nD => linear c) fun c _ => by
    unfold G'; iintro ⟨#HR, HL⟩; iexists Kb; iexists Ks; iexists Kr; unfold ghost
    isplitr; · iexact HR
    iexact HL)
  isplitr
  · unfold records
    isplitl; · iexact HIb
    isplitl; · iexact HIs
    isplitl; · iexact HIr
    isplitl; · iexact HrB
    isplitl; · iexact HrS
    iexact HrR
  · unfold linear; simp only [bigSep_sep']
    isplitl [HaB]; · iexact HaB
    isplitl [HaS]; · iexact HaS
    isplitl [HaR]; · iexact HaR
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem owedR_eq (c : Dev nD) : owedR c 7 = rcvT c 6 + rcvT c 5 + rcvT c 4 + rcvT c 3 + rcvT c 2 + rcvT c 1 + rcvT c 0 := by
  show (0 : CellTallies nD τ sig Unit) + rcvT c 6 + rcvT c 5 + rcvT c 4 + rcvT c 3 + rcvT c 2 + rcvT c 1 + rcvT c 0 = _
  rw [zero_add]
theorem O₀_eq (c : Dev nD) : O₀ c = (rcvT c 6 + rcvT c 5 + rcvT c 4 + rcvT c 3 + rcvT c 2 + rcvT c 1 + rcvT c 0)
    + sigT c 6 + sigT c 5 + sigT c 4 + sigT c 3 + sigT c 2 + sigT c 1 + sigT c 0 := by
  show owedR c 7 + sigT c 6 + sigT c 5 + sigT c 4 + sigT c 3 + sigT c 2 + sigT c 1 + sigT c 0 = _
  rw [owedR_eq]

/-- One signal's due, summed over the devices, is one unit on every barrier cell; one copy's due a row's credit on every receive cell of its index. -/
theorem cred_sig (d : Fin 7) (c : Dev nD) : (Pipeline.launchCred (fun c' => sigT c' d) c : sProp 𝕄) ⊢ cred (tallyAt (barCell c) () 1) :=
  Pipeline.launchCred_tallyAt (.reg barS) (fun c' => fwd c' d.succ) (fun c' => bwd c' d.succ) (fun c' => fwd_bwd c' d.succ) (fun c' => bwd_fwd c' d.succ) () 1 c
theorem cred_rcv (d : Fin 7) (c : Dev nD) : (Pipeline.launchCred (fun c' => rcvT c' d) c : sProp 𝕄) ⊢ cred (tallyAt (recvCell c d) () N) :=
  Pipeline.launchCred_tallyAt (.dma (recvS d)) (fun c' => fwd c' d.succ) (fun c' => bwd c' d.succ) (fun c' => fwd_bwd c' d.succ) (fun c' => bwd_fwd c' d.succ) () N c

theorem seven_units (c : Dev nD) :
    iprop(cred (tallyAt (barCell c) () 1) ∗ cred (tallyAt (barCell c) () 1) ∗ cred (tallyAt (barCell c) () 1) ∗ cred (tallyAt (barCell c) () 1)
      ∗ cred (tallyAt (barCell c) () 1) ∗ cred (tallyAt (barCell c) () 1) ∗ cred (tallyAt (barCell c) () 1))
      ⊢ (cred (tallyAt (barCell c) () 7) : sProp 𝕄) := by
  rw [show (tallyAt (barCell c) () 7 : CellTallies nD τ sig Unit)
      = tallyAt (barCell c) () 1 + (tallyAt (barCell c) () 1 + (tallyAt (barCell c) () 1 + (tallyAt (barCell c) () 1
        + (tallyAt (barCell c) () 1 + (tallyAt (barCell c) () 1 + tallyAt (barCell c) () 1))))) from by
    simp only [tallyAt_add]]
  iintro ⟨H1, H2, H3, H4, H5, H6, H7⟩
  iapply (cred_add _ _).2; isplitl [H1]; · iexact H1
  iapply (cred_add _ _).2; isplitl [H2]; · iexact H2
  iapply (cred_add _ _).2; isplitl [H3]; · iexact H3
  iapply (cred_add _ _).2; isplitl [H4]; · iexact H4
  iapply (cred_add _ _).2; isplitl [H5]; · iexact H5
  iapply (cred_add _ _).2; isplitl [H6]; · iexact H6
  iexact H7

theorem creds (c : Dev nD) :
    (Pipeline.launchCred O₀ c : sProp 𝕄) ⊢ iprop(cred (tallyAt (barCell c) () 7) ∗ bigSep Finset.univ fun j : Fin 7 => cred (tallyAt (recvCell c j) () N)) := by
  rw [show (O₀ : Dev nD → CellTallies nD τ sig Unit) = fun c' => (rcvT c' 6 + rcvT c' 5 + rcvT c' 4 + rcvT c' 3 + rcvT c' 2 + rcvT c' 1 + rcvT c' 0)
      + sigT c' 6 + sigT c' 5 + sigT c' 4 + sigT c' 3 + sigT c' 2 + sigT c' 1 + sigT c' 0 from funext O₀_eq]
  simp only [Pipeline.launchCred_add]
  rw [bigSep_fin7]
  iintro ⟨⟨⟨⟨⟨⟨⟨⟨⟨⟨⟨⟨⟨R6, R5⟩, R4⟩, R3⟩, R2⟩, R1⟩, R0⟩, S6⟩, S5⟩, S4⟩, S3⟩, S2⟩, S1⟩, S0⟩
  isplitl [S0 S1 S2 S3 S4 S5 S6]
  · iapply (seven_units (F := F) c)
    isplitl [S0]; · iapply (cred_sig (F := F) 0 c); iexact S0
    isplitl [S1]; · iapply (cred_sig (F := F) 1 c); iexact S1
    isplitl [S2]; · iapply (cred_sig (F := F) 2 c); iexact S2
    isplitl [S3]; · iapply (cred_sig (F := F) 3 c); iexact S3
    isplitl [S4]; · iapply (cred_sig (F := F) 4 c); iexact S4
    isplitl [S5]; · iapply (cred_sig (F := F) 5 c); iexact S5
    iapply (cred_sig (F := F) 6 c); iexact S6
  isplitl [R0]; · iapply (cred_rcv (F := F) 0 c); iexact R0
  isplitl [R1]; · iapply (cred_rcv (F := F) 1 c); iexact R1
  isplitl [R2]; · iapply (cred_rcv (F := F) 2 c); iexact R2
  isplitl [R3]; · iapply (cred_rcv (F := F) 3 c); iexact R3
  isplitl [R4]; · iapply (cred_rcv (F := F) 4 c); iexact R4
  isplitl [R5]; · iapply (cred_rcv (F := F) 5 c); iexact R5
  iapply (cred_rcv (F := F) 6 c); iexact R6

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H7, HN⟩
  imodintro
  unfold start G'
  isplitl
  · isplitl [HG]; · iexact HG
    isplitl [H7]; · iexact H7
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrPts
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq, ownSems0_eq]
  unfold Φ₁ scrPts
  iintro ⟨⟨%f, Hr⟩, HzS, HzV⟩
  isplitr; · iempintro
  isplitl [HzS HzV]
  · isplitl [HzS] <;> iassumption
  iexists f; iexact Hr

theorem lv_stage (q : DmaSem sig) (hq : q.val < 2) (c : Dev nD) : lv ((c : Thread nD τ), .dma q) () = 0 := by
  have hx : xferOf (SemLoc.dma q : SemLoc sig) = none := by
    have h1 : ¬(2 ≤ q.val ∧ q.val < 9) := by omega
    have h2 : ¬(9 ≤ q.val ∧ q.val < 16) := by omega
    simp only [xferOf]
    rw [dif_neg h1, dif_neg h2]
  unfold lv
  rw [if_neg (fun h => by cases h), if_neg]
  show ¬ isRecv (SemLoc.dma q : SemLoc sig) = true
  unfold isRecv
  rw [hx]
  exact Bool.false_ne_true

theorem waits (c : Dev nD) : (levAts L lv : sProp 𝕄) ⊢ Pipeline.cellsWaits cfgs (dats m ρ) () 0 c :=
  Pipeline.cellsWaits_intro cfgs (dats m ρ) () 0 c fun w s t => by
    rcases t with ⟨_ | _, ht⟩
    · exact mayWait_low c _ (lv_stage _ (by fin_cases w <;> fin_cases s <;> decide) c) 7
    · rw [show (dats m ρ 0 c).owed _ = 0 from rfl, MayWait_zero]; iintro -; iempintro

end Cert.Kernel.Proto

end
-- ==== Proof.BitsBody.lean ====
/-
  One device's body, stepped statement by statement from the protocol's invariant: the seven signals, each handing a landing row to the
  device that will fill it; the partial sums stored in row 0; the barrier wait, which brings the seven targets' landing rows; the seven
  copies, each reading its share of row 0; the receive waits, which bring the own landing rows filled; the send waits, which bring the
  shares of row 0 back; the cells closed; the eight rows joined, summed and scaled into the result.
-/
import proofs.«900565_g7700000000000566_dist_mean_ax0_shard0_i_m2048_n1024_v7x_i8_bf16_1_alg».proof.Proof.BitsSteps

noncomputable section

namespace Cert.Kernel.Proto

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body -/

section Body
variable (Kb : Dev nD → ℕ) (Ks Kr : Dev nD → Fin 7 → ℕ)

theorem hz2 : (![0, 0] : Fin 2 → Nat) = fun _ => 0 := funext fun a => by fin_cases a <;> rfl

abbrev rx : Rect S2048x1024 := Rect.unit (s := S2048x1024) ![0, 0] S2048x1024.size inb_S2048x1024_S2048x1024_0_0
abbrev rg : Rect S8x1024 := Rect.unit (s := S8x1024) ![0, 0] S8x1024.size inb_S8x1024_S8x1024_0_0
abbrev ro : Rect S1x1024 := Rect.unit (s := S1x1024) ![0, 0] S1x1024.size inb_S1x1024_S1x1024_0_0

theorem read_x (f : (cc0_stg0_0 : Ref sig .tc).ty.Contents (Elt F)) : (xM : Memref sig .tc .vmem S2048x1024 .f32).view.readAt (Elt F) rx.toLoadRect f = f :=
  Memref.readAt_unit_zero (Elt F) cc0_stg0_0 hz2 _ f
theorem read_g (f : (cc0_scratch0 : Ref sig .tc).ty.Contents (Elt F)) : (gM : Memref sig .tc .vmem S8x1024 .f32).view.readAt (Elt F) rg.toLoadRect f = f :=
  Memref.readAt_unit_zero (Elt F) cc0_scratch0 hz2 _ f
theorem write_out (f w : (cc0_stg1_0 : Ref sig .tc).ty.Contents (Elt F)) :
    ((oM : Memref sig .tc .vmem S1x1024 .f32).access ro : View sig .tc _ _ _).write (Elt F) f w Finset.univ = w :=
  Memref.write_access_unit_zero_univ (Elt F) cc0_stg1_0 hz2 _ f w

theorem row_load_sub (r : Fin 8) : (gM : Memref sig .tc .vmem S8x1024 .f32).view.setOn (rowR r).toLoadRect.set ⊆ (rowM r : Memref sig .tc .vmem S1x1024 .f32).view.set := by
  show (View.whole cc0_scratch0).setOn (rowR r).set ⊆ ((View.whole cc0_scratch0).slice (rowR r)).set
  rw [View.set_slice_whole]; unfold View.setOn; rw [View.emb_whole, Finset.map_refl]
theorem row_store_sub (r : Fin 8) : ((gM : Memref sig .tc .vmem S8x1024 .f32).access (rowR r)).setOn Finset.univ ⊆ (rowM r : Memref sig .tc .vmem S1x1024 .f32).view.set := by
  rw [View.setOn_univ]

set_option maxHeartbeats 4000000 in
set_option maxRecDepth 8000 in
/-- The body, from `bodyPre`, one rule per statement in program order, to `bodyPost`. -/
theorem sound_body (c : Dev nD) (Kt : PUnit → sProp 𝕄) :
    iprop(bodyPre m ρ Kb Ks Kr c ∗ (bodyPost m ρ c -∗ Kt ⟨⟩))
      ⊢ wp frame (wpE (defs₀ (F := F)) 𝒱₀ c none) Set.univ (theBody (F := F)) Kt := by
  unfold theBody
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [semSignalWord, semWaitWord, Prog.lift, Prog.bind_op, Prog.bind_ret, Prog.pure_eq_ret, Prog.bind_assoc, wp_deviceId]
  simp only [dev1_eq c, dev2_eq c, dev3_eq c, dev4_eq c, dev5_eq c, dev6_eq c, dev7_eq c, dev8_eq c, dev9_eq c, dev10_eq c, dev11_eq c, dev12_eq c, dev13_eq c, dev14_eq c]
  unfold bodyPre ghost linear payToks
  iintro ⟨⟨⟨⟨#HR, HatB, HatS, HatR, HtB, HtR, HtS⟩, HcB, HcR, #Hlev, ⟨%f0, Hscr⟩⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owedS c 7 from rfl]
  -- the families over the seven indices, and the scratch's eight rows, one by one
  ihave H := (Entails.of_eq (bigSep_fin7 (fun j : Fin 7 => (atPos ER (sendCell c j) 0 ∅ 0 : sProp 𝕄)))) $$ HatS
  icases H with ⟨HaS0, HaS1, HaS2, HaS3, HaS4, HaS5, HaS6⟩
  ihave H := (Entails.of_eq (bigSep_fin7 (fun j : Fin 7 => (atPos ER (recvCell c j) 0 ∅ 0 : sProp 𝕄)))) $$ HatR
  icases H with ⟨HaR0, HaR1, HaR2, HaR3, HaR4, HaR5, HaR6⟩
  ihave H := (Entails.of_eq (bigSep_fin7 (fun d : Fin 7 => (dutyTok ER (barCell (fwd c d.succ)) 0 (rev d) : sProp 𝕄)))) $$ HtB
  icases H with ⟨HtB0, HtB1, HtB2, HtB3, HtB4, HtB5, HtB6⟩
  ihave H := (Entails.of_eq (bigSep_fin7 (fun d : Fin 7 => (dutyTok ER (recvCell (fwd c d.succ) d) 0 (0 : Fin 7) : sProp 𝕄)))) $$ HtR
  icases H with ⟨HtR0, HtR1, HtR2, HtR3, HtR4, HtR5, HtR6⟩
  ihave H := (Entails.of_eq (bigSep_fin7 (fun j : Fin 7 => (dutyTok ER (sendCell c j) 0 (0 : Fin 7) : sProp 𝕄)))) $$ HtS
  icases H with ⟨HtS0, HtS1, HtS2, HtS3, HtS4, HtS5, HtS6⟩
  ihave H := (Entails.of_eq (bigSep_fin7 (fun j : Fin 7 => (cred (tallyAt (recvCell c j) () N) : sProp 𝕄)))) $$ HcR
  icases H with ⟨HcR0, HcR1, HcR2, HcR3, HcR4, HcR5, HcR6⟩
  ihave H := (Entails.of_eq ((scr_split c f0).trans (bigSep_fin8 (fun r : Fin 8 => rowPts (F := F) fullShare c r f0)))) $$ Hscr
  icases H with ⟨Hr0, Hr1, Hr2, Hr3, Hr4, Hr5, Hr6, Hr7⟩
  -- signal 1: to the device 1 places on, with landing row 7
  iapply (wp_sig m ρ Kb Ks Kr c (fwd c 1) 0 rfl _ rfl (owedS c 6) f0) $$ [HO HtB0 Hr7]
  · isplitr; · iexact HR
    isplitl [HO]; · iexact HO
    isplitl [HtB0]; · iexact HtB0
    iexact Hr7
  iintro HO
  -- signal 2: to the device 2 places on, with landing row 6
  iapply (wp_sig m ρ Kb Ks Kr c (fwd c 2) 1 rfl _ rfl (owedS c 5) f0) $$ [HO HtB1 Hr6]
  · isplitr; · iexact HR
    isplitl [HO]; · iexact HO
    isplitl [HtB1]; · iexact HtB1
    iexact Hr6
  iintro HO
  -- signal 3: to the device 3 places on, with landing row 5
  iapply (wp_sig m ρ Kb Ks Kr c (fwd c 3) 2 rfl _ rfl (owedS c 4) f0) $$ [HO HtB2 Hr5]
  · isplitr; · iexact HR
    isplitl [HO]; · iexact HO
    isplitl [HtB2]; · iexact HtB2
    iexact Hr5
  iintro HO
  -- signal 4: to the device 4 places on, with landing row 4
  iapply (wp_sig m ρ Kb Ks Kr c (fwd c 4) 3 rfl _ rfl (owedS c 3) f0) $$ [HO HtB3 Hr4]
  · isplitr; · iexact HR
    isplitl [HO]; · iexact HO
    isplitl [HtB3]; · iexact HtB3
    iexact Hr4
  iintro HO
  -- signal 5: to the device 5 places on, with landing row 3
  iapply (wp_sig m ρ Kb Ks Kr c (fwd c 5) 4 rfl _ rfl (owedS c 2) f0) $$ [HO HtB4 Hr3]
  · isplitr; · iexact HR
    isplitl [HO]; · iexact HO
    isplitl [HtB4]; · iexact HtB4
    iexact Hr3
  iintro HO
  -- signal 6: to the device 6 places on, with landing row 2
  iapply (wp_sig m ρ Kb Ks Kr c (fwd c 6) 5 rfl _ rfl (owedS c 1) f0) $$ [HO HtB5 Hr2]
  · isplitr; · iexact HR
    isplitl [HO]; · iexact HO
    isplitl [HtB5]; · iexact HtB5
    iexact Hr2
  iintro HO
  -- signal 7: to the device 7 places on, with landing row 1
  iapply (wp_sig m ρ Kb Ks Kr c (fwd c 7) 6 rfl _ rfl (owedS c 0) f0) $$ [HO HtB6 Hr1]
  · isplitr; · iexact HR
    isplitl [HO]; · iexact HO
    isplitl [HtB6]; · iexact HtB6
    iexact Hr1
  iintro HO
  -- the block loaded, row 0 loaded and stored
  iapply (wp_load 𝒱₀ (c : Thread nD τ) none Set.univ (m := xM) (Finset.subset_univ _)) $$ Hx; iintro Hx
  rw [read_x]
  unfold rowPts
  iapply (wp_load 𝒱₀ (c : Thread nD τ) none Set.univ (m := gM) (row_load_sub 0)) $$ Hr0; iintro Hr0
  iapply (wp_store 𝒱₀ (c : Thread nD τ) none Set.univ (m := gM) (r := rowR 0) (Mk := Finset.univ) (row_store_sub 0)) $$ Hr0; iintro Hr0
  ihave Hr0 := (Entails.of_eq (row0_stored m ρ c f0)) $$ Hr0
  ihave Hsh := (row0_shares c (held m ρ c)).1 $$ Hr0
  icases Hsh with ⟨Hs0, Hs1, Hs2, Hs3, Hs4, Hs5, Hs6⟩
  -- the wait for seven on its own barrier, owing the seven receive credits: the seven targets' landing rows come with it
  rw [show owedS c 0 = owedR c 7 from rfl]
  iapply (Rounds.wp_wait_rest_token 𝒱₀ ER (exRd m ρ) (c : Thread nD τ) none (κ := Kb c)
      (wpE_semWait_eq 𝒱₀ (c : Thread nD τ) none Set.univ) (Set.mem_univ _) () (O := owedR c 7) (W := W) (R := 0) (m := 0) (T := ∅)
      (by rw [expect_bar]; decide)) $$ [HcB HO HatB]
  · isplitr; · iapply (inv_bar m ρ Kb Ks Kr c); iexact HR
    isplitl [HcB]; · iexact HcB
    isplitl [HO]; · iexact HO
    isplitr; · iapply (mayWait_bar c); iexact Hlev
    iexact HatB
  iintro ⟨HO, HatB, -, Hpay⟩
  ihave Hp := (Entails.of_eq ((rest_bar m ρ c).trans (bigSep_fin7 (fun d : Fin 7 => barPay (F := F) c d)))) $$ Hpay
  unfold barPay
  icases Hp with ⟨⟨⟨%n0, Hn0⟩, -⟩, ⟨⟨%n1, Hn1⟩, -⟩, ⟨⟨%n2, Hn2⟩, -⟩, ⟨⟨%n3, Hn3⟩, -⟩, ⟨⟨%n4, Hn4⟩, -⟩, ⟨⟨%n5, Hn5⟩, -⟩, ⟨⟨%n6, Hn6⟩, -⟩⟩
  -- copy 1: row 0 into row 1 of the device 1 places on
  iapply (wp_snd m ρ Kb Ks Kr c 0 (owedR c 6) n0) $$ [Hs0 Hn0 HO HtS0 HtR0]
  · isplitr; · ipureintro; exact ⟨dev8_eq c, rfl, rfl, rfl, rfl⟩
    isplitr; · iexact HR
    isplitl [Hs0]; · iexact Hs0
    isplitl [Hn0]; · iexact Hn0
    isplitl [HO]; · iexact HO
    isplitl [HtS0]; · iexact HtS0
    iexact HtR0
  iintro ⟨HcS0, HO⟩
  -- copy 2: row 0 into row 2 of the device 2 places on
  iapply (wp_snd m ρ Kb Ks Kr c 1 (owedR c 5) n1) $$ [Hs1 Hn1 HO HtS1 HtR1]
  · isplitr; · ipureintro; exact ⟨dev9_eq c, rfl, rfl, rfl, rfl⟩
    isplitr; · iexact HR
    isplitl [Hs1]; · iexact Hs1
    isplitl [Hn1]; · iexact Hn1
    isplitl [HO]; · iexact HO
    isplitl [HtS1]; · iexact HtS1
    iexact HtR1
  iintro ⟨HcS1, HO⟩
  -- copy 3: row 0 into row 3 of the device 3 places on
  iapply (wp_snd m ρ Kb Ks Kr c 2 (owedR c 4) n2) $$ [Hs2 Hn2 HO HtS2 HtR2]
  · isplitr; · ipureintro; exact ⟨dev10_eq c, rfl, rfl, rfl, rfl⟩
    isplitr; · iexact HR
    isplitl [Hs2]; · iexact Hs2
    isplitl [Hn2]; · iexact Hn2
    isplitl [HO]; · iexact HO
    isplitl [HtS2]; · iexact HtS2
    iexact HtR2
  iintro ⟨HcS2, HO⟩
  -- copy 4: row 0 into row 4 of the device 4 places on
  iapply (wp_snd m ρ Kb Ks Kr c 3 (owedR c 3) n3) $$ [Hs3 Hn3 HO HtS3 HtR3]
  · isplitr; · ipureintro; exact ⟨dev11_eq c, rfl, rfl, rfl, rfl⟩
    isplitr; · iexact HR
    isplitl [Hs3]; · iexact Hs3
    isplitl [Hn3]; · iexact Hn3
    isplitl [HO]; · iexact HO
    isplitl [HtS3]; · iexact HtS3
    iexact HtR3
  iintro ⟨HcS3, HO⟩
  -- copy 5: row 0 into row 5 of the device 5 places on
  iapply (wp_snd m ρ Kb Ks Kr c 4 (owedR c 2) n4) $$ [Hs4 Hn4 HO HtS4 HtR4]
  · isplitr; · ipureintro; exact ⟨dev12_eq c, rfl, rfl, rfl, rfl⟩
    isplitr; · iexact HR
    isplitl [Hs4]; · iexact Hs4
    isplitl [Hn4]; · iexact Hn4
    isplitl [HO]; · iexact HO
    isplitl [HtS4]; · iexact HtS4
    iexact HtR4
  iintro ⟨HcS4, HO⟩
  -- copy 6: row 0 into row 6 of the device 6 places on
  iapply (wp_snd m ρ Kb Ks Kr c 5 (owedR c 1) n5) $$ [Hs5 Hn5 HO HtS5 HtR5]
  · isplitr; · ipureintro; exact ⟨dev13_eq c, rfl, rfl, rfl, rfl⟩
    isplitr; · iexact HR
    isplitl [Hs5]; · iexact Hs5
    isplitl [Hn5]; · iexact Hn5
    isplitl [HO]; · iexact HO
    isplitl [HtS5]; · iexact HtS5
    iexact HtR5
  iintro ⟨HcS5, HO⟩
  -- copy 7: row 0 into row 7 of the device 7 places on
  iapply (wp_snd m ρ Kb Ks Kr c 6 (owedR c 0) n6) $$ [Hs6 Hn6 HO HtS6 HtR6]
  · isplitr; · ipureintro; exact ⟨dev14_eq c, rfl, rfl, rfl, rfl⟩
    isplitr; · iexact HR
    isplitl [Hs6]; · iexact Hs6
    isplitl [Hn6]; · iexact Hn6
    isplitl [HO]; · iexact HO
    isplitl [HtS6]; · iexact HtS6
    iexact HtR6
  iintro ⟨HcS6, HO⟩
  rw [show owedR c 0 = 0 from rfl]
  -- the wait on receive cell 0: landing row 1 filled
  iapply (wp_rcv m ρ Kb Ks Kr c 0) $$ [HcR0 HO HaR0]
  · isplitr; · ipureintro; exact ⟨rfl, rfl⟩
    isplitr; · iexact HR
    isplitl [HcR0]; · iexact HcR0
    isplitl [HO]; · iexact HO
    iexact HaR0
  iintro ⟨HO, HaR0, Hg1⟩
  -- the wait on receive cell 1: landing row 2 filled
  iapply (wp_rcv m ρ Kb Ks Kr c 1) $$ [HcR1 HO HaR1]
  · isplitr; · ipureintro; exact ⟨rfl, rfl⟩
    isplitr; · iexact HR
    isplitl [HcR1]; · iexact HcR1
    isplitl [HO]; · iexact HO
    iexact HaR1
  iintro ⟨HO, HaR1, Hg2⟩
  -- the wait on receive cell 2: landing row 3 filled
  iapply (wp_rcv m ρ Kb Ks Kr c 2) $$ [HcR2 HO HaR2]
  · isplitr; · ipureintro; exact ⟨rfl, rfl⟩
    isplitr; · iexact HR
    isplitl [HcR2]; · iexact HcR2
    isplitl [HO]; · iexact HO
    iexact HaR2
  iintro ⟨HO, HaR2, Hg3⟩
  -- the wait on receive cell 3: landing row 4 filled
  iapply (wp_rcv m ρ Kb Ks Kr c 3) $$ [HcR3 HO HaR3]
  · isplitr; · ipureintro; exact ⟨rfl, rfl⟩
    isplitr; · iexact HR
    isplitl [HcR3]; · iexact HcR3
    isplitl [HO]; · iexact HO
    iexact HaR3
  iintro ⟨HO, HaR3, Hg4⟩
  -- the wait on receive cell 4: landing row 5 filled
  iapply (wp_rcv m ρ Kb Ks Kr c 4) $$ [HcR4 HO HaR4]
  · isplitr; · ipureintro; exact ⟨rfl, rfl⟩
    isplitr; · iexact HR
    isplitl [HcR4]; · iexact HcR4
    isplitl [HO]; · iexact HO
    iexact HaR4
  iintro ⟨HO, HaR4, Hg5⟩
  -- the wait on receive cell 5: landing row 6 filled
  iapply (wp_rcv m ρ Kb Ks Kr c 5) $$ [HcR5 HO HaR5]
  · isplitr; · ipureintro; exact ⟨rfl, rfl⟩
    isplitr; · iexact HR
    isplitl [HcR5]; · iexact HcR5
    isplitl [HO]; · iexact HO
    iexact HaR5
  iintro ⟨HO, HaR5, Hg6⟩
  -- the wait on receive cell 6: landing row 7 filled
  iapply (wp_rcv m ρ Kb Ks Kr c 6) $$ [HcR6 HO HaR6]
  · isplitr; · ipureintro; exact ⟨rfl, rfl⟩
    isplitr; · iexact HR
    isplitl [HcR6]; · iexact HcR6
    isplitl [HO]; · iexact HO
    iexact HaR6
  iintro ⟨HO, HaR6, Hg7⟩
  -- the wait on send cell 0: its share of row 0 back
  iapply (wp_sndw m ρ Kb Ks Kr c 0) $$ [HcS0 HO HaS0]
  · isplitr; · ipureintro; exact ⟨rfl, rfl⟩
    isplitr; · iexact HR
    isplitl [HcS0]; · iexact HcS0
    isplitl [HO]; · iexact HO
    iexact HaS0
  iintro ⟨HO, HaS0, Hs0⟩
  -- the wait on send cell 1: its share of row 0 back
  iapply (wp_sndw m ρ Kb Ks Kr c 1) $$ [HcS1 HO HaS1]
  · isplitr; · ipureintro; exact ⟨rfl, rfl⟩
    isplitr; · iexact HR
    isplitl [HcS1]; · iexact HcS1
    isplitl [HO]; · iexact HO
    iexact HaS1
  iintro ⟨HO, HaS1, Hs1⟩
  -- the wait on send cell 2: its share of row 0 back
  iapply (wp_sndw m ρ Kb Ks Kr c 2) $$ [HcS2 HO HaS2]
  · isplitr; · ipureintro; exact ⟨rfl, rfl⟩
    isplitr; · iexact HR
    isplitl [HcS2]; · iexact HcS2
    isplitl [HO]; · iexact HO
    iexact HaS2
  iintro ⟨HO, HaS2, Hs2⟩
  -- the wait on send cell 3: its share of row 0 back
  iapply (wp_sndw m ρ Kb Ks Kr c 3) $$ [HcS3 HO HaS3]
  · isplitr; · ipureintro; exact ⟨rfl, rfl⟩
    isplitr; · iexact HR
    isplitl [HcS3]; · iexact HcS3
    isplitl [HO]; · iexact HO
    iexact HaS3
  iintro ⟨HO, HaS3, Hs3⟩
  -- the wait on send cell 4: its share of row 0 back
  iapply (wp_sndw m ρ Kb Ks Kr c 4) $$ [HcS4 HO HaS4]
  · isplitr; · ipureintro; exact ⟨rfl, rfl⟩
    isplitr; · iexact HR
    isplitl [HcS4]; · iexact HcS4
    isplitl [HO]; · iexact HO
    iexact HaS4
  iintro ⟨HO, HaS4, Hs4⟩
  -- the wait on send cell 5: its share of row 0 back
  iapply (wp_sndw m ρ Kb Ks Kr c 5) $$ [HcS5 HO HaS5]
  · isplitr; · ipureintro; exact ⟨rfl, rfl⟩
    isplitr; · iexact HR
    isplitl [HcS5]; · iexact HcS5
    isplitl [HO]; · iexact HO
    iexact HaS5
  iintro ⟨HO, HaS5, Hs5⟩
  -- the wait on send cell 6: its share of row 0 back
  iapply (wp_sndw m ρ Kb Ks Kr c 6) $$ [HcS6 HO HaS6]
  · isplitr; · ipureintro; exact ⟨rfl, rfl⟩
    isplitr; · iexact HR
    isplitl [HcS6]; · iexact HcS6
    isplitl [HO]; · iexact HO
    iexact HaS6
  iintro ⟨HO, HaS6, Hs6⟩
  -- the fourteen own cells close: their counters at zero are the core's again
  imod (close_send m ρ Kb Ks Kr c 0) $$ [HaS0] with HzS0
  · isplitr; · iexact HR
    iexact HaS0
  imod (close_recv m ρ Kb Ks Kr c 0) $$ [HaR0] with HzR0
  · isplitr; · iexact HR
    iexact HaR0
  imod (close_send m ρ Kb Ks Kr c 1) $$ [HaS1] with HzS1
  · isplitr; · iexact HR
    iexact HaS1
  imod (close_recv m ρ Kb Ks Kr c 1) $$ [HaR1] with HzR1
  · isplitr; · iexact HR
    iexact HaR1
  imod (close_send m ρ Kb Ks Kr c 2) $$ [HaS2] with HzS2
  · isplitr; · iexact HR
    iexact HaS2
  imod (close_recv m ρ Kb Ks Kr c 2) $$ [HaR2] with HzR2
  · isplitr; · iexact HR
    iexact HaR2
  imod (close_send m ρ Kb Ks Kr c 3) $$ [HaS3] with HzS3
  · isplitr; · iexact HR
    iexact HaS3
  imod (close_recv m ρ Kb Ks Kr c 3) $$ [HaR3] with HzR3
  · isplitr; · iexact HR
    iexact HaR3
  imod (close_send m ρ Kb Ks Kr c 4) $$ [HaS4] with HzS4
  · isplitr; · iexact HR
    iexact HaS4
  imod (close_recv m ρ Kb Ks Kr c 4) $$ [HaR4] with HzR4
  · isplitr; · iexact HR
    iexact HaR4
  imod (close_send m ρ Kb Ks Kr c 5) $$ [HaS5] with HzS5
  · isplitr; · iexact HR
    iexact HaS5
  imod (close_recv m ρ Kb Ks Kr c 5) $$ [HaR5] with HzR5
  · isplitr; · iexact HR
    iexact HaR5
  imod (close_send m ρ Kb Ks Kr c 6) $$ [HaS6] with HzS6
  · isplitr; · iexact HR
    iexact HaS6
  imod (close_recv m ρ Kb Ks Kr c 6) $$ [HaR6] with HzR6
  · isplitr; · iexact HR
    iexact HaR6
  -- row 0 whole again, the eight rows one buffer again
  ihave Hr0 := (row0_shares c (held m ρ c)).2 $$ [Hs0 Hs1 Hs2 Hs3 Hs4 Hs5 Hs6]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    iexact Hs6
  ihave Hscr := (Entails.of_eq ((scr_split c (held m ρ c)).trans (bigSep_fin8 (fun r : Fin 8 => rowPts (F := F) fullShare c r (held m ρ c)))).symm) $$ [Hr0 Hg1 Hg2 Hg3 Hg4 Hg5 Hg6 Hg7]
  · isplitl [Hr0]; · iexact Hr0
    isplitl [Hg1]; · iexact Hg1
    isplitl [Hg2]; · iexact Hg2
    isplitl [Hg3]; · iexact Hg3
    isplitl [Hg4]; · iexact Hg4
    isplitl [Hg5]; · iexact Hg5
    isplitl [Hg6]; · iexact Hg6
    iexact Hg7
  unfold scrPts
  -- the eight rows loaded, summed and scaled, stored
  iapply (wp_load 𝒱₀ (c : Thread nD τ) none Set.univ (m := gM) (Finset.subset_univ _)) $$ Hscr; iintro Hscr
  rw [read_g]
  iapply (wp_load 𝒱₀ (c : Thread nD τ) none Set.univ (m := oM) (Finset.subset_univ _)) $$ Hout; iintro Hout
  iapply (wp_store 𝒱₀ (c : Thread nD τ) none Set.univ (m := oM) (r := ro) (Mk := Finset.univ) (Finset.subset_univ _)) $$ Hout; iintro Hout
  rw [write_out, wp_ret]; imodintro
  iapply Hk
  unfold bodyPost Φ₁ Dat.owesAt Pipeline.owesWithin scrPts
  rw [show (dats m ρ 0 c).owed t₀.succ = 0 from rfl, bigSep_fin7, bigSep_fin7]
  isplitl [Hscr HzS0 HzS1 HzS2 HzS3 HzS4 HzS5 HzS6 HzR0 HzR1 HzR2 HzR3 HzR4 HzR5 HzR6]
  · isplitl [Hscr]; · iexists (held m ρ c); iexact Hscr
    isplitl [HzS0 HzS1 HzS2 HzS3 HzS4 HzS5 HzS6]
    · isplitl [HzS0]; · iexact HzS0
      isplitl [HzS1]; · iexact HzS1
      isplitl [HzS2]; · iexact HzS2
      isplitl [HzS3]; · iexact HzS3
      isplitl [HzS4]; · iexact HzS4
      isplitl [HzS5]; · iexact HzS5
      iexact HzS6
    isplitl [HzR0]; · iexact HzR0
    isplitl [HzR1]; · iexact HzR1
    isplitl [HzR2]; · iexact HzR2
    isplitl [HzR3]; · iexact HzR3
    isplitl [HzR4]; · iexact HzR4
    isplitl [HzR5]; · iexact HzR5
    iexact HzR6
  isplitl [HO]
  · iexists (insert (SemLoc.dma (sendS 6), ()) (insert (SemLoc.dma (sendS 5), ()) (insert (SemLoc.dma (sendS 4), ()) (insert (SemLoc.dma (sendS 3), ()) (insert (SemLoc.dma (sendS 2), ()) (insert (SemLoc.dma (sendS 1), ()) (insert (SemLoc.dma (sendS 0), ()) (insert (SemLoc.dma (recvS 6), ()) (insert (SemLoc.dma (recvS 5), ()) (insert (SemLoc.dma (recvS 4), ()) (insert (SemLoc.dma (recvS 3), ()) (insert (SemLoc.dma (recvS 2), ()) (insert (SemLoc.dma (recvS 1), ()) (insert (SemLoc.dma (recvS 0), ()) (insert (SemLoc.reg barS, ()) W)))))))))))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

end Body

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ c none) Set.univ (theBody (F := F)) (fun _ => bodyPost m ρ c)
  unfold bodyPre' Φ₀ start
  iintro ⟨⟨⟨⟨%Kb, %Ks, %Kr, Hg⟩, Hrest⟩, Hscr⟩, Ho, Hx, Hout⟩
  iapply (sound_body m ρ Kb Ks Kr c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Cert.Kernel.Proto

end
-- ==== Proof.BitsLaunch.lean ====
/-
  The launch: the library's launch theorem applied to the body's proof and the protocol's funding, and the input array read after the run.
-/
import proofs.«900565_g7700000000000566_dist_mean_ax0_shard0_i_m2048_n1024_v7x_i8_bf16_1_alg».proof.Proof.BitsLaunchPre
import proofs.«900565_g7700000000000566_dist_mean_ax0_shard0_i_m2048_n1024_v7x_i8_bf16_1_alg».proof.Proof.BitsBody

noncomputable section

namespace Cert.Kernel.Proto

open Cert.Kernel Cert.Kernel.Gen Cert.Kernel.Mesh

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of eight devices, for any float values, from any memory with zero counters: every weakly fair execution of
    @main — the eight kernels meeting on the runtime's barrier semaphore, then copying their partial sums to one another —
    terminates, and every final state has each window's array at the computed contents. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ex m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Proto.run_main' depends on axioms: [propext, Classical.choice, Quot.sound] -/
#guard_msgs in #print axioms run_main

/-- The input array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.Kernel.Proto

end
-- ==== Proof.BitsFinal.lean ====
/-
  The run, read: after it every device's result array holds the column sums of the eight gathered rows scaled by 2⁻¹⁴, and its
  input block is unchanged. The result window is the whole one-row array, flushed at the kernel's one point.
-/
import proofs.«900565_g7700000000000566_dist_mean_ax0_shard0_i_m2048_n1024_v7x_i8_bf16_1_alg».proof.Proof.BitsLaunch

noncomputable section

namespace Cert.Kernel.Proto

open Cert.Kernel Cert.Kernel.Gen Cert.Kernel.Mesh

open Idealize.ShloMosaic
open Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The staged input block is the device's input array itself: the window is the whole array. -/
theorem xstg_eq (c : Dev nD) : xstg m ρ c = m ((c : Thread nD τ).loc main_arg0) := by
  unfold xstg
  funext j
  show m ((c : Thread nD τ).loc main_arg0) ((win0_0.blk (0 : Fin 1)).view.emb j) = m ((c : Thread nD τ).loc main_arg0) j
  refine congrArg (m ((c : Thread nD τ).loc main_arg0)) ?_
  funext a; apply Fin.ext
  match a with
  | ⟨0, _⟩ => show win0_0.index (0 : Fin 1) (0 : Fin 2) * 2048 + 1 * (j 0).val = (j 0).val; have : win0_0.index (0 : Fin 1) (0 : Fin 2) = 0 := rfl; omega
  | ⟨1, _⟩ => show win0_0.index (0 : Fin 1) (1 : Fin 2) * 1024 + 1 * (j 1).val = (j 1).val; have : win0_0.index (0 : Fin 1) (1 : Fin 2) = 0 := rfl; omega

/-- What the one point writes back is the result, read through the window's (whole) block. -/
theorem flushed_out (c : Dev nD) (t : Fin cfg0.N) :
    (dats m ρ 0 c).flushed 1 t = ((cfg0.win 1).blk t).view.read (Elt F) (outAt m ρ c) := by
  show (cfg0.win 1).cut (grid0.coords t) ((dats m ρ 0 c).after 1 t) = _
  rw [show (dats m ρ 0 c).after 1 t = outAt m ρ c from rfl]
  funext j
  show outAt m ρ c j = outAt m ρ c (((cfg0.win 1).blk t).view.emb j)
  refine congrArg (outAt m ρ c) ?_
  funext a; apply Fin.ext
  match a with
  | ⟨0, _⟩ => show (j 0).val = win0_1.index t (0 : Fin 2) * 1 + 1 * (j 0).val; have : win0_1.index t (0 : Fin 2) = 0 := rfl; omega
  | ⟨1, _⟩ => show (j 1).val = win0_1.index t (1 : Fin 2) * 1024 + 1 * (j 1).val; have : win0_1.index t (1 : Fin 2) = 0 := rfl; omega

/-- Every index of the result array lies in the one point's block. -/
theorem cover_out (i : S1x1024.Idx) : ∃ t : Fin cfg0.N, (cfg0.win 1).flush t = true ∧ i ∈ ((cfg0.win 1).blk t).view.set := by
  refine ⟨t₀, flush0_1 t₀, ?_⟩
  show i ∈ ((View.whole main_v1).slice (win0_1.rect t₀)).set
  rw [View.set_slice_whole, Rect.mem_set_unit]
  intro a
  have h0 : (i 0).val < 1 := (i 0).isLt
  have h1 : (i 1).val < 1024 := (i 1).isLt
  match a with
  | ⟨0, _⟩ => show win0_1.index t₀ (0 : Fin 2) * 1 ≤ (i 0).val ∧ (i 0).val < win0_1.index t₀ (0 : Fin 2) * 1 + 1; have : win0_1.index t₀ (0 : Fin 2) = 0 := rfl; omega
  | ⟨1, _⟩ => show win0_1.index t₀ (1 : Fin 2) * 1024 ≤ (i 1).val ∧ (i 1).val < win0_1.index t₀ (1 : Fin 2) * 1024 + 1024; have : win0_1.index t₀ (1 : Fin 2) = 0 := rfl; omega

/-- The result array after the run is the kernel's result. -/
theorem finalA_out (c : Dev nD) : finalA m ρ c (1 : Fin 2) = outAt m ρ c :=
  (dats m ρ 0 c).arrAt_eq_of_cover 1 _ (fun t _ => flushed_out m ρ c t) (fun i => cover_out i)

/-- Every weakly fair execution of the eight kernels terminates without a fault, every device's result array at the kernel's result of
    the eight input blocks, its input block unchanged. -/
theorem run_values : θ_run defs (onTc (τ := τ) (main (F := F))) ⟨m, fun _ => 0, ρ⟩ fun r => ∀ c : Dev nD,
    r.2.mem ((c : Thread nD τ).loc main_v1) = result (fun p : Dev nD => m ((p : Thread nD τ).loc main_arg0)) c
      ∧ r.2.mem ((c : Thread nD τ).loc main_arg0) = m ((c : Thread nD τ).loc main_arg0) :=
  (θ_run defs _ _).mono (fun r h c =>
      ⟨((h c 1).trans (finalA_out m ρ c)).trans (by unfold outAt; rw [show xstg m ρ = fun p : Dev nD => m ((p : Thread nD τ).loc main_arg0) from funext (xstg_eq m ρ)]),
        ((h c 0).trans (finalA_x m ρ c))⟩)
    (run_main m ρ)

/-- info: 'Cert.Kernel.Proto.run_values' depends on axioms: [propext, Classical.choice, Quot.sound] -/
#guard_msgs in #print axioms run_values

end Cert.Kernel.Proto

end
-- ==== Proof.MeanValue.lean ====
/-
  The two programs compute one function: the kernel's result on any device — the column sums of the eight gathered rows, each
  row the column sums of one device's block of 2048 rows, scaled by 2⁻¹⁴ — is the reference's — the column sums of all 16384 rows
  divided by 16384 —, on the extended reals, index by index.
-/
import proofs.«900565_g7700000000000566_dist_mean_ax0_shard0_i_m2048_n1024_v7x_i8_bf16_1_alg».proof.Proof.Gathered
import proofs.«900565_g7700000000000566_dist_mean_ax0_shard0_i_m2048_n1024_v7x_i8_bf16_1_alg».proof.Proof.Gen.ReferenceIdeal.Read
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws

noncomputable section

namespace Cert.MeanValue

open Cert.KernelIdeal Cert.KernelIdeal.Gen Cert.KernelIdeal.Mesh
open Idealize.ShloMosaic Idealize.ShloMosaic.ValueIdx

/-- A sum over the rows of a two-axis array, read at a column: the sum of that column's entries. -/
theorem colsum_apply {n : Nat} (x : FVec Ideal ⟨2, ![n, 1024]⟩ .f32)
    (h : (⟨2, ![n, 1024]⟩ : Shape).Reduces [0] S1024) (hφ : FKind.Formats .f32)
    (hacc : (0x00000000#32 : BitVec 32) = 0x00000000#32) (l : Fin 1024) :
    multiReduction (F := Ideal) .add [0] S1024 x 0x00000000#32 h hφ hacc (ix1 l) = ∑ r : Fin n, x (ix2 r l) := by
  refine (Ideal.multiReduction_add_single x 0x00000000#32 h hφ hacc (ix1 l)).trans ?_
  refine Finset.sum_congr rfl fun r _ => congrArg x ?_
  funext a; match a with | ⟨0, _⟩ => rfl | ⟨1, _⟩ => rfl

/-- The row a device stores and sends, at column `l`: the sum of column `l` of its block. -/
theorem rowOf_apply (x : Vec Ideal S2048x1024 .f32) (l : Fin 1024) :
    rowOf (F := Ideal) x (col l) = ∑ r : Fin 2048, x (ix2 r l) := by
  unfold rowOf k0_pay2
  rw [shapeCast_self, shapeCast_self]
  refine (shapeCast_a_1a_apply _ shapeCasts_S1024_S1x1024 (0 : Fin 1) l).trans ?_
  exact colsum_apply x _ _ _ l

/-- The result from the eight gathered rows, at column `l`: their sum there, times the scaling constant. -/
theorem pay1_apply (g : Vec Ideal S8x1024 .f32) (l : Fin 1024) :
    k0_pay1 (F := Ideal) g (col l) = (∑ d : Fin 8, g (cell d l)) * Ideal.ofBits .f32 0x38800000#32 := by
  unfold k0_pay1
  rw [mulf_apply, broadcast_apply]
  refine congrArg (· * Ideal.ofBits .f32 0x38800000#32) ?_
  refine (shapeCast_a_1a_apply _ shapeCasts_S1024_S1x1024 (0 : Fin 1) l).trans ?_
  exact colsum_apply g _ _ _ l

/-- The kernel's scaling constant is 2⁻¹⁴ = 1/16384: exponent field 113, significand 2²³, so 2²³ · 2⁻³⁷. -/
theorem ofBits_two_pow_neg14 : Ideal.ofBits .f32 0x38800000#32 = (((1 : ℝ) / 16384 : ℝ) : EReal) := by
  simp [Ideal.ofBits, Ideal.ieee]
  rw [← EReal.coe_mul, EReal.coe_eq_coe_iff]
  norm_num

/-- The reference's divisor is 2¹⁴ = 16384: exponent field 141, significand 2²³, so 2²³ · 2⁻⁹. -/
theorem ofBits_16384 : Ideal.ofBits .f32 0x46800000#32 = ((16384 : ℝ) : EReal) := by
  simp [Ideal.ofBits, Ideal.ieee]
  rw [← EReal.coe_mul, EReal.coe_eq_coe_iff]
  norm_num

/-- At a fixed device, "the device `d` places back" runs through all eight devices as `d` does. -/
def back (c : Dev nD) : Fin 8 ≃ Fin 8 :=
  ⟨fun d => bwd c d, fun p => dist p c, fun d => dist_bwd c d, fun p => bwd_dist p c⟩

/-- A sum over 16384 rows, grouped into 8 blocks of 2048 consecutive rows. -/
theorem sum_blocks {M : Type} [AddCommMonoid M] (G : Fin 16384 → M) :
    ∑ k : Fin 16384, G k = ∑ p : Fin 8, ∑ r : Fin 2048, G ⟨p.val * 2048 + r.val, by omega⟩ := by
  refine (Equiv.sum_comp (finProdFinEquiv (m := 8) (n := 2048)) G).symm.trans ?_
  refine (Fintype.sum_prod_type _).trans ?_
  refine Finset.sum_congr rfl fun p _ => Finset.sum_congr rfl fun r _ => congrArg G (Fin.ext ?_)
  show r.val + 2048 * p.val = p.val * 2048 + r.val
  omega

/-- The eight devices' column sums, taken in the order the ring delivers them, add up to the column sum of the whole
    array: the blocks partition its rows, and the order of the blocks does not matter in a commutative sum. -/
theorem regroup (X : Vec Ideal Cert.ReferenceIdeal.S16384x1024 .f32) (c : Dev nD) (l : Fin 1024)
    (h : Layout.Tiles ⟨2, ![2048, 1024]⟩ ⟨2, ![16384, 1024]⟩ 0 8) :
    ∑ d : Fin 8, ∑ r : Fin 2048, X (h.idx (bwd c d) (ix2 r l))
      = ∑ k : Fin 16384, X (Cert.ReferenceIdeal.Read.idx_main_v0 (Cert.ReferenceIdeal.Read.idx_main_v1 (ix2 (0 : Fin 1) l)) k) := by
  refine Eq.symm ((sum_blocks _).trans ?_)
  refine (Equiv.sum_comp (back c) (fun p : Fin 8 => ∑ r : Fin 2048,
    X (Cert.ReferenceIdeal.Read.idx_main_v0 (Cert.ReferenceIdeal.Read.idx_main_v1 (ix2 (0 : Fin 1) l)) ⟨p.val * 2048 + r.val, by omega⟩))).symm.trans ?_
  refine Finset.sum_congr rfl fun d _ => Finset.sum_congr rfl fun r _ => congrArg X ?_
  funext a; match a with | ⟨0, _⟩ => rfl | ⟨1, _⟩ => rfl

/-- Every device's result, from blocks that are the devices' blocks of one whole array `X`, is the reference's result on `X`. -/
theorem result_eq_reference (X : Vec Ideal Cert.ReferenceIdeal.S16384x1024 .f32) (c : Dev nD) :
    result (F := Ideal) (fun p => Layout.block ⟨2, ![2048, 1024]⟩ ⟨2, ![16384, 1024]⟩ 0 8 p X) c
      = Cert.ReferenceIdeal.Read.val_main_v3 (F := Ideal) X := by
  funext i
  obtain ⟨u, l, rfl⟩ : ∃ (u : Fin 1) (l : Fin 1024), i = ix2 u l := ⟨i 0, i 1, eq_ix2 i⟩
  obtain rfl : u = 0 := Subsingleton.elim _ _
  show k0_pay1 (F := Ideal) (gathered _ c) (col l) = _
  rw [pay1_apply]
  simp only [gathered_cell, rowOf_apply, Layout.block_apply]
  rw [Cert.ReferenceIdeal.Read.val_main_v3_apply, Cert.ReferenceIdeal.Read.val_main_v2_apply,
    Cert.ReferenceIdeal.Read.val_main_cst_0_apply, Cert.ReferenceIdeal.Read.val_main_v1_apply,
    Cert.ReferenceIdeal.Read.val_main_v0_apply, Cert.ReferenceIdeal.Read.val_main_cst_apply]
  rw [Ideal.hostDivf_def, Ideal.ofBits_def, Ideal.ofBits_def, ofBits_16384,
    Ideal.div_coe (show (16384 : ℝ) ≠ 0 by norm_num), Ideal.ofBits_zero_f32, zero_add, ofBits_two_pow_neg14]
  exact congrArg (· * (((1 : ℝ) / 16384 : ℝ) : EReal)) (regroup X c l _)

end Cert.MeanValue

end
-- ==== Proof.lean ====
/-
  The kernel computes, on eight devices, the mean over all 16384 rows of an array of which each device holds a block of 2048 rows:
  each device sums its block by columns into row 0 of an eight-row scratch, the devices meet on the barrier semaphore, each copies its
  row 0 into one row of every other device's scratch, waits for its seven rows to land and its seven copies to leave, and scales the
  column sums of its eight rows by 2⁻¹⁴. Every device so ends with the same one-row result: the sum of the eight partial sums is the sum over
  all rows, in whatever order, and multiplying by 2⁻¹⁴ is dividing by 16384 on every extended real. The three frames are the runs with the
  values dropped; the idealization rewrote nothing.
-/
import proofs.«900565_g7700000000000566_dist_mean_ax0_shard0_i_m2048_n1024_v7x_i8_bf16_1_alg».proof.Defs
import proofs.«900565_g7700000000000566_dist_mean_ax0_shard0_i_m2048_n1024_v7x_i8_bf16_1_alg».proof.Proof.Gen.Kernel
import proofs.«900565_g7700000000000566_dist_mean_ax0_shard0_i_m2048_n1024_v7x_i8_bf16_1_alg».proof.Proof.Gen.Kernel.Skeleton
import proofs.«900565_g7700000000000566_dist_mean_ax0_shard0_i_m2048_n1024_v7x_i8_bf16_1_alg».proof.Proof.Gen.Kernel.Launch
import proofs.«900565_g7700000000000566_dist_mean_ax0_shard0_i_m2048_n1024_v7x_i8_bf16_1_alg».proof.Proof.Gen.Kernel.Points
import proofs.«900565_g7700000000000566_dist_mean_ax0_shard0_i_m2048_n1024_v7x_i8_bf16_1_alg».proof.Proof.Gen.Kernel.Frame
import proofs.«900565_g7700000000000566_dist_mean_ax0_shard0_i_m2048_n1024_v7x_i8_bf16_1_alg».proof.Proof.Gen.KernelIdeal
import proofs.«900565_g7700000000000566_dist_mean_ax0_shard0_i_m2048_n1024_v7x_i8_bf16_1_alg».proof.Proof.Gen.KernelIdeal.Skeleton
import proofs.«900565_g7700000000000566_dist_mean_ax0_shard0_i_m2048_n1024_v7x_i8_bf16_1_alg».proof.Proof.Gen.KernelIdeal.Launch
import proofs.«900565_g7700000000000566_dist_mean_ax0_shard0_i_m2048_n1024_v7x_i8_bf16_1_alg».proof.Proof.Gen.KernelIdeal.Points
import proofs.«900565_g7700000000000566_dist_mean_ax0_shard0_i_m2048_n1024_v7x_i8_bf16_1_alg».proof.Proof.Gen.KernelIdeal.Frame
import proofs.«900565_g7700000000000566_dist_mean_ax0_shard0_i_m2048_n1024_v7x_i8_bf16_1_alg».proof.Proof.Gen.ReferenceIdeal
import proofs.«900565_g7700000000000566_dist_mean_ax0_shard0_i_m2048_n1024_v7x_i8_bf16_1_alg».proof.Proof.Gen.ReferenceIdeal.Run
import proofs.«900565_g7700000000000566_dist_mean_ax0_shard0_i_m2048_n1024_v7x_i8_bf16_1_alg».proof.Proof.Gen.ReferenceIdeal.Read
import proofs.«900565_g7700000000000566_dist_mean_ax0_shard0_i_m2048_n1024_v7x_i8_bf16_1_alg».proof.Proof.Gen.Pre_finite_inputs_Kernel
import proofs.«900565_g7700000000000566_dist_mean_ax0_shard0_i_m2048_n1024_v7x_i8_bf16_1_alg».proof.Proof.Gen.Pre_finite_inputs_ReferenceIdeal
import proofs.«900565_g7700000000000566_dist_mean_ax0_shard0_i_m2048_n1024_v7x_i8_bf16_1_alg».proof.Proof.Final
import proofs.«900565_g7700000000000566_dist_mean_ax0_shard0_i_m2048_n1024_v7x_i8_bf16_1_alg».proof.Proof.BitsFinal
import proofs.«900565_g7700000000000566_dist_mean_ax0_shard0_i_m2048_n1024_v7x_i8_bf16_1_alg».proof.Proof.MeanValue
import Idealize.ShloMosaic.Adequacy
import Idealize.ShloMosaic.Init

noncomputable section

namespace Cert.Proof

open Idealize.ShloMosaic Idealize.SL.Sem

/-- The word-level kernel runs, faults nowhere and leaves its input blocks unchanged: its run with the result dropped. -/
theorem frame_k : Cert.frame_Kernel := fun m ρ _ =>
  (θ_run Cert.Kernel.defs _ _).mono (fun _ h c => (h c).2) (Cert.Kernel.Proto.run_values (F := Bits) m ρ)

/-- The same of the idealized kernel. -/
theorem frame_ki : Cert.frame_KernelIdeal := fun m ρ _ =>
  (θ_run Cert.KernelIdeal.defs _ _).mono (fun _ h c => (h c).2) (Cert.KernelIdeal.Proto.run_values (F := Ideal) m ρ)

/-- The reference's run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Every device's result is the reference's: its input blocks are the blocks of the reference's array, and the column sums of the
    eight partial sums scaled by 2⁻¹⁴ are the column sums of the whole array divided by 16384. -/
theorem algebraic : Cert.algebraic_KernelIdeal_ReferenceIdeal := by
  intro m ρ m' ρ' _ hagree
  refine ⟨Cert.ReferenceIdeal.Read.val_main_v3 (F := Ideal) (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun r h c => ⟨(h c).1.trans ?_, (h c).2⟩) (Cert.KernelIdeal.Proto.run_values (F := Ideal) m ρ)
    rw [show (fun p : Dev Cert.KernelIdeal.nD => m ((p.tc : Thread Cert.KernelIdeal.nD Cert.KernelIdeal.τ).loc Cert.KernelIdeal.main_arg0))
        = fun p => Layout.block ⟨2, ![2048, 1024]⟩ ⟨2, ![16384, 1024]⟩ 0 8 p (m' (((0 : Dev Cert.ReferenceIdeal.nD).tc : Thread Cert.ReferenceIdeal.nD Cert.ReferenceIdeal.τ).loc Cert.ReferenceIdeal.main_arg0)) from funext hagree]
    exact Cert.MeanValue.result_eq_reference _ c
  · refine (θ_run Cert.ReferenceIdeal.defs _ _).mono
      (fun r h => ⟨(h 0).1.trans (Cert.ReferenceIdeal.Read.val_main_v3_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
